-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![65536, 1024]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  main_v3
-- ==== Pre_finite_inputs_ReferenceIdeal.lean ====
abbrev S65536x1024 : Shape := ⟨2, ![65536, 1024]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel

variable [Facts]

def fn {F : FTy → Type} [FloatOps F] (main_arg0 : FVec F S65536x1024 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  main_v3
-- ==== Kernel.lean ====
abbrev S4096x1024 : Shape := ⟨2, ![4096, 1024]⟩
abbrev S1x1024 : Shape := ⟨2, ![1, 1024]⟩
abbrev S8x512x1024 : Shape := ⟨3, ![8, 512, 1024]⟩
abbrev S16x1024 : Shape := ⟨2, ![16, 1024]⟩
abbrev S8 : Shape := ⟨1, ![8]⟩
abbrev S16 : Shape := ⟨1, ![16]⟩
abbrev S1 : Shape := ⟨1, ![1]⟩
abbrev S_ : Shape := ⟨0, ![]⟩
abbrev S1x512x1024 : Shape := ⟨3, ![1, 512, 1024]⟩
abbrev S512x1024 : Shape := ⟨2, ![512, 1024]⟩
abbrev S1024 : Shape := ⟨1, ![1024]⟩

abbrev nBuf : Space → Nat
  | .hbm => 2
  | .vmem => 3
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .local _ .vmem, ⟨0, _⟩ => ⟨S1x1024, .f32⟩
  | .local _ .vmem, ⟨1, _⟩ => ⟨S8x512x1024, .f32⟩
  | .local _ .vmem, ⟨2, _⟩ => ⟨S16x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  (ofTc nBuf bufTy 1 41 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_38 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_34 : BitVec 32 := 1#32
  let v44 : BitVec 32 := Scalar.addi v2 c1_i32_34
  let c16_i32_35 : BitVec 32 := 16#32
  let v45 : BitVec 32 := Scalar.remsi v44 c16_i32_35
  let c1_i32_37 : BitVec 32 := 1#32
  let v46 : BitVec 32 := Scalar.muli v45 c1_i32_37
  let v47 : BitVec 32 := Scalar.addi c0_i32_38 v46
  v47.toNat
def k0_dev2 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_39 : BitVec 32 := 2#32
  let v48 : BitVec 32 := Scalar.addi v2 c2_i32_39
  let c16_i32_40 : BitVec 32 := 16#32
  let v49 : BitVec 32 := Scalar.remsi v48 c16_i32_40
  let c1_i32_42 : BitVec 32 := 1#32
  let v50 : BitVec 32 := Scalar.muli v49 c1_i32_42
  let v51 : BitVec 32 := Scalar.addi c0_i32_43 v50
  v51.toNat
def k0_dev3 (d0 : Dev nD) : Nat :=
  let c0_i32_48 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_44 : BitVec 32 := 3#32
  let v52 : BitVec 32 := Scalar.addi v2 c3_i32_44
  let c16_i32_45 : BitVec 32 := 16#32
  let v53 : BitVec 32 := Scalar.remsi v52 c16_i32_45
  let c1_i32_47 : BitVec 32 := 1#32
  let v54 : BitVec 32 := Scalar.muli v53 c1_i32_47
  let v55 : BitVec 32 := Scalar.addi c0_i32_48 v54
  v55.toNat
def k0_dev4 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_49 : BitVec 32 := 4#32
  let v56 : BitVec 32 := Scalar.addi v2 c4_i32_49
  let c16_i32_50 : BitVec 32 := 16#32
  let v57 : BitVec 32 := Scalar.remsi v56 c16_i32_50
  let c1_i32_52 : BitVec 32 := 1#32
  let v58 : BitVec 32 := Scalar.muli v57 c1_i32_52
  let v59 : BitVec 32 := Scalar.addi c0_i32_53 v58
  v59.toNat
def k0_dev5 (d0 : Dev nD) : Nat :=
  let c0_i32_58 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_54 : BitVec 32 := 5#32
  let v60 : BitVec 32 := Scalar.addi v2 c5_i32_54
  let c16_i32_55 : BitVec 32 := 16#32
  let v61 : BitVec 32 := Scalar.remsi v60 c16_i32_55
  let c1_i32_57 : BitVec 32 := 1#32
  let v62 : BitVec 32 := Scalar.muli v61 c1_i32_57
  let v63 : BitVec 32 := Scalar.addi c0_i32_58 v62
  v63.toNat
def k0_dev6 (d0 : Dev nD) : Nat :=
  let c0_i32_63 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_59 : BitVec 32 := 6#32
  let v64 : BitVec 32 := Scalar.addi v2 c6_i32_59
  let c16_i32_60 : BitVec 32 := 16#32
  let v65 : BitVec 32 := Scalar.remsi v64 c16_i32_60
  let c1_i32_62 : BitVec 32 := 1#32
  let v66 : BitVec 32 := Scalar.muli v65 c1_i32_62
  let v67 : BitVec 32 := Scalar.addi c0_i32_63 v66
  v67.toNat
def k0_dev7 (d0 : Dev nD) : Nat :=
  let c0_i32_68 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_64 : BitVec 32 := 7#32
  let v68 : BitVec 32 := Scalar.addi v2 c7_i32_64
  let c16_i32_65 : BitVec 32 := 16#32
  let v69 : BitVec 32 := Scalar.remsi v68 c16_i32_65
  let c1_i32_67 : BitVec 32 := 1#32
  let v70 : BitVec 32 := Scalar.muli v69 c1_i32_67
  let v71 : BitVec 32 := Scalar.addi c0_i32_68 v70
  v71.toNat
def k0_dev8 (d0 : Dev nD) : Nat :=
  let c0_i32_72 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v72 : BitVec 32 := Scalar.addi v2 c8_i32
  let c16_i32_69 : BitVec 32 := 16#32
  let v73 : BitVec 32 := Scalar.remsi v72 c16_i32_69
  let c1_i32_71 : BitVec 32 := 1#32
  let v74 : BitVec 32 := Scalar.muli v73 c1_i32_71
  let v75 : BitVec 32 := Scalar.addi c0_i32_72 v74
  v75.toNat
def k0_dev9 (d0 : Dev nD) : Nat :=
  let c0_i32_76 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v76 : BitVec 32 := Scalar.addi v2 c9_i32
  let c16_i32_73 : BitVec 32 := 16#32
  let v77 : BitVec 32 := Scalar.remsi v76 c16_i32_73
  let c1_i32_75 : BitVec 32 := 1#32
  let v78 : BitVec 32 := Scalar.muli v77 c1_i32_75
  let v79 : BitVec 32 := Scalar.addi c0_i32_76 v78
  v79.toNat
def k0_dev10 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v80 : BitVec 32 := Scalar.addi v2 c10_i32
  let c16_i32_77 : BitVec 32 := 16#32
  let v81 : BitVec 32 := Scalar.remsi v80 c16_i32_77
  let c1_i32_79 : BitVec 32 := 1#32
  let v82 : BitVec 32 := Scalar.muli v81 c1_i32_79
  let v83 : BitVec 32 := Scalar.addi c0_i32_80 v82
  v83.toNat
def k0_dev11 (d0 : Dev nD) : Nat :=
  let c0_i32_84 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v84 : BitVec 32 := Scalar.addi v2 c11_i32
  let c16_i32_81 : BitVec 32 := 16#32
  let v85 : BitVec 32 := Scalar.remsi v84 c16_i32_81
  let c1_i32_83 : BitVec 32 := 1#32
  let v86 : BitVec 32 := Scalar.muli v85 c1_i32_83
  let v87 : BitVec 32 := Scalar.addi c0_i32_84 v86
  v87.toNat
def k0_dev12 (d0 : Dev nD) : Nat :=
  let c0_i32_88 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v88 : BitVec 32 := Scalar.addi v2 c12_i32
  let c16_i32_85 : BitVec 32 := 16#32
  let v89 : BitVec 32 := Scalar.remsi v88 c16_i32_85
  let c1_i32_87 : BitVec 32 := 1#32
  let v90 : BitVec 32 := Scalar.muli v89 c1_i32_87
  let v91 : BitVec 32 := Scalar.addi c0_i32_88 v90
  v91.toNat
def k0_dev13 (d0 : Dev nD) : Nat :=
  let c0_i32_92 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v92 : BitVec 32 := Scalar.addi v2 c13_i32
  let c16_i32_89 : BitVec 32 := 16#32
  let v93 : BitVec 32 := Scalar.remsi v92 c16_i32_89
  let c1_i32_91 : BitVec 32 := 1#32
  let v94 : BitVec 32 := Scalar.muli v93 c1_i32_91
  let v95 : BitVec 32 := Scalar.addi c0_i32_92 v94
  v95.toNat
def k0_dev14 (d0 : Dev nD) : Nat :=
  let c0_i32_96 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v96 : BitVec 32 := Scalar.addi v2 c14_i32
  let c16_i32_93 : BitVec 32 := 16#32
  let v97 : BitVec 32 := Scalar.remsi v96 c16_i32_93
  let c1_i32_95 : BitVec 32 := 1#32
  let v98 : BitVec 32 := Scalar.muli v97 c1_i32_95
  let v99 : BitVec 32 := Scalar.addi c0_i32_96 v98
  v99.toNat
def k0_dev15 (d0 : Dev nD) : Nat :=
  let c0_i32_100 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v100 : BitVec 32 := Scalar.addi v2 c15_i32
  let c16_i32_97 : BitVec 32 := 16#32
  let v101 : BitVec 32 := Scalar.remsi v100 c16_i32_97
  let c1_i32_99 : BitVec 32 := 1#32
  let v102 : BitVec 32 := Scalar.muli v101 c1_i32_99
  let v103 : BitVec 32 := Scalar.addi c0_i32_100 v102
  v103.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v183 : Index := Scalar.indexCast v2
  let c0_172 : Index := 0#32
  ![v183.toNat, 0]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_180 : BitVec 32 := 0#32
  ![v2.toNat, 0]
def k0_dev16 (d0 : Dev nD) : Nat :=
  let c0_i32_179 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_174 : BitVec 32 := 14#32
  let v187 : BitVec 32 := Scalar.addi v2 c14_i32_174
  let c16_i32_175 : BitVec 32 := 16#32
  let v188 : BitVec 32 := Scalar.remsi v187 c16_i32_175
  let c1_i32_178 : BitVec 32 := 1#32
  let v189 : BitVec 32 := Scalar.muli v188 c1_i32_178
  let v190 : BitVec 32 := Scalar.addi c0_i32_179 v189
  v190.toNat
def k0_dev17 (d0 : Dev nD) : Nat :=
  let c0_i32_187 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_182 : BitVec 32 := 13#32
  let v197 : BitVec 32 := Scalar.addi v2 c13_i32_182
  let c16_i32_183 : BitVec 32 := 16#32
  let v198 : BitVec 32 := Scalar.remsi v197 c16_i32_183
  let c1_i32_186 : BitVec 32 := 1#32
  let v199 : BitVec 32 := Scalar.muli v198 c1_i32_186
  let v200 : BitVec 32 := Scalar.addi c0_i32_187 v199
  v200.toNat
def k0_dev18 (d0 : Dev nD) : Nat :=
  let c0_i32_195 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_190 : BitVec 32 := 15#32
  let v207 : BitVec 32 := Scalar.addi v2 c15_i32_190
  let c16_i32_191 : BitVec 32 := 16#32
  let v208 : BitVec 32 := Scalar.remsi v207 c16_i32_191
  let c1_i32_194 : BitVec 32 := 1#32
  let v209 : BitVec 32 := Scalar.muli v208 c1_i32_194
  let v210 : BitVec 32 := Scalar.addi c0_i32_195 v209
  v210.toNat
def k0_dev19 (d0 : Dev nD) : Nat :=
  let c0_i32_203 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_198 : BitVec 32 := 10#32
  let v217 : BitVec 32 := Scalar.addi v2 c10_i32_198
  let c16_i32_199 : BitVec 32 := 16#32
  let v218 : BitVec 32 := Scalar.remsi v217 c16_i32_199
  let c1_i32_202 : BitVec 32 := 1#32
  let v219 : BitVec 32 := Scalar.muli v218 c1_i32_202
  let v220 : BitVec 32 := Scalar.addi c0_i32_203 v219
  v220.toNat
def k0_dev20 (d0 : Dev nD) : Nat :=
  let c0_i32_211 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_206 : BitVec 32 := 9#32
  let v227 : BitVec 32 := Scalar.addi v2 c9_i32_206
  let c16_i32_207 : BitVec 32 := 16#32
  let v228 : BitVec 32 := Scalar.remsi v227 c16_i32_207
  let c1_i32_210 : BitVec 32 := 1#32
  let v229 : BitVec 32 := Scalar.muli v228 c1_i32_210
  let v230 : BitVec 32 := Scalar.addi c0_i32_211 v229
  v230.toNat
def k0_dev21 (d0 : Dev nD) : Nat :=
  let c0_i32_219 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_214 : BitVec 32 := 11#32
  let v237 : BitVec 32 := Scalar.addi v2 c11_i32_214
  let c16_i32_215 : BitVec 32 := 16#32
  let v238 : BitVec 32 := Scalar.remsi v237 c16_i32_215
  let c1_i32_218 : BitVec 32 := 1#32
  let v239 : BitVec 32 := Scalar.muli v238 c1_i32_218
  let v240 : BitVec 32 := Scalar.addi c0_i32_219 v239
  v240.toNat
def k0_dev22 (d0 : Dev nD) : Nat :=
  let c0_i32_227 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_222 : BitVec 32 := 12#32
  let v247 : BitVec 32 := Scalar.addi v2 c12_i32_222
  let c16_i32_223 : BitVec 32 := 16#32
  let v248 : BitVec 32 := Scalar.remsi v247 c16_i32_223
  let c1_i32_226 : BitVec 32 := 1#32
  let v249 : BitVec 32 := Scalar.muli v248 c1_i32_226
  let v250 : BitVec 32 := Scalar.addi c0_i32_227 v249
  v250.toNat
def k0_dev23 (d0 : Dev nD) : Nat :=
  let c0_i32_235 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_230 : BitVec 32 := 6#32
  let v257 : BitVec 32 := Scalar.addi v2 c6_i32_230
  let c16_i32_231 : BitVec 32 := 16#32
  let v258 : BitVec 32 := Scalar.remsi v257 c16_i32_231
  let c1_i32_234 : BitVec 32 := 1#32
  let v259 : BitVec 32 := Scalar.muli v258 c1_i32_234
  let v260 : BitVec 32 := Scalar.addi c0_i32_235 v259
  v260.toNat
def k0_dev24 (d0 : Dev nD) : Nat :=
  let c0_i32_243 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_238 : BitVec 32 := 8#32
  let v267 : BitVec 32 := Scalar.addi v2 c8_i32_238
  let c16_i32_239 : BitVec 32 := 16#32
  let v268 : BitVec 32 := Scalar.remsi v267 c16_i32_239
  let c1_i32_242 : BitVec 32 := 1#32
  let v269 : BitVec 32 := Scalar.muli v268 c1_i32_242
  let v270 : BitVec 32 := Scalar.addi c0_i32_243 v269
  v270.toNat
def k0_dev25 (d0 : Dev nD) : Nat :=
  let c0_i32_251 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_246 : BitVec 32 := 2#32
  let v277 : BitVec 32 := Scalar.addi v2 c2_i32_246
  let c16_i32_247 : BitVec 32 := 16#32
  let v278 : BitVec 32 := Scalar.remsi v277 c16_i32_247
  let c1_i32_250 : BitVec 32 := 1#32
  let v279 : BitVec 32 := Scalar.muli v278 c1_i32_250
  let v280 : BitVec 32 := Scalar.addi c0_i32_251 v279
  v280.toNat
def k0_dev26 (d0 : Dev nD) : Nat :=
  let c0_i32_259 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_254 : BitVec 32 := 5#32
  let v287 : BitVec 32 := Scalar.addi v2 c5_i32_254
  let c16_i32_255 : BitVec 32 := 16#32
  let v288 : BitVec 32 := Scalar.remsi v287 c16_i32_255
  let c1_i32_258 : BitVec 32 := 1#32
  let v289 : BitVec 32 := Scalar.muli v288 c1_i32_258
  let v290 : BitVec 32 := Scalar.addi c0_i32_259 v289
  v290.toNat
def k0_dev27 (d0 : Dev nD) : Nat :=
  let c0_i32_267 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_262 : BitVec 32 := 7#32
  let v297 : BitVec 32 := Scalar.addi v2 c7_i32_262
  let c16_i32_263 : BitVec 32 := 16#32
  let v298 : BitVec 32 := Scalar.remsi v297 c16_i32_263
  let c1_i32_266 : BitVec 32 := 1#32
  let v299 : BitVec 32 := Scalar.muli v298 c1_i32_266
  let v300 : BitVec 32 := Scalar.addi c0_i32_267 v299
  v300.toNat
def k0_dev28 (d0 : Dev nD) : Nat :=
  let c0_i32_275 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_270 : BitVec 32 := 1#32
  let v307 : BitVec 32 := Scalar.addi v2 c1_i32_270
  let c16_i32_271 : BitVec 32 := 16#32
  let v308 : BitVec 32 := Scalar.remsi v307 c16_i32_271
  let c1_i32_274 : BitVec 32 := 1#32
  let v309 : BitVec 32 := Scalar.muli v308 c1_i32_274
  let v310 : BitVec 32 := Scalar.addi c0_i32_275 v309
  v310.toNat
def k0_dev29 (d0 : Dev nD) : Nat :=
  let c0_i32_283 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_278 : BitVec 32 := 3#32
  let v317 : BitVec 32 := Scalar.addi v2 c3_i32_278
  let c16_i32_279 : BitVec 32 := 16#32
  let v318 : BitVec 32 := Scalar.remsi v317 c16_i32_279
  let c1_i32_282 : BitVec 32 := 1#32
  let v319 : BitVec 32 := Scalar.muli v318 c1_i32_282
  let v320 : BitVec 32 := Scalar.addi c0_i32_283 v319
  v320.toNat
def k0_dev30 (d0 : Dev nD) : Nat :=
  let c0_i32_291 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_286 : BitVec 32 := 4#32
  let v327 : BitVec 32 := Scalar.addi v2 c4_i32_286
  let c16_i32_287 : BitVec 32 := 16#32
  let v328 : BitVec 32 := Scalar.remsi v327 c16_i32_287
  let c1_i32_290 : BitVec 32 := 1#32
  let v329 : BitVec 32 := Scalar.muli v328 c1_i32_290
  let v330 : BitVec 32 := Scalar.addi c0_i32_291 v329
  v330.toNat
def k0_off3 (d0 : Dev nD) (c4_i32_369 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v397 : BitVec 32 := Scalar.subi v2 c4_i32_369
  let c16_i32_370 : BitVec 32 := 16#32
  let v398 : BitVec 32 := Scalar.addi v397 c16_i32_370
  let c16_i32_371 : BitVec 32 := 16#32
  let v399 : BitVec 32 := Scalar.remsi v398 c16_i32_371
  let c0_i32_376 : BitVec 32 := 0#32
  ![v399.toNat, 0]
def k0_off4 (d0 : Dev nD) (c4_i32_369 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v397 : BitVec 32 := Scalar.subi v2 c4_i32_369
  let c16_i32_370 : BitVec 32 := 16#32
  let v398 : BitVec 32 := Scalar.addi v397 c16_i32_370
  let c16_i32_371 : BitVec 32 := 16#32
  let v399 : BitVec 32 := Scalar.remsi v398 c16_i32_371
  let v406 : Index := Scalar.indexCast v399
  let c0_378 : Index := 0#32
  ![v406.toNat, 0]
abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

class Facts₀ : Prop where
  inb_S8_S1_0 : ∀ a, (![0] : Fin 1 → Nat) a + S1.size a ≤ S8.size a
  squeezes_S1_S_ : S1.Squeezes S_
  inb_S8x512x1024_S1x512x1024_0_0_0 : ∀ a, (![0, 0, 0] : Fin 3 → Nat) a + S1x512x1024.size a ≤ S8x512x1024.size a
  squeezes_S1x512x1024_S512x1024 : S1x512x1024.Squeezes S512x1024
  inb_S4096x1024_S512x1024_0_0 : ∀ a, (![0, 0] : Fin 2 → Nat) a + S512x1024.size a ≤ S4096x1024.size a
  inb_S8_S1_1 : ∀ a, (![1] : Fin 1 → Nat) a + S1.size a ≤ S8.size a
  inb_S8x512x1024_S1x512x1024_1_0_0 : ∀ a, (![1, 0, 0] : Fin 3 → Nat) a + S1x512x1024.size a ≤ S8x512x1024.size a
  inb_S4096x1024_S512x1024_512_0 : ∀ a, (![512, 0] : Fin 2 → Nat) a + S512x1024.size a ≤ S4096x1024.size a
  inb_S8_S1_2 : ∀ a, (![2] : Fin 1 → Nat) a + S1.size a ≤ S8.size a
  inb_S8x512x1024_S1x512x1024_2_0_0 : ∀ a, (![2, 0, 0] : Fin 3 → Nat) a + S1x512x1024.size a ≤ S8x512x1024.size a
  inb_S4096x1024_S512x1024_1024_0 : ∀ a, (![1024, 0] : Fin 2 → Nat) a + S512x1024.size a ≤ S4096x1024.size a
  inb_S8_S1_3 : ∀ a, (![3] : Fin 1 → Nat) a + S1.size a ≤ S8.size a
  inb_S8x512x1024_S1x512x1024_3_0_0 : ∀ a, (![3, 0, 0] : Fin 3 → Nat) a + S1x512x1024.size a ≤ S8x512x1024.size a
  inb_S4096x1024_S512x1024_1536_0 : ∀ a, (![1536, 0] : Fin 2 → Nat) a + S512x1024.size a ≤ S4096x1024.size a
  inb_S8_S1_4 : ∀ a, (![4] : Fin 1 → Nat) a + S1.size a ≤ S8.size a
  inb_S8x512x1024_S1x512x1024_4_0_0 : ∀ a, (![4, 0, 0] : Fin 3 → Nat) a + S1x512x1024.size a ≤ S8x512x1024.size a
  inb_S4096x1024_S512x1024_2048_0 : ∀ a, (![2048, 0] : Fin 2 → Nat) a + S512x1024.size a ≤ S4096x1024.size a
  inb_S8_S1_5 : ∀ a, (![5] : Fin 1 → Nat) a + S1.size a ≤ S8.size a
  inb_S8x512x1024_S1x512x1024_5_0_0 : ∀ a, (![5, 0, 0] : Fin 3 → Nat) a + S1x512x1024.size a ≤ S8x512x1024.size a
  inb_S4096x1024_S512x1024_2560_0 : ∀ a, (![2560, 0] : Fin 2 → Nat) a + S512x1024.size a ≤ S4096x1024.size a
  inb_S8_S1_6 : ∀ a, (![6] : Fin 1 → Nat) a + S1.size a ≤ S8.size a
  inb_S8x512x1024_S1x512x1024_6_0_0 : ∀ a, (![6, 0, 0] : Fin 3 → Nat) a + S1x512x1024.size a ≤ S8x512x1024.size a
  inb_S4096x1024_S512x1024_3072_0 : ∀ a, (![3072, 0] : Fin 2 → Nat) a + S512x1024.size a ≤ S4096x1024.size a
  inb_S8_S1_7 : ∀ a, (![7] : Fin 1 → Nat) a + S1.size a ≤ S8.size a
  inb_S8x512x1024_S1x512x1024_7_0_0 : ∀ a, (![7, 0, 0] : Fin 3 → Nat) a + S1x512x1024.size a ≤ S8x512x1024.size a
  inb_S4096x1024_S512x1024_3584_0 : ∀ a, (![3584, 0] : Fin 2 → Nat) a + S512x1024.size a ≤ S4096x1024.size a
  hamt_1 : (1#32 : BitVec 32).msb = false
  h_S1x512x1024 : 0 < S1x512x1024.numel
  shapeCasts_S1x512x1024_S512x1024 : S1x512x1024.ShapeCasts S512x1024
  reduces_S512x1024_S1024 : S512x1024.Reduces [0] S1024
  shapeCasts_S1024_S1x1024 : S1024.ShapeCasts S1x1024
  h_S1x1024 : 0 < S1x1024.numel
  shapeCasts_S1x1024_S1x1024 : S1x1024.ShapeCasts S1x1024
  hamt_15 : (15#32 : BitVec 32).msb = false
  inb_S16_S1_14 : ∀ a, (![14] : Fin 1 → Nat) a + S1.size a ≤ S16.size a
  inb_S16_S1_13 : ∀ a, (![13] : Fin 1 → Nat) a + S1.size a ≤ S16.size a
  inb_S16_S1_15 : ∀ a, (![15] : Fin 1 → Nat) a + S1.size a ≤ S16.size a
  inb_S16_S1_10 : ∀ a, (![10] : Fin 1 → Nat) a + S1.size a ≤ S16.size a
  inb_S16_S1_9 : ∀ a, (![9] : Fin 1 → Nat) a + S1.size a ≤ S16.size a
  inb_S16_S1_11 : ∀ a, (![11] : Fin 1 → Nat) a + S1.size a ≤ S16.size a
  inb_S16_S1_12 : ∀ a, (![12] : Fin 1 → Nat) a + S1.size a ≤ S16.size a
  inb_S16_S1_6 : ∀ a, (![6] : Fin 1 → Nat) a + S1.size a ≤ S16.size a
  inb_S16_S1_8 : ∀ a, (![8] : Fin 1 → Nat) a + S1.size a ≤ S16.size a
  inb_S16_S1_2 : ∀ a, (![2] : Fin 1 → Nat) a + S1.size a ≤ S16.size a
  inb_S16_S1_5 : ∀ a, (![5] : Fin 1 → Nat) a + S1.size a ≤ S16.size a
  inb_S16_S1_7 : ∀ a, (![7] : Fin 1 → Nat) a + S1.size a ≤ S16.size a
  inb_S16_S1_1 : ∀ a, (![1] : Fin 1 → Nat) a + S1.size a ≤ S16.size a
  inb_S16_S1_3 : ∀ a, (![3] : Fin 1 → Nat) a + S1.size a ≤ S16.size a
  inb_S16_S1_4 : ∀ a, (![4] : Fin 1 → Nat) a + S1.size a ≤ S16.size a
  inb_S1x1024_S1x1024_0_0 : ∀ a, (![0, 0] : Fin 2 → Nat) a + S1x1024.size a ≤ S1x1024.size a
  hcc0_scratch2 : 1 + S8.numel ≤ 41
  hcc0_scratch3 : 9 + S16.numel ≤ 41
  hcc0_scratch4 : 25 + S16.numel ≤ 41
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_off1_inb : ∀ d0 : Dev nD, ∀ a, (k0_off1 d0) a + S1x1024.size a ≤ S16x1024.size a
  k0_off2_inb : ∀ d0 : Dev nD, ∀ a, (k0_off2 d0) a + S1x1024.size a ≤ S16x1024.size a
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_off3_inb : ∀ d0 : Dev nD, ∀ (r : Fin 15), ∀ a, (k0_off3 d0 (BitVec.ofNat 32 (1 + r.val))) a + S1x1024.size a ≤ S16x1024.size a
  k0_off4_inb : ∀ d0 : Dev nD, ∀ (r : Fin 15), ∀ a, (k0_off4 d0 (BitVec.ofNat 32 (1 + r.val))) a + S1x1024.size a ≤ S16x1024.size a
  hstage0_0 : ∀ j, (stage0_0 j).IsWhole

variable [Facts₀]

abbrev cc0_scratch2 : DmaSems sig S8 := SemArray.consecutive 1 S8 hcc0_scratch2
abbrev cc0_scratch3 : DmaSems sig S16 := SemArray.consecutive 9 S16 hcc0_scratch3
abbrev cc0_scratch4 : DmaSems sig S16 := SemArray.consecutive 25 S16 hcc0_scratch4

abbrev win0_0 : Pipeline.Window sig grid0 :=
  Pipeline.Window.whole (Memref.whole main_v1) true false (stage0_0 0) (sem0_0 0) (Memref.isWhole_whole _) (hstage0_0 0)

abbrev win0 : Fin 1 → Pipeline.Window sig grid0 := fun | 0 => win0_0 | ⟨_ + 1, h⟩ => absurd h (Nat.not_lt.2 (Nat.le_add_left _ _))
abbrev spec0 : Fin 1 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S_ : Shape := ⟨0, ![]⟩
abbrev S1024 : Shape := ⟨1, ![1024]⟩
abbrev S1x1024 : Shape := ⟨2, ![1, 1024]⟩

abbrev nBuf : Space → Nat
  | .hbm => 4
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S_, .f32⟩
  | .hbm, ⟨2, _⟩ => ⟨S1024, .f32⟩
  | .hbm, ⟨3, _⟩ => ⟨S1x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S65536x1024_S1024_d0 : S65536x1024.ReducesTo [0] S1024
  h_S_ : 0 < S_.numel
  bcast_S1024_S1x1024_1 : S1024.BroadcastsInDim S1x1024 (![1] : Fin 1 → Fin S1x1024.rank)

variable [Facts₀]

class Facts : Prop extends Facts₀ where

variable [Facts]
-- ==== Proof.Mesh.lean ====
/-
  The ring of sixteen devices: the device `k` places after `c`, and each printed device chain of the kernel
  as such a rotation of the thread's own device.
-/
import proofs.«901088_g7700000000001089_dist_sum_ax0_shard0_i_m4096_n1024_v7x_i16_f32_1_alg».proof.Proof.Gen.KernelIdeal

namespace Cert.KernelIdeal.P

open Idealize.ShloMosaic Cert.KernelIdeal Cert.KernelIdeal.Gen

/-- The device `k` places after `c` around the ring of sixteen. -/
def rot (c : Dev nD) (k : ℕ) : Dev nD := ⟨(c.val + k) % 16, Nat.mod_lt _ (by decide)⟩

theorem rot_val (c : Dev nD) (k : ℕ) : (rot c k).val = (c.val + k) % 16 := rfl

/-- Rotations compose by adding their steps. -/
theorem rot_rot (c : Dev nD) (a b : ℕ) : rot (rot c a) b = rot c (a + b) :=
  Fin.ext (by simp only [rot_val]; omega)

/-- Rotating by a multiple of sixteen is the identity. -/
theorem rot_zero (c : Dev nD) : rot c 0 = c := Fin.ext (by simp only [rot_val]; have hc : c.val < 16 := c.isLt; omega)
theorem rot_sixteen (c : Dev nD) : rot c 16 = c := Fin.ext (by simp only [rot_val]; have hc : c.val < 16 := c.isLt; omega)

/-- Going `d` places on and `16 - d` places on again comes back. -/
theorem rot_back (c : Dev nD) (d : ℕ) (hd : d ≤ 16) : rot (rot c d) (16 - d) = c := by
  rw [rot_rot, Nat.add_sub_cancel' hd, rot_sixteen]
theorem rot_fwd (c : Dev nD) (d : ℕ) (hd : d ≤ 16) : rot (rot c (16 - d)) d = c := by
  rw [rot_rot, Nat.sub_add_cancel hd, rot_sixteen]

/-- Two rotations of one device by steps below sixteen agree only when the steps do. -/
theorem rot_inj (c : Dev nD) {a b : ℕ} (ha : a < 16) (hb : b < 16) (h : rot c a = rot c b) : a = b := by
  have := congrArg Fin.val h; simp only [rot_val] at this; have hc : c.val < 16 := c.isLt; omega

/-- A rotation by a step strictly between 0 and 16 moves every device. -/
theorem rot_ne (c : Dev nD) {d : ℕ} (h0 : 0 < d) (hd : d < 16) : rot c d ≠ c := fun h => by
  have := congrArg Fin.val h; simp only [rot_val] at this; have hc : c.val < 16 := c.isLt; omega

/-! The fifteen handshake signals name the devices 1 to 15 places on; the fifteen transfers name them in the kernel's send order. -/
theorem dev1_eq (c : Dev nD) : (⟨k0_dev1 c, k0_dev1_lt c⟩ : Dev nD) = rot c 1 := Fin.ext (k0_dev1_eq c)
theorem dev2_eq (c : Dev nD) : (⟨k0_dev2 c, k0_dev2_lt c⟩ : Dev nD) = rot c 2 := Fin.ext (k0_dev2_eq c)
theorem dev3_eq (c : Dev nD) : (⟨k0_dev3 c, k0_dev3_lt c⟩ : Dev nD) = rot c 3 := Fin.ext (k0_dev3_eq c)
theorem dev4_eq (c : Dev nD) : (⟨k0_dev4 c, k0_dev4_lt c⟩ : Dev nD) = rot c 4 := Fin.ext (k0_dev4_eq c)
theorem dev5_eq (c : Dev nD) : (⟨k0_dev5 c, k0_dev5_lt c⟩ : Dev nD) = rot c 5 := Fin.ext (k0_dev5_eq c)
theorem dev6_eq (c : Dev nD) : (⟨k0_dev6 c, k0_dev6_lt c⟩ : Dev nD) = rot c 6 := Fin.ext (k0_dev6_eq c)
theorem dev7_eq (c : Dev nD) : (⟨k0_dev7 c, k0_dev7_lt c⟩ : Dev nD) = rot c 7 := Fin.ext (k0_dev7_eq c)
theorem dev8_eq (c : Dev nD) : (⟨k0_dev8 c, k0_dev8_lt c⟩ : Dev nD) = rot c 8 := Fin.ext (k0_dev8_eq c)
theorem dev9_eq (c : Dev nD) : (⟨k0_dev9 c, k0_dev9_lt c⟩ : Dev nD) = rot c 9 := Fin.ext (k0_dev9_eq c)
theorem dev10_eq (c : Dev nD) : (⟨k0_dev10 c, k0_dev10_lt c⟩ : Dev nD) = rot c 10 := Fin.ext (k0_dev10_eq c)
theorem dev11_eq (c : Dev nD) : (⟨k0_dev11 c, k0_dev11_lt c⟩ : Dev nD) = rot c 11 := Fin.ext (k0_dev11_eq c)
theorem dev12_eq (c : Dev nD) : (⟨k0_dev12 c, k0_dev12_lt c⟩ : Dev nD) = rot c 12 := Fin.ext (k0_dev12_eq c)
theorem dev13_eq (c : Dev nD) : (⟨k0_dev13 c, k0_dev13_lt c⟩ : Dev nD) = rot c 13 := Fin.ext (k0_dev13_eq c)
theorem dev14_eq (c : Dev nD) : (⟨k0_dev14 c, k0_dev14_lt c⟩ : Dev nD) = rot c 14 := Fin.ext (k0_dev14_eq c)
theorem dev15_eq (c : Dev nD) : (⟨k0_dev15 c, k0_dev15_lt c⟩ : Dev nD) = rot c 15 := Fin.ext (k0_dev15_eq c)
theorem dev16_eq (c : Dev nD) : (⟨k0_dev16 c, k0_dev16_lt c⟩ : Dev nD) = rot c 14 := Fin.ext (k0_dev16_eq c)
theorem dev17_eq (c : Dev nD) : (⟨k0_dev17 c, k0_dev17_lt c⟩ : Dev nD) = rot c 13 := Fin.ext (k0_dev17_eq c)
theorem dev18_eq (c : Dev nD) : (⟨k0_dev18 c, k0_dev18_lt c⟩ : Dev nD) = rot c 15 := Fin.ext (k0_dev18_eq c)
theorem dev19_eq (c : Dev nD) : (⟨k0_dev19 c, k0_dev19_lt c⟩ : Dev nD) = rot c 10 := Fin.ext (k0_dev19_eq c)
theorem dev20_eq (c : Dev nD) : (⟨k0_dev20 c, k0_dev20_lt c⟩ : Dev nD) = rot c 9 := Fin.ext (k0_dev20_eq c)
theorem dev21_eq (c : Dev nD) : (⟨k0_dev21 c, k0_dev21_lt c⟩ : Dev nD) = rot c 11 := Fin.ext (k0_dev21_eq c)
theorem dev22_eq (c : Dev nD) : (⟨k0_dev22 c, k0_dev22_lt c⟩ : Dev nD) = rot c 12 := Fin.ext (k0_dev22_eq c)
theorem dev23_eq (c : Dev nD) : (⟨k0_dev23 c, k0_dev23_lt c⟩ : Dev nD) = rot c 6 := Fin.ext (k0_dev23_eq c)
theorem dev24_eq (c : Dev nD) : (⟨k0_dev24 c, k0_dev24_lt c⟩ : Dev nD) = rot c 8 := Fin.ext (k0_dev24_eq c)
theorem dev25_eq (c : Dev nD) : (⟨k0_dev25 c, k0_dev25_lt c⟩ : Dev nD) = rot c 2 := Fin.ext (k0_dev25_eq c)
theorem dev26_eq (c : Dev nD) : (⟨k0_dev26 c, k0_dev26_lt c⟩ : Dev nD) = rot c 5 := Fin.ext (k0_dev26_eq c)
theorem dev27_eq (c : Dev nD) : (⟨k0_dev27 c, k0_dev27_lt c⟩ : Dev nD) = rot c 7 := Fin.ext (k0_dev27_eq c)
theorem dev28_eq (c : Dev nD) : (⟨k0_dev28 c, k0_dev28_lt c⟩ : Dev nD) = rot c 1 := Fin.ext (k0_dev28_eq c)
theorem dev29_eq (c : Dev nD) : (⟨k0_dev29 c, k0_dev29_lt c⟩ : Dev nD) = rot c 3 := Fin.ext (k0_dev29_eq c)
theorem dev30_eq (c : Dev nD) : (⟨k0_dev30 c, k0_dev30_lt c⟩ : Dev nD) = rot c 4 := Fin.ext (k0_dev30_eq c)

end Cert.KernelIdeal.P
-- ==== Proof.Cells.lean ====
/-
  The protocol's vocabulary: the sixteen devices' peers by offset, the semaphore cells of one device (the runtime's
  barrier semaphore, the eight chunk-copy semaphores, fifteen send and fifteen receive semaphores), the views the
  body copies through, and the resource algebra the cells' ghost state lives in.
-/
import proofs.«901088_g7700000000001089_dist_sum_ax0_shard0_i_m4096_n1024_v7x_i16_f32_1_alg».proof.Proof.Mesh
import proofs.«901088_g7700000000001089_dist_sum_ax0_shard0_i_m4096_n1024_v7x_i16_f32_1_alg».proof.Proof.Gen.KernelIdeal.Skeleton
import proofs.«901088_g7700000000001089_dist_sum_ax0_shard0_i_m4096_n1024_v7x_i16_f32_1_alg».proof.Proof.Gen.KernelIdeal.Launch
import proofs.«901088_g7700000000001089_dist_sum_ax0_shard0_i_m4096_n1024_v7x_i16_f32_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.P

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the rounds library's, duties named by `Fin 15` -/

abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Peers by offset

Offset index `i : Fin 15` stands for the step `i + 1` around the ring; the opposite step is `Fin.rev i`
(`(i + 1) + (15 - i) = 16`). -/

/-- The step an offset index stands for: 1 to 15. -/
def off (i : Fin 15) : ℕ := i.val + 1

theorem off_pos (i : Fin 15) : 0 < off i := Nat.succ_pos _
theorem off_lt (i : Fin 15) : off i < 16 := by unfold off; omega
theorem off_rev (i : Fin 15) : off i.rev = 16 - off i := by unfold off; rw [Fin.val_rev]; omega

/-- The device `off i` places after `c`. -/
def peer (c : Dev nD) (i : Fin 15) : Dev nD := rot c (off i)

theorem peer_peer_rev (c : Dev nD) (i : Fin 15) : peer (peer c i) i.rev = c := by
  unfold peer; rw [off_rev]; exact rot_back c _ (off_lt i).le
theorem peer_rev_peer (c : Dev nD) (i : Fin 15) : peer (peer c i.rev) i = c := by
  unfold peer; rw [off_rev]; exact rot_fwd c _ (off_lt i).le
theorem peer_ne (c : Dev nD) (i : Fin 15) : peer c i ≠ c := rot_ne c (off_pos i) (off_lt i)
theorem peer_inj (c : Dev nD) {i j : Fin 15} (h : peer c i = peer c j) : i = j :=
  Fin.ext (Nat.succ_injective (rot_inj c (off_lt i) (off_lt j) h))

/-! ## The semaphores and cells of one device -/

/-- The runtime's barrier semaphore of collective id 0. -/
abbrev barS : Sem sig := (SemArray.scalar (sig.barrier 0 rfl) : Sems sig S_).sem
/-- The semaphore of the copy of chunk `k` (scratch semaphores 1 to 8). -/
def copySem (k : Fin 8) : DmaSem sig := ⟨1 + k.val, by have := k.isLt; show 1 + k.val < 41; omega⟩
/-- The send semaphore of the transfer to the peer at offset `i` (scratch semaphores 10 to 24). -/
def sendSem (i : Fin 15) : DmaSem sig := ⟨9 + off i, by have := off_lt i; show 9 + off i < 41; omega⟩
/-- The receive semaphore the peer at offset `rev i` — the device this one is at offset `i` of — credits (scratch semaphores 26 to 40). -/
def recvSem (i : Fin 15) : DmaSem sig := ⟨25 + off i, by have := off_lt i; show 25 + off i < 41; omega⟩

abbrev barCell (c : Dev nD) : GSem nD τ sig := ((c : Thread nD τ), .reg barS)
abbrev copyCell (c : Dev nD) (k : Fin 8) : GSem nD τ sig := ((c : Thread nD τ), .dma (copySem k))
abbrev sendCell (c : Dev nD) (i : Fin 15) : GSem nD τ sig := ((c : Thread nD τ), .dma (sendSem i))
abbrev recvCell (c : Dev nD) (i : Fin 15) : GSem nD τ sig := ((c : Thread nD τ), .dma (recvSem i))

/-! ## The memrefs and views -/

abbrev xM : Memref sig .tc .hbm S4096x1024 .f32 := Memref.whole main_arg0
abbrev oM : Memref sig .tc .vmem S1x1024 .f32 := Memref.whole cc0_stg0_0
abbrev bM : Memref sig .tc .vmem S8x512x1024 .f32 := Memref.whole cc0_scratch0
abbrev cM : Memref sig .tc .vmem S16x1024 .f32 := Memref.whole cc0_scratch1

/-- Row `j` of the exchange buffer: where device `j`'s partial sum lives on every device. -/
def rowM (j : Dev nD) : Memref sig .tc .vmem S1x1024 .f32 :=
  cM.slice (Rect.unit (s := S16x1024) (k0_off2 j) S1x1024.size (k0_off2_inb j)) (fun _ => rfl)

theorem chunkDst_inb (k : Fin 8) : ∀ a, (![k.val, 0, 0] : Fin 3 → Nat) a + S1x512x1024.size a ≤ S8x512x1024.size a := by
  revert k; decide
theorem chunkSrc_inb (k : Fin 8) : ∀ a, (![512 * k.val, 0] : Fin 2 → Nat) a + S512x1024.size a ≤ S4096x1024.size a := by
  revert k; decide

/-- Chunk buffer `k`: slab `k` of the 8 × 512 × 1024 scratch, as a 512 × 1024 memref. -/
def chunkDst (k : Fin 8) : Memref sig .tc .vmem S512x1024 .f32 :=
  (bM.slice (Rect.unit (s := S8x512x1024) ![k.val, 0, 0] S1x512x1024.size (chunkDst_inb k)) (fun _ => rfl)).squeeze S512x1024 squeezes_S1x512x1024_S512x1024
/-- Rows `[512 k, 512 k + 512)` of the device's block in HBM. -/
def chunkSrc (k : Fin 8) : Memref sig .tc .hbm S512x1024 .f32 :=
  xM.slice (Rect.unit (s := S4096x1024) ![512 * k.val, 0] S512x1024.size (chunkSrc_inb k)) (fun _ => rfl)

/-- The credit of one row transfer and of one chunk copy. -/
abbrev NR : ℕ := (rowM (0 : Dev nD)).view.dmaCredit
abbrev NC : ℕ := (chunkDst (0 : Fin 8)).view.dmaCredit

end Cert.KernelIdeal.P

end
-- ==== Proof.SumValue.lean ====
/-
  What the sixteen devices compute, as one function of the whole array, and that it is the reference's column sum.
-/
import proofs.«901088_g7700000000001089_dist_sum_ax0_shard0_i_m4096_n1024_v7x_i16_f32_1_alg».proof.Proof.Mesh
import proofs.«901088_g7700000000001089_dist_sum_ax0_shard0_i_m4096_n1024_v7x_i16_f32_1_alg».proof.Proof.Gen.KernelIdeal.Skeleton
import proofs.«901088_g7700000000001089_dist_sum_ax0_shard0_i_m4096_n1024_v7x_i16_f32_1_alg».proof.Proof.Gen.ReferenceIdeal.Run
import proofs.«901088_g7700000000001089_dist_sum_ax0_shard0_i_m4096_n1024_v7x_i16_f32_1_alg».proof.Proof.Gen.ReferenceIdeal.Read
import Idealize.ShloMosaic.Lib.Layout
import Idealize.ShloMosaic.Lib.ValueIdx
import Idealize.ShloMosaic.Lib.ValueLayout
import Idealize.ShloMosaic.PureOps.Ideal.Laws
import Mathlib.Algebra.BigOperators.Fin
import Mathlib.Data.Fintype.BigOperators
import Mathlib.Data.Fintype.EquivFin
import Mathlib.Logic.Equiv.Fin.Basic

noncomputable section

namespace Cert.KernelIdeal.SumValue

open Idealize.ShloMosaic Idealize.SL.Sem Cert.KernelIdeal Cert.KernelIdeal.Gen Cert.KernelIdeal.P
open Idealize.ShloMosaic.ValueIdx

variable {F : FTy → Type} [FloatOps F]

/-! ### Sums re-indexed -/

/-- A sum over `Fin N`, `N = m · n`, is the double sum over the `m` consecutive runs of `n` indices. -/
private theorem sum_runs {M : Type*} [AddCommMonoid M] (m n N : ℕ) (h : m * n = N) (f : Fin N → M)
    (hlt : ∀ (d : Fin m) (r : Fin n), n * d.val + r.val < N) :
    ∑ R : Fin N, f R = ∑ d : Fin m, ∑ r : Fin n, f ⟨n * d.val + r.val, hlt d r⟩ := by
  rw [← Equiv.sum_comp (finProdFinEquiv.trans (finCongr h)) f, Fintype.sum_prod_type]
  refine Finset.sum_congr rfl fun d _ => Finset.sum_congr rfl fun r _ => congrArg f (Fin.ext ?_)
  show (finCongr h (finProdFinEquiv (d, r))).val = n * d.val + r.val
  rw [finCongr_apply_coe, finProdFinEquiv_apply_val, Nat.add_comm]

/-- The terms of a list that holds each of the sixteen indices once, in any order, add up to the sum over all of them. -/
private theorem sum_perm16 {M : Type*} [AddCommMonoid M] (g : Fin 16 → M) (l : List (Fin 16))
    (hl : l.Perm (List.finRange 16)) : (l.map g).sum = ∑ k : Fin 16, g k := by
  rw [Fin.sum_univ_def]; exact (hl.map g).sum_eq

/-- The sixteen rotations of one device are all the devices, so a sum over the rotation steps is the sum over the devices. -/
private theorem sum_rot {M : Type*} [AddCommMonoid M] (c : Dev nD) (g : Dev nD → M) :
    ∑ k : Fin 16, g (rot c k.val) = ∑ d : Dev nD, g d := by
  refine Function.Bijective.sum_comp (e := fun k : Fin 16 => rot c k.val) ?_ g
  refine Function.Injective.bijective_of_finite fun a b hab => ?_
  exact Fin.ext (rot_inj c a.isLt b.isLt hab)

/-- Sixteen terms added from the left in the order 0, 12, 13, 15, 9, 11, 14, 8, 10, 4, 5, 7, 6, 1, 3, 2 of their indices are the
    sum over all sixteen indices. -/
private theorem sum16_order {M : Type*} [AddCommMonoid M] (g : Fin 16 → M) :
    g 0 + g 12 + g 13 + g 15 + g 9 + g 11 + g 14 + g 8 + g 10 + g 4 + g 5 + g 7 + g 6 + g 1 + g 3 + g 2 = ∑ k : Fin 16, g k := by
  rw [← sum_perm16 g [0, 12, 13, 15, 9, 11, 14, 8, 10, 4, 5, 7, 6, 1, 3, 2] (by decide)]
  simp only [List.map_cons, List.map_nil, List.sum_cons, List.sum_nil, add_zero, add_assoc]

/-! ### What one device adds up -/

/-- Rows `[512 k, 512 k + 512)` of a device's block `X`, as the 1 × 512 × 1024 vector the body loads from chunk buffer `k`:
    entry `(0, i, j)` is `X (512 k + i, j)`. -/
def chunk (X : FVec F S4096x1024 .f32) (k : Fin 8) : Vec F S1x512x1024 .f32 :=
  fun i => X (ix2 ⟨512 * k.val + (i 1).val, by have h1 : (i 1).val < 512 := (i 1).isLt; have := k.isLt; omega⟩ ⟨(i 2).val, (i 2).isLt⟩)

/-- A device's own partial result: the column sums of its eight chunks, added in chunk order. -/
def localSum (X : FVec F S4096x1024 .f32) : FVec F S1x1024 .f32 :=
  k0_pay4 (k0_pay3 (k0_pay2 (chunk X 0) (chunk X 1)) (chunk X 2) (chunk X 3) (chunk X 4)) (chunk X 5) (chunk X 6) (chunk X 7)

/-- The column sums of one chunk: the chunk without its unit axis, summed over its 512 rows, the unit axis put back. -/
private def colSum (v : Vec F S1x512x1024 .f32) : FVec F S1x1024 .f32 :=
  shapeCast S1x1024 (multiReduction .add [0] S1024 (shapeCast S512x1024 v shapeCasts_S1x512x1024_S512x1024) 0x00000000#32
    reduces_S512x1024_S1024 (.inl rfl) rfl) shapeCasts_S1024_S1x1024

/-- A device's partial result is the eight chunks' column sums added from the left. -/
private theorem localSum_eq (X : FVec F S4096x1024 .f32) :
    localSum X = addf (addf (addf (addf (addf (addf (addf (colSum (chunk X 0)) (colSum (chunk X 1))) (colSum (chunk X 2)))
      (colSum (chunk X 3))) (colSum (chunk X 4))) (colSum (chunk X 5))) (colSum (chunk X 6))) (colSum (chunk X 7)) := rfl

/-- At column `q` a chunk's column sum is the sum of the chunk's 512 entries of that column. -/
private theorem colSum_apply (v : FVec Ideal S1x512x1024 .f32) (u : Fin 1) (q : Fin 1024) :
    colSum (F := Ideal) v (ix2 u q) = ∑ r : Fin 512, v (ix3 (0 : Fin 1) r q) := by
  unfold colSum
  rw [shapeCast_a_1a_apply]
  refine (Ideal.multiReduction_add_single _ 0x00000000#32 reduces_S512x1024_S1024 (.inl rfl) rfl (ix1 q)).trans ?_
  refine Finset.sum_congr rfl fun r _ => ?_
  have hi : reduces_S512x1024_S1024.lift (ix1 q) r = ix2 r q := by
    funext a; match a with | ⟨0, _⟩ => rfl | ⟨1, _⟩ => rfl
  rw [hi]
  exact shapeCast_1ab_ab_apply v _ r q

/-- At column `q` a device's partial result is the sum of that column over the 4096 rows of its block. -/
private theorem localSum_apply (X : FVec Ideal S4096x1024 .f32) (u : Fin 1) (q : Fin 1024) :
    localSum (F := Ideal) X (ix2 u q) = ∑ R : Fin 4096, X (ix2 R q) := by
  rw [localSum_eq]
  simp only [addf_apply, colSum_apply]
  rw [sum_runs 8 512 4096 rfl (fun R => X (ix2 R q)) (fun d r => by omega), Fin.sum_univ_eight]
  rfl

/-! ### What the sixteen devices add up -/

/-- Device `c`'s result from every device's partial result `s`: its own, then the one of the device `d` places
    BEFORE it (`rot c (16 - d)`) for `d = 4, 3, 1, 7, 5, 2, 8, 6, 12, 11, 9, 10, 15, 13, 14`, added in that order. -/
def total (s : Dev nD → FVec F S1x1024 .f32) (c : Dev nD) : FVec F S1x1024 .f32 :=
  k0_pay1 (k0_pay11 (k0_pay10 (k0_pay9 (k0_pay8 (k0_pay7 (k0_pay6 (s c) (s (rot c 12))) (s (rot c 13)) (s (rot c 15)) (s (rot c 9)))
    (s (rot c 11)) (s (rot c 14))) (s (rot c 8)) (s (rot c 10)) (s (rot c 4))) (s (rot c 5)) (s (rot c 7)) (s (rot c 6))) (s (rot c 1)) (s (rot c 3))) (s (rot c 2))

/-- Whatever device adds them, and so in whatever order, the sixteen partial results add up to their sum over the devices. -/
private theorem total_apply (s : Dev nD → FVec Ideal S1x1024 .f32) (c : Dev nD) (j : S1x1024.Idx) :
    total (F := Ideal) s c j = ∑ d : Dev nD, s d j := by
  rw [← sum_rot c (fun d => s d j)]
  refine Eq.trans ?_ (sum16_order (fun k : Fin 16 => s (rot c k.val) j))
  refine Eq.trans (b := s (rot c 0) j + s (rot c 12) j + s (rot c 13) j + s (rot c 15) j + s (rot c 9) j + s (rot c 11) j
    + s (rot c 14) j + s (rot c 8) j + s (rot c 10) j + s (rot c 4) j + s (rot c 5) j + s (rot c 7) j + s (rot c 6) j
    + s (rot c 1) j + s (rot c 3) j + s (rot c 2) j) ?_ rfl
  rw [rot_zero]
  rfl

/-! ### The reference -/

/-- The reference's result as a function of the whole array: the sum over the 65536 rows, kept as one row. -/
def refVal (A : FVec Ideal Cert.ReferenceIdeal.S65536x1024 .f32) : FVec Ideal S1x1024 .f32 :=
  broadcastInDim Cert.ReferenceIdeal.S1x1024 ![1] Cert.ReferenceIdeal.Gen.bcast_S1024_S1x1024_1
    (Host.reduceAdd (F := Ideal) A (constant (F := Ideal) Cert.ReferenceIdeal.S_ .f32 0x00000000#32)
      Cert.ReferenceIdeal.Gen.reducesTo_S65536x1024_S1024_d0 Cert.ReferenceIdeal.Gen.h_S_)

/-- At column `q` the reference's result is the sum of that column over all 65536 rows. -/
private theorem refVal_apply (A : FVec Ideal Cert.ReferenceIdeal.S65536x1024 .f32) (u : Fin 1) (q : Fin 1024) :
    refVal A (ix2 u q) = ∑ R : Fin 65536, A (ix2 R q) := by
  show Cert.ReferenceIdeal.Read.val_main_v1 (F := Ideal) A (ix2 u q) = _
  rw [Cert.ReferenceIdeal.Read.val_main_v1_apply, Cert.ReferenceIdeal.Read.val_main_v0_apply,
    Cert.ReferenceIdeal.Read.val_main_cst_apply]
  show Ideal.ofBits .f32 0x00000000#32 + _ = _
  rw [Ideal.ofBits_zero_f32, zero_add]
  refine Finset.sum_congr rfl fun R _ => congrArg A (funext fun a => ?_)
  match a with
  | ⟨0, _⟩ => rfl
  | ⟨1, _⟩ => rfl

/-! ### The two agree -/

/-- Summed over all sixteen devices' blocks, in whatever order device `c` adds them, the partial results are the
    reference's column sum of the whole array. -/
theorem total_eq_ref (A : FVec Ideal Cert.ReferenceIdeal.S65536x1024 .f32) (c : Dev nD) :
    total (F := Ideal) (fun j => localSum (Layout.block ⟨2, ![4096, 1024]⟩ ⟨2, ![65536, 1024]⟩ 0 16 j A)) c = refVal A := by
  funext i
  obtain ⟨u, q, rfl⟩ : ∃ (u : Fin 1) (q : Fin 1024), i = ix2 u q := ⟨i 0, i 1, eq_ix2 i⟩
  rw [total_apply, refVal_apply]
  simp only [localSum_apply, Layout.block_apply]
  rw [sum_runs 16 4096 65536 rfl (fun R => A (ix2 R q)) (fun d r => by omega)]
  refine Finset.sum_congr rfl fun d _ => Finset.sum_congr rfl fun r _ => congrArg A (funext fun a => Fin.ext ?_)
  match a with
  | ⟨0, _⟩ => show d.val * 4096 + r.val = 4096 * d.val + r.val; omega
  | ⟨1, _⟩ => rfl

/-- The reference's run: it ends with its result at `refVal` of its argument array, the argument unchanged. -/
theorem ref_run (m' : (ℓ : Loc Cert.ReferenceIdeal.nD Cert.ReferenceIdeal.τ Cert.ReferenceIdeal.sig) → Buf (Elt Ideal) ℓ) (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r =>
      r.2.mem (((0 : Dev Cert.ReferenceIdeal.nD).tc : Thread Cert.ReferenceIdeal.nD Cert.ReferenceIdeal.τ).loc Cert.ReferenceIdeal.main_v1)
          = refVal (m' (((0 : Dev Cert.ReferenceIdeal.nD).tc : Thread Cert.ReferenceIdeal.nD Cert.ReferenceIdeal.τ).loc Cert.ReferenceIdeal.main_arg0))
      ∧ r.2.mem (((0 : Dev Cert.ReferenceIdeal.nD).tc : Thread Cert.ReferenceIdeal.nD Cert.ReferenceIdeal.τ).loc Cert.ReferenceIdeal.main_arg0)
          = m' (((0 : Dev Cert.ReferenceIdeal.nD).tc : Thread Cert.ReferenceIdeal.nD Cert.ReferenceIdeal.τ).loc Cert.ReferenceIdeal.main_arg0)) :=
  (θ_run _ _ _).mono (fun _ h => h 0) (Cert.ReferenceIdeal.Value.run (F := Ideal) m' g')

end Cert.KernelIdeal.SumValue

end
-- ==== Proof.Sched.lean ====
/-
  The protocol as a schedule of rounds. Every cell has one round. A device's barrier cell has fifteen unit duties,
  one per peer: the peer at offset `i` pays duty `i` and hands over its own exchange-buffer row for this device
  together with the fact that its receive cell for this device stands at round 0. A chunk-copy cell, a send cell and
  a receive cell have one duty each: the copy's landing hands back the chunk buffer holding the chunk and the source
  rows; a send's completion hands back the share of the device's own row the transfer read; a receive's landing hands
  over the sender's row holding the sender's partial sum.
-/
import proofs.«901088_g7700000000001089_dist_sum_ax0_shard0_i_m4096_n1024_v7x_i16_f32_1_alg».proof.Proof.Cells
import proofs.«901088_g7700000000001089_dist_sum_ax0_shard0_i_m4096_n1024_v7x_i16_f32_1_alg».proof.Proof.SumValue

noncomputable section

namespace Cert.KernelIdeal.P

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Contents -/

/-- Device `j`'s block of the argument array. -/
abbrev blockOf (j : Dev nD) : FVec F S4096x1024 .f32 := m ((j : Thread nD τ).loc main_arg0)

/-- Device `j`'s partial sum: what the body stores in its own row (through a shape cast that changes nothing) and sends. -/
def part (j : Dev nD) : FVec F S1x1024 .f32 := SumValue.localSum (blockOf m j)

/-- The exchange buffer on thread `t` with row `j` holding `v` (what the other rows hold is immaterial: the
    assertions below own row `j` only). -/
def rowBuf (t j : Dev nD) (v : Vec F S1x1024 .f32) : Buf (Elt F) ((rowM j).view.loc (t : Thread nD τ)) :=
  (rowM j).view.write (Elt F) (View.junk (rowM j).view) v Finset.univ

/-- The chunk scratch on thread `t` with slab `k` holding rows `[512 k, 512 k + 512)` of the device's block. -/
def chunkBuf (t : Dev nD) (k : Fin 8) : Buf (Elt F) ((chunkDst k).view.loc (t : Thread nD τ)) :=
  (chunkDst k).view.write (Elt F) (View.junk (chunkDst k).view) ((chunkSrc k).view.read (Elt F) (m ((t : Thread nD τ).loc main_arg0))) Finset.univ

/-- The device's block in HBM, typed as the contents under the source view of chunk copy `k`. -/
def xBuf (t : Dev nD) (k : Fin 8) : Buf (Elt F) ((chunkSrc k).view.loc (t : Thread nD τ)) := m ((t : Thread nD τ).loc main_arg0)

/-- Row `j` of thread `t`'s exchange buffer, owned at share `q` with contents `f`. -/
def rowPts (t j : Dev nD) (q : PosShare TreeShare) (f : Buf (Elt F) ((rowM j).view.loc (t : Thread nD τ))) : sProp 𝕄 :=
  (rowM j).view.loc (t : Thread nD τ) ↦[(rowM j).view.set]{q} f

/-! ## Fifteen shares of one row: `L, RL, RRL, …, R¹³L, R¹⁴` -/

def rightN : ℕ → PosShare TreeShare
  | 0 => fullShare
  | n + 1 => (rightN n).right

/-- The share of its own row a device lends to the transfer at offset `i`. -/
def shareOf (i : Fin 15) : PosShare TreeShare := if i.val < 14 then (rightN i.val).left else rightN 14

/-! ## Payloads -/

/-- What the peer at offset `i` hands device `c` with its handshake signal: its row for `c`, and that its receive
    cell for `c` stands at round 0. -/
def barPay (c : Dev nD) (i : Fin 15) : sProp 𝕄 :=
  iprop((∃ f, rowPts (peer c i) c fullShare f) ∗ reached ER (recvCell (peer c i) i) 0)
/-- What the completed send at offset `i` hands back: the lent share of the device's own row. -/
def sendPay (c : Dev nD) (i : Fin 15) : sProp 𝕄 := rowPts c c (shareOf i) (rowBuf c c (part m c))
/-- What the landing on receive cell `i` hands over: the row of the device `off i` places before, holding its partial sum. -/
def recvPay (c : Dev nD) (i : Fin 15) : sProp 𝕄 := rowPts c (peer c i.rev) fullShare (rowBuf c (peer c i.rev) (part m (peer c i.rev)))
/-- What the landing of chunk copy `k` hands back: the chunk buffer holding the chunk, and the source rows. -/
def copyPay (c : Dev nD) (k : Fin 8) : sProp 𝕄 :=
  iprop(((chunkDst k).view.loc (c : Thread nD τ) ↦[(chunkDst k).view.set]{fullShare} chunkBuf m c k)
    ∗ ((chunkSrc k).view.loc (c : Thread nD τ) ↦[(chunkSrc k).view.set]{fullShare} xBuf m c k))

/-! ## The schedule -/

/-- What a semaphore is in the protocol. -/
inductive Kind where
  | bar | copy (k : Fin 8) | send (i : Fin 15) | recv (i : Fin 15) | other
  deriving DecidableEq

def kindOf : SemLoc sig → Kind
  | .reg _ => .bar
  | .dma s =>
    if h : 1 ≤ s.val ∧ s.val ≤ 8 then .copy ⟨s.val - 1, by omega⟩
    else if h : 10 ≤ s.val ∧ s.val ≤ 24 then .send ⟨s.val - 10, by omega⟩
    else if h : 26 ≤ s.val ∧ s.val ≤ 40 then .recv ⟨s.val - 26, by omega⟩
    else .other

def sched : Rounds.Schedule (GSem nD τ sig) (Fin 15) 𝕄 where
  duties g r :=
    if r = 0 ∧ g.1.2 = .tc then
      (match kindOf g.2 with | .bar => Finset.univ | .copy _ => {0} | .send _ => {0} | .recv _ => {0} | .other => ∅)
    else ∅
  unitless _ := False
  amount g _ _ := match kindOf g.2 with | .bar => 1 | .copy _ => NC | _ => NR
  payload g _ d := match kindOf g.2 with
    | .bar => barPay g.1.1 d
    | .copy k => copyPay m g.1.1 k
    | .send i => sendPay m g.1.1 i
    | .recv i => recvPay m g.1.1 i
    | .other => iprop(emp)
  amount_pos g _ _ _ := by
    cases kindOf g.2
    · exact Nat.one_pos
    · exact View.dmaCredit_pos _ (by decide)
    all_goals exact View.dmaCredit_pos _ (by decide)

/-! ## The tables -/

theorem kind_bar (s : Sem sig) : kindOf (.reg s) = .bar := rfl
theorem kind_copy (k : Fin 8) : kindOf (.dma (copySem k)) = .copy k := by revert k; decide
theorem kind_send (i : Fin 15) : kindOf (.dma (sendSem i)) = .send i := by revert i; decide
theorem kind_recv (i : Fin 15) : kindOf (.dma (recvSem i)) = .recv i := by revert i; decide

section Tables
variable (c : Dev nD)

theorem duties_bar : (sched (F := F) m).duties (barCell c) 0 = Finset.univ := by
  dsimp only [sched]; rw [if_pos ⟨rfl, rfl⟩]; rfl
theorem duties_copy (k : Fin 8) : (sched (F := F) m).duties (copyCell c k) 0 = {0} := by
  dsimp only [sched]; rw [if_pos ⟨rfl, rfl⟩, kind_copy]
theorem duties_send (i : Fin 15) : (sched (F := F) m).duties (sendCell c i) 0 = {0} := by
  dsimp only [sched]; rw [if_pos ⟨rfl, rfl⟩, kind_send]
theorem duties_recv (i : Fin 15) : (sched (F := F) m).duties (recvCell c i) 0 = {0} := by
  dsimp only [sched]; rw [if_pos ⟨rfl, rfl⟩, kind_recv]
theorem duties_later (g : GSem nD τ sig) : ∀ r, 1 ≤ r → (sched (F := F) m).duties g r = ∅ :=
  fun r hr => by dsimp only [sched]; rw [if_neg fun h => by omega]

theorem amount_bar (d : Fin 15) : (sched (F := F) m).amount (barCell c) 0 d = 1 := rfl
theorem amount_copy (k : Fin 8) (d : Fin 15) : (sched (F := F) m).amount (copyCell c k) 0 d = NC := by
  dsimp only [sched]; rw [kind_copy]
theorem amount_send (i : Fin 15) (d : Fin 15) : (sched (F := F) m).amount (sendCell c i) 0 d = NR := by
  dsimp only [sched]; rw [kind_send]
theorem amount_recv (i : Fin 15) (d : Fin 15) : (sched (F := F) m).amount (recvCell c i) 0 d = NR := by
  dsimp only [sched]; rw [kind_recv]

theorem expect_bar : (sched (F := F) m).expect (barCell c) 0 = 15 := by
  unfold Schedule.expect Schedule.amountOf
  rw [duties_bar, Finset.sum_congr rfl fun d _ => amount_bar m c d, Finset.sum_const, Finset.card_univ, Fintype.card_fin, smul_eq_mul]
theorem expect_copy (k : Fin 8) : (sched (F := F) m).expect (copyCell c k) 0 = NC := by
  unfold Schedule.expect Schedule.amountOf; rw [duties_copy, Finset.sum_singleton, amount_copy]
theorem expect_send (i : Fin 15) : (sched (F := F) m).expect (sendCell c i) 0 = NR := by
  unfold Schedule.expect Schedule.amountOf; rw [duties_send, Finset.sum_singleton, amount_send]
theorem expect_recv (i : Fin 15) : (sched (F := F) m).expect (recvCell c i) 0 = NR := by
  unfold Schedule.expect Schedule.amountOf; rw [duties_recv, Finset.sum_singleton, amount_recv]

theorem payload_bar (d : Fin 15) : (sched m).payload (barCell c) 0 d = barPay (F := F) c d := rfl
theorem payload_copy (k : Fin 8) (d : Fin 15) : (sched m).payload (copyCell c k) 0 d = copyPay m c k := by
  dsimp only [sched]; rw [kind_copy]
theorem payload_send (i : Fin 15) (d : Fin 15) : (sched m).payload (sendCell c i) 0 d = sendPay m c i := by
  dsimp only [sched]; rw [kind_send]
theorem payload_recv (i : Fin 15) (d : Fin 15) : (sched m).payload (recvCell c i) 0 d = recvPay m c i := by
  dsimp only [sched]; rw [kind_recv]

/-- The whole of the barrier cell's round: every peer's row for this device, and every peer's receive cell at round 0. -/
theorem rest_bar : bigSep ((sched m).duties (barCell c) 0 \ ∅) (fun d => (sched m).payload (barCell c) 0 d) = bigSep Finset.univ (fun i => barPay (F := F) c i) := by
  rw [Finset.sdiff_empty, duties_bar]; rfl
theorem rest_copy (k : Fin 8) : bigSep ((sched m).duties (copyCell c k) 0 \ ∅) (fun d => (sched m).payload (copyCell c k) 0 d) = copyPay m c k := by
  rw [Finset.sdiff_empty, duties_copy, bigSep_singleton, payload_copy]
theorem rest_send (i : Fin 15) : bigSep ((sched m).duties (sendCell c i) 0 \ ∅) (fun d => (sched m).payload (sendCell c i) 0 d) = sendPay m c i := by
  rw [Finset.sdiff_empty, duties_send, bigSep_singleton, payload_send]
theorem rest_recv (i : Fin 15) : bigSep ((sched m).duties (recvCell c i) 0 \ ∅) (fun d => (sched m).payload (recvCell c i) 0 d) = recvPay m c i := by
  rw [Finset.sdiff_empty, duties_recv, bigSep_singleton, payload_recv]

end Tables

instance sched_payload_storable (g : GSem nD τ sig) (r : ℕ) (d : Fin 15) :
    BI.Storable (upEmb : UEmb _ 𝕄) ((sched (F := F) m).payload g r d) := by
  show BI.Storable upEmb (match kindOf g.2 with
    | .bar => barPay g.1.1 d
    | .copy k => copyPay m g.1.1 k
    | .send i => sendPay m g.1.1 i
    | .recv i => recvPay m g.1.1 i
    | .other => iprop(emp))
  split
  · unfold barPay rowPts; infer_instance
  · unfold copyPay; exact inferInstance
  · unfold sendPay rowPts; infer_instance
  · unfold recvPay rowPts; infer_instance
  · infer_instance

end Cert.KernelIdeal.P

end
-- ==== Proof.Ghost.lean ====
/-
  What each device holds during the kernel: the cells' invariants and its own positions and duty tokens, what it
  owes its peers (one handshake unit and one row transfer each), the levels that order the waits, and the
  pipeline's proof data (the invariant before and after the one grid point, and what the output block holds).
-/
import proofs.«901088_g7700000000001089_dist_sum_ax0_shard0_i_m4096_n1024_v7x_i16_f32_1_alg».proof.Proof.Sched

noncomputable section

namespace Cert.KernelIdeal.P

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The 39 cells of a device, indexed: the barrier cell, 8 copy cells, 15 send cells, 15 receive cells -/

def csem (n : Fin 39) : SemLoc sig :=
  if h0 : n.val = 0 then .reg barS
  else if h1 : n.val ≤ 8 then .dma (copySem ⟨n.val - 1, by omega⟩)
  else if h2 : n.val ≤ 23 then .dma (sendSem ⟨n.val - 9, by omega⟩)
  else .dma (recvSem ⟨n.val - 24, by omega⟩)

abbrev kcell (ck : Dev nD × Fin 39) : GSem nD τ sig := ((ck.1 : Thread nD τ), csem ck.2)

def ixCopy (k : Fin 8) : Fin 39 := ⟨1 + k.val, by omega⟩
def ixSend (i : Fin 15) : Fin 39 := ⟨9 + i.val, by omega⟩
def ixRecv (i : Fin 15) : Fin 39 := ⟨24 + i.val, by omega⟩

theorem csem_bar : csem 0 = .reg barS := rfl
theorem csem_copy (k : Fin 8) : csem (ixCopy k) = .dma (copySem k) := by revert k; decide
theorem csem_send (i : Fin 15) : csem (ixSend i) = .dma (sendSem i) := by revert i; decide
theorem csem_recv (i : Fin 15) : csem (ixRecv i) = .dma (recvSem i) := by revert i; decide

/-- The kernel's own (scoped) semaphores: every cell but the runtime's barrier. -/
abbrev osem (n : Fin 38) : SemLoc sig := csem n.succ

/-! ## What a device owes, and the levels -/

/-- Device `c` still owing the row transfers at the offsets in `Sr` and the handshake units at the offsets in `Sb`. -/
def owedOf (c : Dev nD) (Sr Sb : Finset (Fin 15)) : CellTallies nD τ sig Unit :=
  (∑ i ∈ Sr, tallyAt (recvCell (peer c i) i) () NR) + (∑ j ∈ Sb, tallyAt (barCell (peer c j)) () 1)

/-- At launch it owes all of them. -/
def O₀ (c : Dev nD) : CellTallies nD τ sig Unit := owedOf c Finset.univ Finset.univ

def L (g : GSem nD τ sig) : Finset Unit := if g.1.2 = .tc then {()} else ∅
/-- Barrier cells at level 1, receive cells at 2, everything else (staging, chunk copies, sends) at 0. -/
def lv (g : GSem nD τ sig) (_ : Unit) : ℕ := match kindOf g.2 with | .bar => 1 | .recv _ => 2 | _ => 0

/-! ## Ghost state -/

/-- Every cell's invariant under the names `K`, and every cell's round 0 reached: persistent, shared by all devices. -/
def records (K : Dev nD × Fin 39 → ℕ) : sProp 𝕄 :=
  iprop((bigSep Finset.univ fun ck : Dev nD × Fin 39 => cellInv ER (sched m) (K ck) (kcell ck))
    ∗ bigSep Finset.univ fun ck : Dev nD × Fin 39 => reached ER (kcell ck) 0)

instance records_persistent (K : Dev nD × Fin 39 → ℕ) : BI.Persistent (records m K) := by unfold records; infer_instance

/-- Device `c`'s positions on its own 39 cells. -/
def positions (c : Dev nD) : sProp 𝕄 :=
  iprop(atPos ER (barCell c) 0 ∅ 0
    ∗ (bigSep Finset.univ fun k : Fin 8 => atPos ER (copyCell c k) 0 ∅ 0)
    ∗ (bigSep Finset.univ fun i : Fin 15 => atPos ER (sendCell c i) 0 ∅ 0)
    ∗ (bigSep Finset.univ fun i : Fin 15 => atPos ER (recvCell c i) 0 ∅ 0))

/-- The tokens of the duties device `c` pays: on the barrier cell of the peer at offset `j` the duty `rev j` (that
    peer sees `c` at offset `rev j`); its own chunk copies and sends; on the peer at offset `i` the receive cell `i`. -/
def payToks (c : Dev nD) : sProp 𝕄 :=
  iprop((bigSep Finset.univ fun j : Fin 15 => dutyTok ER (barCell (peer c j)) 0 j.rev)
    ∗ (bigSep Finset.univ fun k : Fin 8 => dutyTok ER (copyCell c k) 0 0)
    ∗ (bigSep Finset.univ fun i : Fin 15 => dutyTok ER (sendCell c i) 0 0)
    ∗ (bigSep Finset.univ fun i : Fin 15 => dutyTok ER (recvCell (peer c i) i) 0 0))

def ghost (K : Dev nD × Fin 39 → ℕ) (c : Dev nD) : sProp 𝕄 := iprop(records m K ∗ positions c ∗ payToks c)

/-- What device `c`'s body starts from besides its buffers: the ghost state at some names, the credit its peers
    owe it (fifteen handshake units, fifteen row transfers), and the levels. -/
def start (c : Dev nD) : sProp 𝕄 :=
  iprop((∃ K, ghost m K c) ∗ cred (tallyAt (barCell c) () 15)
    ∗ (bigSep Finset.univ fun i : Fin 15 => cred (tallyAt (recvCell c i) () NR)) ∗ levAts L lv)

/-- Before the point: that, the two scratch buffers at some contents, and the device's block in HBM. -/
def Φ₀ (c : Dev nD) : sProp 𝕄 :=
  iprop(start m c
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (((c : Thread nD τ).loc main_arg0) ↦{fullShare} m ((c : Thread nD τ).loc main_arg0)))

/-- After the point: the scratch buffers at some contents, the block unchanged, the 38 own semaphores at zero again. -/
def Φ₁ (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (((c : Thread nD τ).loc main_arg0) ↦{fullShare} m ((c : Thread nD τ).loc main_arg0))
    ∗ (bigSep Finset.univ fun k : Fin 8 => semVal (copyCell c k) 0)
    ∗ (bigSep Finset.univ fun i : Fin 15 => semVal (sendCell c i) 0)
    ∗ (bigSep Finset.univ fun i : Fin 15 => semVal (recvCell c i) 0))

/-- The kernel's result on device `c`: every device's partial sum, added in `c`'s order. -/
def outAt (c : Dev nD) : (cc0_stg0_0 : Ref sig .tc).ty.Contents (Elt F) := SumValue.total (fun j => part m j) c

def dats (_ : Fin 1) (c : Dev nD) : Dat τ (Elt F) Unit ℕ UU ℕ cfg0 c where
  A w := m ((cfg0.win w).arr.view.loc (c : Thread nD τ))
  after w _ := match w with
    | ⟨0, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.KernelIdeal.P

end
-- ==== Proof.Bridge.lean ====
/-
  Reading and writing the exchange buffer a row at a time and the chunk scratch a slab at a time: which elements an
  access touches, what a load reads from the contents a landing leaves, and that a landing's or a store's contents
  agree, on the row or slab, with the contents named in the schedule.
-/
import proofs.«901088_g7700000000001089_dist_sum_ax0_shard0_i_m4096_n1024_v7x_i16_f32_1_alg».proof.Proof.Sched
import Idealize.ShloMosaic.Lib.Pipeline.Value
import Idealize.ShloMosaic.Lib.ValueIdx
import Idealize.ShloMosaic.Lib.ValueLayout

noncomputable section

namespace Cert.KernelIdeal.P

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Offsets: every row access of the body is at some device's row -/

theorem off1_eq (c : Dev nD) : k0_off1 c = k0_off2 c := by rw [k0_off1_eq, k0_off2_eq]
/-- The receive wait and the load for offset index `i` name the row of the device `off i` places before `c`. -/
theorem off3_eq (c : Dev nD) (i : Fin 15) : k0_off3 c (BitVec.ofNat 32 (1 + i.val)) = k0_off2 (peer c i.rev) := by
  rw [k0_off3_eq, k0_off2_eq]
  have hv : (peer c i.rev).val = (c.val + 15 - i.val) % 16 := by
    have hi := i.isLt
    simp only [peer, off, rot_val, Fin.val_rev]; congr 1; omega
  rw [hv]
theorem off4_eq (c : Dev nD) (i : Fin 15) : k0_off4 c (BitVec.ofNat 32 (1 + i.val)) = k0_off2 (peer c i.rev) := by
  rw [k0_off4_eq, ← off3_eq, k0_off3_eq]

/-! ## One row of the exchange buffer -/

/-- A load of the exchange buffer through the one-row rectangle at row `j`'s offsets touches row `j` only, -/
theorem row_load_sub (j : Dev nD) (o : Fin 2 → Nat) (ho : o = k0_off2 j) (inb : ∀ a, o a + S1x1024.size a ≤ S16x1024.size a) :
    (cM : Memref sig .tc .vmem S16x1024 .f32).view.setOn (Rect.unit (s := S16x1024) o S1x1024.size inb).toLoadRect.set ⊆ (rowM j).view.set := by
  subst ho
  exact (View.set_slice _ _).ge
/-- and reads what the row holds. -/
theorem row_load_read (t j : Dev nD) (v : Vec F S1x1024 .f32) (o : Fin 2 → Nat) (ho : o = k0_off2 j) (inb : ∀ a, o a + S1x1024.size a ≤ S16x1024.size a) :
    (cM : Memref sig .tc .vmem S16x1024 .f32).view.readAt (Elt F) (Rect.unit (s := S16x1024) o S1x1024.size inb).toLoadRect (rowBuf t j v) = v := by
  subst ho
  exact View.read_write_univ _ v
/-- A store through that rectangle touches row `j` only, -/
theorem row_store_sub (j : Dev nD) (o : Fin 2 → Nat) (ho : o = k0_off2 j) (inb : ∀ a, o a + S1x1024.size a ≤ S16x1024.size a) :
    ((cM : Memref sig .tc .vmem S16x1024 .f32).access (Rect.unit (s := S16x1024) o S1x1024.size inb)).setOn Finset.univ ⊆ (rowM j).view.set := by
  subst ho
  exact Finset.Subset.refl _
/-- and leaves the row holding what was stored. -/
theorem row_store_eq (t j : Dev nD) (o : Fin 2 → Nat) (ho : o = k0_off2 j) (inb : ∀ a, o a + S1x1024.size a ≤ S16x1024.size a)
    (f : Buf (Elt F) ((rowM j).view.loc (t : Thread nD τ))) (v : Vec F S1x1024 .f32) :
    ∀ x ∈ (rowM j).view.set, ((cM : Memref sig .tc .vmem S16x1024 .f32).access (Rect.unit (s := S16x1024) o S1x1024.size inb)).write (Elt F) f v Finset.univ x = rowBuf t j v x := by
  subst ho
  intro x hx
  exact View.write_congr (v := (rowM j).view) (fun _ _ _ => rfl) (fun h => absurd hx h)
/-- A row holds what was put in it. -/
theorem rowBuf_read (t j : Dev nD) (v : Vec F S1x1024 .f32) : (rowM j).view.read (Elt F) (rowBuf t j v) = v :=
  View.read_write_univ _ v
/-- A row transfer's landing: whatever the destination held, and whatever the source buffer holds in its other rows,
    row `j` of the destination ends holding the source's row `j`. -/
theorem row_land_eq (t s j : Dev nD) (fd : Buf (Elt F) ((rowM j).view.loc (t : Thread nD τ))) (fs : Buf (Elt F) ((rowM j).view.loc (s : Thread nD τ)))
    (v : Vec F S1x1024 .f32) (hfs : (rowM j).view.read (Elt F) fs = v) :
    ∀ x ∈ (rowM j).view.set, (rowM j).view.write (Elt F) fd ((rowM j).view.read (Elt F) fs) Finset.univ x = rowBuf t j v x := by
  intro x hx
  rw [hfs]
  exact View.write_congr (v := (rowM j).view) (fun _ _ _ => rfl) (fun h => absurd hx h)

/-! ## One slab of the chunk scratch -/

theorem chunk_load_sub (k : Fin 8) (inb : ∀ a, (![k.val, 0, 0] : Fin 3 → Nat) a + S1x512x1024.size a ≤ S8x512x1024.size a) :
    (bM : Memref sig .tc .vmem S8x512x1024 .f32).view.setOn (Rect.unit (s := S8x512x1024) ![k.val, 0, 0] S1x512x1024.size inb).toLoadRect.set ⊆ (chunkDst k).view.set := by
  have h1 : (chunkDst k).view.set
      = ((bM : Memref sig .tc .vmem S8x512x1024 .f32).view.slice (Rect.unit (s := S8x512x1024) ![k.val, 0, 0] S1x512x1024.size inb)).set :=
    View.set_reshape _ _
  exact (h1.trans (View.set_slice _ _)).ge
/-- The load of slab `k` after its copy landed reads rows `[512 k, 512 k + 512)` of the device's block. -/
theorem chunk_load_read (t : Dev nD) (k : Fin 8) (inb : ∀ a, (![k.val, 0, 0] : Fin 3 → Nat) a + S1x512x1024.size a ≤ S8x512x1024.size a) :
    (bM : Memref sig .tc .vmem S8x512x1024 .f32).view.readAt (Elt F) (Rect.unit (s := S8x512x1024) ![k.val, 0, 0] S1x512x1024.size inb).toLoadRect (chunkBuf m t k)
      = SumValue.chunk (blockOf m t) k := by
  funext x
  obtain ⟨u, i, j, rfl⟩ : ∃ (u : Fin 1) (i : Fin 512) (j : Fin 1024), x = ix3 u i j := ⟨x 0, x 1, x 2, eq_ix3 x⟩
  obtain rfl : u = ⟨0, Nat.one_pos⟩ := Subsingleton.elim _ _
  have hidx : (chunkSrc k).view.emb (ix2 i j)
      = ix2 (⟨512 * k.val + i.val, by have := k.isLt; have := i.isLt; omega⟩ : Fin 4096) (⟨j.val, j.isLt⟩ : Fin 1024) := by
    funext a
    refine Fin.ext ?_
    match a with
    | ⟨0, _⟩ => show 512 * k.val + 1 * i.val = 512 * k.val + i.val; omega
    | ⟨1, _⟩ => show 0 + 1 * j.val = j.val; omega
  have h1 : (bM : Memref sig .tc .vmem S8x512x1024 .f32).view.readAt (Elt F) (Rect.unit (s := S8x512x1024) ![k.val, 0, 0] S1x512x1024.size inb).toLoadRect (chunkBuf m t k) (ix3 ⟨0, Nat.one_pos⟩ i j)
      = (chunkDst k).view.read (Elt F) (chunkBuf m t k) (ix2 i j) :=
    (congrArg (((bM : Memref sig .tc .vmem S8x512x1024 .f32).view.slice (Rect.unit (s := S8x512x1024) ![k.val, 0, 0] S1x512x1024.size inb)).read (Elt F) (chunkBuf m t k))
      (reshapeEquiv_ix2_1ab _ i j)).symm
  have h2 : (chunkDst k).view.read (Elt F) (chunkBuf m t k) (ix2 i j)
      = (chunkSrc k).view.read (Elt F) (m ((t : Thread nD τ).loc main_arg0)) (ix2 i j) :=
    View.read_write_of_mem _ _ (Finset.mem_univ _)
  have h3 : (chunkSrc k).view.read (Elt F) (m ((t : Thread nD τ).loc main_arg0)) (ix2 i j)
      = SumValue.chunk (blockOf m t) k (ix3 ⟨0, Nat.one_pos⟩ i j) :=
    congrArg (m ((t : Thread nD τ).loc main_arg0)) hidx
  exact h1.trans (h2.trans h3)
/-- A chunk copy's landing: whatever the slab held, it ends holding the chunk. -/
theorem chunk_land_eq (t : Dev nD) (k : Fin 8) (fd : Buf (Elt F) ((chunkDst k).view.loc (t : Thread nD τ))) :
    ∀ x ∈ (chunkDst k).view.set, (chunkDst k).view.write (Elt F) fd ((chunkSrc k).view.read (Elt F) (xBuf m t k)) Finset.univ x = chunkBuf m t k x := by
  intro x hx
  exact View.write_congr (v := (chunkDst k).view) (fun _ _ _ => rfl) (fun h => absurd hx h)

/-! ## Contents that agree on the owned elements are the same assertion -/

theorem pts_congr (ℓ : Loc nD τ sig) (I : Finset (Idx ℓ)) (q : PosShare TreeShare) (f g : Buf (Elt F) ℓ) (h : ∀ x ∈ I, f x = g x) :
    ((ℓ ↦[I]{q} f : sProp 𝕄)) = (ℓ ↦[I]{q} g) :=
  Region.is_congr h

end Cert.KernelIdeal.P

end
-- ==== Proof.Split.lean ====
/-
  Cutting the device's buffers along the protocol's lines and putting them together again: the exchange buffer into
  its sixteen rows, a row into the fifteen shares lent to the transfers, the chunk scratch into its eight slabs, the
  block in HBM into its eight row ranges; and the sixteen devices into one of them and its fifteen peers.
-/
import proofs.«901088_g7700000000001089_dist_sum_ax0_shard0_i_m4096_n1024_v7x_i16_f32_1_alg».proof.Proof.Sched

noncomputable section

namespace Cert.KernelIdeal.P

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Small index sets spelt out -/

theorem bigSep_fin15 (Φ : Fin 15 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-! ## A device and its fifteen peers are all sixteen devices -/

/-- The fifteen peers of a device are exactly the devices other than it: they are fifteen different devices, none
    of them the device itself, and there are only fifteen others. -/
private theorem peers_eq (c : Dev nD) :
    (Finset.univ : Finset (Fin 15)).map ⟨peer c, fun _ _ h => peer_inj c h⟩ = Finset.univ.erase c := by
  refine Finset.eq_of_subset_of_card_le (fun x hx => ?_) ?_
  · obtain ⟨i, -, rfl⟩ := Finset.mem_map.mp hx
    exact Finset.mem_erase.mpr ⟨peer_ne c i, Finset.mem_univ _⟩
  · rw [Finset.card_map, Finset.card_erase_of_mem (Finset.mem_univ c), Finset.card_univ, Finset.card_univ,
      Fintype.card_fin, Fintype.card_fin]
    decide

theorem dev_split (c : Dev nD) (Φ : Dev nD → sProp 𝕄) :
    bigSep Finset.univ Φ ⊣⊢ iprop(Φ c ∗ bigSep Finset.univ fun i : Fin 15 => Φ (peer c i)) := by
  rw [bigSep_univ_split c, ← peers_eq c, bigSep_map]
  exact .rfl
theorem dev_split_rev (c : Dev nD) (Φ : Dev nD → sProp 𝕄) :
    bigSep Finset.univ Φ ⊣⊢ iprop(Φ c ∗ bigSep Finset.univ fun i : Fin 15 => Φ (peer c i.rev)) :=
  (dev_split c Φ).trans (.of_eq (congrArg (fun X : sProp 𝕄 => iprop(Φ c ∗ X))
    (bigSep_univ_equiv Fin.revPerm fun i : Fin 15 => Φ (peer c i))))

/-! ## A buffer cut along a family of disjoint element sets -/

section Cut

variable {ℓ : Loc nD τ sig} {T : Type} [DecidableEq T]

/-- Members of a pairwise disjoint family are disjoint from the union of the others. -/
private theorem disjoint_biUnion_rest {t : T} {S : Finset T} (ht : t ∉ S) (K : T → Finset (Idx ℓ))
    (hd : ∀ a ∈ insert t S, ∀ b ∈ insert t S, a ≠ b → Disjoint (K a) (K b)) : Disjoint (K t) (S.biUnion K) :=
  (Finset.disjoint_biUnion_right _ _ _).mpr fun b hb =>
    hd t (Finset.mem_insert_self _ _) b (Finset.mem_insert_of_mem hb) fun e => ht (e ▸ hb)

/-- The members of a pairwise disjoint family of element sets, each held with contents of its own, make the
    union held with some contents: the contents that agree with each member's on its set. -/
private theorem pointsTo_glue (S : Finset T) (K : T → Finset (Idx ℓ)) (q : PosShare TreeShare) (f₀ : Buf (Elt F) ℓ)
    (hd : ∀ a ∈ S, ∀ b ∈ S, a ≠ b → Disjoint (K a) (K b)) :
    (bigSep S fun t => iprop(∃ f, ℓ ↦[K t]{q} f) : sProp 𝕄) ⊢ iprop(∃ f, ℓ ↦[S.biUnion K]{q} f) := by
  induction S using Finset.induction_on with
  | empty =>
    rw [bigSep_empty, Finset.biUnion_empty]
    exact (Entails.of_eq pointsTo_empty.symm).trans (exists_intro f₀)
  | insert t S ht ih =>
    rw [bigSep_insert ht, Finset.biUnion_insert]
    have hd' := disjoint_biUnion_rest ht K hd
    show iprop((∃ f, ℓ ↦[K t]{q} f) ∗ bigSep S fun t => iprop(∃ f, ℓ ↦[K t]{q} f)) ⊢ _
    iintro ⟨⟨%f, Ht⟩, HS⟩
    ihave H := (ih fun a ha b hb => hd a (Finset.mem_insert_of_mem ha) b (Finset.mem_insert_of_mem hb)) $$ HS
    icases H with ⟨%g, HS⟩
    iexists (S.biUnion K).piecewise g f
    iapply (pointsTo_join hd')
    isplitl [Ht]
    · iexact Ht
    · iexact HS

/-- A union of pairwise disjoint element sets held with some contents is its members each held with some contents. -/
private theorem pointsTo_cut (S : Finset T) (K : T → Finset (Idx ℓ)) (q : PosShare TreeShare)
    (hd : ∀ a ∈ S, ∀ b ∈ S, a ≠ b → Disjoint (K a) (K b)) :
    (iprop(∃ f, ℓ ↦[S.biUnion K]{q} f) : sProp 𝕄) ⊢ bigSep S fun t => iprop(∃ f, ℓ ↦[K t]{q} f) := by
  refine exists_elim fun f => ?_
  rw [pointsTo_biUnion S K hd]
  refine bigSep_mono fun t _ => ?_
  show (ℓ ↦[K t]{q} f : sProp 𝕄) ⊢ iprop(∃ f, ℓ ↦[K t]{q} f)
  iintro H
  iexists f
  iexact H

end Cut

/-! ## The rows, slabs and row ranges as element sets -/

/-- Row `j` of the 16 × 1024 buffer, as a rectangle. -/
private abbrev rowR (j : Dev nD) : Rect S16x1024 := Rect.unit (s := S16x1024) (k0_off2 j) S1x1024.size (k0_off2_inb j)

private theorem row_set (j : Dev nD) : (rowM j).view.set = (rowR j).set := View.set_slice_whole cc0_scratch1 _

private theorem rowR_disjoint {j j' : Dev nD} (h : j ≠ j') : Disjoint (rowR j).set (rowR j').set := by
  refine Rect.unit_disjoint (0 : Fin 2) ?_
  rw [k0_off2_eq, k0_off2_eq]
  have := Fin.val_ne_of_ne h
  show j.val + 1 ≤ j'.val ∨ j'.val + 1 ≤ j.val
  omega

private theorem rowR_cover : (Finset.univ : Finset (Dev nD)).biUnion (fun j => (rowR j).set) = Finset.univ := by
  ext x
  simp only [Finset.mem_biUnion, Finset.mem_univ, true_and, iff_true]
  refine ⟨⟨(x 0).val, (x 0).isLt⟩, Rect.mem_set_unit.mpr ?_⟩
  rw [k0_off2_eq]
  refine Fin.forall_fin_two.mpr ⟨⟨Nat.le_refl _, Nat.lt_succ_self _⟩, Nat.zero_le _, ?_⟩
  exact (Nat.zero_add _).symm ▸ (x 1).isLt

/-- Slab `k` of the 8 × 512 × 1024 buffer, as a rectangle. -/
private abbrev slabR (k : Fin 8) : Rect S8x512x1024 := Rect.unit (s := S8x512x1024) ![k.val, 0, 0] S1x512x1024.size (chunkDst_inb k)

private theorem slab_set (k : Fin 8) : (chunkDst k).view.set = (slabR k).set :=
  (View.set_reshape _ _).trans (View.set_slice_whole cc0_scratch0 _)

private theorem slabR_disjoint {k k' : Fin 8} (h : k ≠ k') : Disjoint (slabR k).set (slabR k').set := by
  refine Rect.unit_disjoint (0 : Fin 3) ?_
  have := Fin.val_ne_of_ne h
  show k.val + 1 ≤ k'.val ∨ k'.val + 1 ≤ k.val
  omega

private theorem slabR_cover : (Finset.univ : Finset (Fin 8)).biUnion (fun k => (slabR k).set) = Finset.univ := by
  ext x
  simp only [Finset.mem_biUnion, Finset.mem_univ, true_and, iff_true]
  refine ⟨⟨(x 0).val, (x 0).isLt⟩, Rect.mem_set_unit.mpr ?_⟩
  refine Fin.forall_fin_succ.mpr ⟨⟨Nat.le_refl _, Nat.lt_succ_self _⟩, Fin.forall_fin_two.mpr ⟨⟨Nat.zero_le _, ?_⟩, Nat.zero_le _, ?_⟩⟩
  · exact (Nat.zero_add _).symm ▸ (x 1).isLt
  · exact (Nat.zero_add _).symm ▸ (x 2).isLt

/-- Rows `[512 k, 512 k + 512)` of the 4096 × 1024 block, as a rectangle. -/
private abbrev xrowR (k : Fin 8) : Rect S4096x1024 := Rect.unit (s := S4096x1024) ![512 * k.val, 0] S512x1024.size (chunkSrc_inb k)

private theorem xrow_set (k : Fin 8) : (chunkSrc k).view.set = (xrowR k).set := View.set_slice_whole main_arg0 _

private theorem xrowR_disjoint {k k' : Fin 8} (h : k ≠ k') : Disjoint (xrowR k).set (xrowR k').set := by
  refine Rect.unit_disjoint (0 : Fin 2) ?_
  have := Fin.val_ne_of_ne h
  show 512 * k.val + 512 ≤ 512 * k'.val ∨ 512 * k'.val + 512 ≤ 512 * k.val
  omega

private theorem xrowR_cover : (Finset.univ : Finset (Fin 8)).biUnion (fun k => (xrowR k).set) = Finset.univ := by
  ext x
  simp only [Finset.mem_biUnion, Finset.mem_univ, true_and, iff_true]
  have hx : (x 0).val < 4096 := (x 0).isLt
  refine ⟨⟨(x 0).val / 512, by omega⟩, Rect.mem_set_unit.mpr ?_⟩
  refine Fin.forall_fin_two.mpr ⟨?_, Nat.zero_le _, ?_⟩
  · show 512 * ((x 0).val / 512) ≤ (x 0).val ∧ (x 0).val < 512 * ((x 0).val / 512) + 512
    omega
  · exact (Nat.zero_add _).symm ▸ (x 1).isLt

/-! ## The exchange buffer by rows, a row by shares -/

theorem rows_split (t : Dev nD) :
    iprop(∃ f : Buf (Elt F) ((t : Thread nD τ).loc cc0_scratch1), ((t : Thread nD τ).loc cc0_scratch1) ↦{fullShare} f)
      ⊢ (bigSep Finset.univ fun j : Dev nD => iprop(∃ f, rowPts t j fullShare f) : sProp 𝕄) := by
  have h := pointsTo_cut (F := F) (ℓ := (t : Thread nD τ).loc cc0_scratch1) Finset.univ (fun j : Dev nD => (rowR j).set) fullShare
    (fun a _ b _ hab => rowR_disjoint hab)
  rw [rowR_cover] at h
  refine h.trans (Entails.of_eq (bigSep_congr fun j _ => ?_))
  rw [← row_set]; rfl
theorem rows_join (t : Dev nD) :
    (bigSep Finset.univ fun j : Dev nD => iprop(∃ f, rowPts t j fullShare f) : sProp 𝕄)
      ⊢ iprop(∃ f : Buf (Elt F) ((t : Thread nD τ).loc cc0_scratch1), ((t : Thread nD τ).loc cc0_scratch1) ↦{fullShare} f) := by
  have h := pointsTo_glue (F := F) (ℓ := (t : Thread nD τ).loc cc0_scratch1) Finset.univ (fun j : Dev nD => (rowR j).set) fullShare
    (View.junk cM.view) (fun a _ b _ hab => rowR_disjoint hab)
  rw [rowR_cover] at h
  refine (Entails.of_eq (bigSep_congr fun j _ => ?_)).trans h
  rw [← row_set]; rfl

/-- Halving a share `k` times to the right, keeping each left half: the pieces of a family of assertions indexed by shares. -/
private def chain (P : PosShare TreeShare → sProp 𝕄) : ℕ → PosShare TreeShare → sProp 𝕄
  | 0, q => P q
  | k + 1, q => iprop(P q.left ∗ chain P k q.right)

/-- A family that splits along the two halves of every share splits along the whole chain. -/
private theorem chain_eq (P : PosShare TreeShare → sProp 𝕄) (hP : ∀ q, P q = iprop(P q.left ∗ P q.right)) :
    ∀ (k : ℕ) (q : PosShare TreeShare), P q = chain P k q
  | 0, q => rfl
  | k + 1, q => by
    rw [hP q, chain_eq P hP k q.right]; rfl

/-- A row at a share is the row at the share's left half and at its right half. -/
private theorem row_halves (t j : Dev nD) (f : Buf (Elt F) ((rowM j).view.loc (t : Thread nD τ))) (q : PosShare TreeShare) :
    (rowPts t j q f : sProp 𝕄) = iprop(rowPts t j q.left f ∗ rowPts t j q.right f) :=
  have h : (rowPts t j q f : sProp 𝕄) ⊣⊢ iprop(rowPts t j q.left f ∗ rowPts t j q.right f) :=
    pointsTo_share (PosShare.mem_left_op_right q)
  equiv_iff.mp ⟨h.1, h.2⟩

private theorem shareOf_lt (i : Fin 15) (h : i.val < 14) : shareOf i = (rightN i.val).left := if_pos h
private theorem shareOf_last : shareOf 14 = rightN 14 := if_neg (by decide)

theorem shares_split (t j : Dev nD) (f : Buf (Elt F) ((rowM j).view.loc (t : Thread nD τ))) :
    rowPts t j fullShare f ⊣⊢ (bigSep Finset.univ fun i : Fin 15 => rowPts t j (shareOf i) f : sProp 𝕄) := by
  rw [bigSep_fin15, shareOf_lt 0 (by decide), shareOf_lt 1 (by decide), shareOf_lt 2 (by decide), shareOf_lt 3 (by decide),
    shareOf_lt 4 (by decide), shareOf_lt 5 (by decide), shareOf_lt 6 (by decide), shareOf_lt 7 (by decide), shareOf_lt 8 (by decide),
    shareOf_lt 9 (by decide), shareOf_lt 10 (by decide), shareOf_lt 11 (by decide), shareOf_lt 12 (by decide), shareOf_lt 13 (by decide),
    shareOf_last]
  exact .of_eq (chain_eq (fun q => rowPts t j q f) (row_halves t j f) 14 fullShare)

/-! ## The chunk scratch by slabs, the block in HBM by row ranges -/

theorem slabs_split (t : Dev nD) :
    iprop(∃ f : Buf (Elt F) ((t : Thread nD τ).loc cc0_scratch0), ((t : Thread nD τ).loc cc0_scratch0) ↦{fullShare} f)
      ⊢ (bigSep Finset.univ fun k : Fin 8 => iprop(∃ f, (chunkDst k).view.loc (t : Thread nD τ) ↦[(chunkDst k).view.set]{fullShare} f) : sProp 𝕄) := by
  have h := pointsTo_cut (F := F) (ℓ := (t : Thread nD τ).loc cc0_scratch0) Finset.univ (fun k : Fin 8 => (slabR k).set) fullShare
    (fun a _ b _ hab => slabR_disjoint hab)
  rw [slabR_cover] at h
  refine h.trans (Entails.of_eq (bigSep_congr fun k _ => ?_))
  rw [← slab_set]; rfl
theorem slabs_join (t : Dev nD) :
    (bigSep Finset.univ fun k : Fin 8 => iprop(∃ f, (chunkDst k).view.loc (t : Thread nD τ) ↦[(chunkDst k).view.set]{fullShare} f) : sProp 𝕄)
      ⊢ iprop(∃ f : Buf (Elt F) ((t : Thread nD τ).loc cc0_scratch0), ((t : Thread nD τ).loc cc0_scratch0) ↦{fullShare} f) := by
  have h := pointsTo_glue (F := F) (ℓ := (t : Thread nD τ).loc cc0_scratch0) Finset.univ (fun k : Fin 8 => (slabR k).set) fullShare
    (View.junk bM.view) (fun a _ b _ hab => slabR_disjoint hab)
  rw [slabR_cover] at h
  refine (Entails.of_eq (bigSep_congr fun k _ => ?_)).trans h
  rw [← slab_set]; rfl
theorem xrows_split (t : Dev nD) :
    (((t : Thread nD τ).loc main_arg0) ↦{fullShare} m ((t : Thread nD τ).loc main_arg0) : sProp 𝕄)
      ⊣⊢ (bigSep Finset.univ fun k : Fin 8 => ((chunkSrc k).view.loc (t : Thread nD τ) ↦[(chunkSrc k).view.set]{fullShare} xBuf m t k) : sProp 𝕄) := by
  have h : (((t : Thread nD τ).loc main_arg0) ↦[Finset.univ.biUnion fun k : Fin 8 => (xrowR k).set]{fullShare} m ((t : Thread nD τ).loc main_arg0) : sProp 𝕄)
      = bigSep Finset.univ fun k : Fin 8 => ((t : Thread nD τ).loc main_arg0) ↦[(xrowR k).set]{fullShare} m ((t : Thread nD τ).loc main_arg0) :=
    pointsTo_biUnion Finset.univ _ fun a _ b _ hab => xrowR_disjoint hab
  rw [xrowR_cover] at h
  refine .of_eq (h.trans (bigSep_congr fun k _ => ?_))
  rw [← xrow_set]; rfl

end Cert.KernelIdeal.P

end
-- ==== Proof.Steps.lean ====
/-
  One rule per kind of step of the body, at a symbolic device and a symbolic offset: a handshake signal, a chunk
  copy and its wait, the wait for the fifteen handshake units, a row transfer, the wait for its departure and the
  wait for a peer's row; and the closing of a device's own cells at the end.
-/
import proofs.«901088_g7700000000001089_dist_sum_ax0_shard0_i_m4096_n1024_v7x_i16_f32_1_alg».proof.Proof.Ghost
import proofs.«901088_g7700000000001089_dist_sum_ax0_shard0_i_m4096_n1024_v7x_i16_f32_1_alg».proof.Proof.Bridge
import proofs.«901088_g7700000000001089_dist_sum_ax0_shard0_i_m4096_n1024_v7x_i16_f32_1_alg».proof.Proof.Split

noncomputable section

namespace Cert.KernelIdeal.P

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Reading the shared records -/

theorem inv_at (K : Dev nD × Fin 39 → ℕ) (ck : Dev nD × Fin 39) : records m K ⊢ cellInv ER (sched m) (K ck) (kcell ck) := by
  unfold records; iintro ⟨HI, -⟩
  iapply (show (bigSep Finset.univ fun ck : Dev nD × Fin 39 => (cellInv ER (sched m) (K ck) (kcell ck) : sProp 𝕄)) ⊢ cellInv ER (sched m) (K ck) (kcell ck)
    from bigSep_elim (Finset.mem_univ ck))
  iexact HI
theorem reached_at (K : Dev nD × Fin 39 → ℕ) (ck : Dev nD × Fin 39) : records m K ⊢ reached ER (kcell ck) 0 := by
  unfold records; iintro ⟨-, HR⟩
  iapply (show (bigSep Finset.univ fun ck : Dev nD × Fin 39 => (reached ER (kcell ck) 0 : sProp 𝕄)) ⊢ reached ER (kcell ck) 0
    from bigSep_elim (Finset.mem_univ ck))
  iexact HR

theorem kcell_bar (c : Dev nD) : kcell (c, 0) = barCell c := rfl
theorem kcell_copy (c : Dev nD) (k : Fin 8) : kcell (c, ixCopy k) = copyCell c k := by show (_, csem _) = _; rw [csem_copy]
theorem kcell_send (c : Dev nD) (i : Fin 15) : kcell (c, ixSend i) = sendCell c i := by show (_, csem _) = _; rw [csem_send]
theorem kcell_recv (c : Dev nD) (i : Fin 15) : kcell (c, ixRecv i) = recvCell c i := by show (_, csem _) = _; rw [csem_recv]

theorem inv_bar (K : Dev nD × Fin 39 → ℕ) (c : Dev nD) : records m K ⊢ cellInv ER (sched m) (K (c, 0)) (barCell c) := inv_at m K (c, 0)
theorem inv_copy (K : Dev nD × Fin 39 → ℕ) (c : Dev nD) (k : Fin 8) : records m K ⊢ cellInv ER (sched m) (K (c, ixCopy k)) (copyCell c k) := by
  have h := inv_at m K (c, ixCopy k); rwa [kcell_copy] at h
theorem inv_send (K : Dev nD × Fin 39 → ℕ) (c : Dev nD) (i : Fin 15) : records m K ⊢ cellInv ER (sched m) (K (c, ixSend i)) (sendCell c i) := by
  have h := inv_at m K (c, ixSend i); rwa [kcell_send] at h
theorem inv_recv (K : Dev nD × Fin 39 → ℕ) (c : Dev nD) (i : Fin 15) : records m K ⊢ cellInv ER (sched m) (K (c, ixRecv i)) (recvCell c i) := by
  have h := inv_at m K (c, ixRecv i); rwa [kcell_recv] at h
theorem reached_bar (K : Dev nD × Fin 39 → ℕ) (c : Dev nD) : records m K ⊢ reached ER (barCell c) 0 := reached_at m K (c, 0)
theorem reached_copy (K : Dev nD × Fin 39 → ℕ) (c : Dev nD) (k : Fin 8) : records m K ⊢ reached ER (copyCell c k) 0 := by
  have h := reached_at m K (c, ixCopy k); rwa [kcell_copy] at h
theorem reached_send (K : Dev nD × Fin 39 → ℕ) (c : Dev nD) (i : Fin 15) : records m K ⊢ reached ER (sendCell c i) 0 := by
  have h := reached_at m K (c, ixSend i); rwa [kcell_send] at h
theorem reached_recv (K : Dev nD × Fin 39 → ℕ) (c : Dev nD) (i : Fin 15) : records m K ⊢ reached ER (recvCell c i) 0 := by
  have h := reached_at m K (c, ixRecv i); rwa [kcell_recv] at h

/-! ## What is owed, one tally peeled off -/

theorem owed_peel_bar (c : Dev nD) (Sr Sb : Finset (Fin 15)) (j : Fin 15) (hj : j ∈ Sb) :
    owedOf c Sr Sb = owedOf c Sr (Sb.erase j) + tallyAt (barCell (peer c j)) () 1 := by
  unfold owedOf; rw [← Finset.sum_erase_add _ _ hj, add_assoc]
theorem owed_peel_recv (c : Dev nD) (Sr Sb : Finset (Fin 15)) (i : Fin 15) (hi : i ∈ Sr) :
    owedOf c Sr Sb = owedOf c (Sr.erase i) Sb + tallyAt (recvCell (peer c i) i) () NR := by
  unfold owedOf; rw [← Finset.sum_erase_add _ _ hi, add_right_comm]
theorem owed_empty (c : Dev nD) : owedOf c ∅ ∅ = 0 := by unfold owedOf; rw [Finset.sum_empty, Finset.sum_empty, add_zero]

/-! ## The levels: a wait below level 2 while only row transfers are owed -/

theorem L_tc (c : Dev nD) (sm : SemLoc sig) : L ((c : Thread nD τ), sm) = {()} := if_pos rfl
theorem L_of_ne (g : GSem nD τ sig) (h : g.1.2 ≠ .tc) : L g = ∅ := if_neg h

theorem mayWait_owing_rows (c : Dev nD) (sm : SemLoc sig) (hlv : lv ((c : Thread nD τ), sm) () < 2) (Sr : Finset (Fin 15)) :
    (levAts L lv : sProp 𝕄) ⊢ MayWait (c : Thread nD τ) sm () (owedOf c Sr ∅) :=
  Pipeline.mayWait_of_levAts (by rw [L_tc]; exact Finset.mem_singleton_self _) fun g u h => by
    unfold owedOf at h; rw [Finset.sum_empty, add_zero] at h
    obtain ⟨i, -, hi⟩ := Pipeline.sum_pos_exists h
    rw [tallyAt_apply] at hi
    by_cases hh : g = recvCell (peer c i) i ∧ u = ()
    · rw [hh.1]
      refine ⟨by rw [L_tc]; exact Finset.mem_singleton_self _, lt_of_lt_of_le hlv ?_⟩
      show 2 ≤ lv (recvCell (peer c i) i) u
      dsimp only [lv]; rw [kind_recv]
    · rw [if_neg hh] at hi; exact absurd hi (lt_irrefl 0)

section Rules

variable (K : Dev nD × Fin 39 → ℕ) (c : Dev nD)

/-! ## The handshake signal to the peer at offset `j` -/

theorem step_signal {α : Type} {Q : α → sProp 𝕄} {kont : PUnit → Prog (TpuEff nD τ sig (Elt F) Λ₀ .tc) α} (j : Fin 15) (Sr Sb : Finset (Fin 15)) (hj : j ∈ Sb) (n : Dev nD) (hn : n = peer c j) (W : Waits sig Unit)
    (f : Buf (Elt F) ((rowM (peer c j)).view.loc (c : Thread nD τ))) :
    iprop(records m K ∗ owes (c : Thread nD τ) (owedOf c Sr Sb) W ∗ dutyTok ER (barCell (peer c j)) 0 j.rev ∗ rowPts c (peer c j) fullShare f)
      ⊢ iprop((owes (c : Thread nD τ) (owedOf c Sr (Sb.erase j)) W -∗ wp frame (wpE (defs₀ (F := F)) 𝒱₀ (c : Thread nD τ) none) Set.univ (kont ⟨⟩) Q)
          -∗ wp frame (wpE (defs₀ (F := F)) 𝒱₀ (c : Thread nD τ) none) Set.univ (.op (.semSignal (n : Thread nD τ) barS 1) kont) Q) := by
  subst hn
  iintro ⟨#Hrec, HO, Htok, Hrow⟩
  ihave HI := (inv_bar m K (peer c j)) $$ Hrec
  ihave Hr := (reached_bar m K (peer c j)) $$ Hrec
  ihave Hrv := (reached_recv m K c j.rev) $$ Hrec
  iapply (Rounds.wp_signal 𝒱₀ ER (sched m) (c : Thread nD τ) none (dst := (peer c j : Thread nD τ)) (κ := K (peer c j, 0))
      (d := j.rev) (by rw [duties_bar]; exact Finset.mem_univ _) (amount_bar m (peer c j) j.rev) () (owedOf c Sr (Sb.erase j))
      (owed_peel_bar c Sr Sb j hj))
  isplitr; · iexact HI
  isplitl [HO]; · iexact HO
  isplitl [Htok]; · iexact Htok
  isplitl [Hrow]
  · rw [payload_bar]; unfold barPay; rw [peer_peer_rev]
    isplitl [Hrow]; · iexists f; iexact Hrow
    iexact Hrv
  · iexact Hr

end Rules

section Rules2

variable (K : Dev nD × Fin 39 → ℕ) (c : Dev nD)

/-! ## The copy of chunk `k` into its slab -/

theorem step_copy {α : Type} {Q : α → sProp 𝕄} {kont : PUnit → Prog (TpuEff nD τ sig (Elt F) Λ₀ .tc) α} (k : Fin 8) (fd : Buf (Elt F) ((chunkDst k).view.loc (c : Thread nD τ)))
    {hsrc : (chunkSrc k).view.WordExact} {hdst : (chunkDst k).view.WordExact}
    {hsem : DmaTarget.Typed (nD := nD) .hbm (.dma (copySem k)) (DmaTarget.here (p := (c : Thread nD τ).2) (chunkDst k))} :
    iprop(records m K ∗ ((chunkSrc k).view.loc (c : Thread nD τ) ↦[(chunkSrc k).view.set]{fullShare} xBuf m c k)
        ∗ ((chunkDst k).view.loc (c : Thread nD τ) ↦[(chunkDst k).view.set]{fullShare} fd) ∗ dutyTok ER (copyCell c k) 0 0)
      ⊢ iprop((cred (tallyAt (copyCell c k) () NC) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (chunkSrc k) (DmaTarget.here (p := (c : Thread nD τ).2) (chunkDst k)) (.dma (copySem k)) hsrc hdst hsem) kont) Q) := by
  iintro ⟨#Hrec, Hs, Hd, Htok⟩
  ihave HI := (inv_copy m K c k) $$ Hrec
  ihave Hr := (reached_copy m K c k) $$ Hrec
  iapply (Rounds.wp_copy_pointsTo 𝒱₀ ER (sched m) (c : Thread nD τ) none (κ := K (c, ixCopy k)) (r := 0) (d := 0) (fd := fd) (fs := xBuf m c k)
      (by rw [duties_copy]; exact Finset.mem_singleton_self _) () NC rfl (amount_copy m c k 0)
      (by rw [payload_copy]; unfold copyPay
          exact sep_mono_left (Entails.of_eq (pts_congr _ _ _ _ _ (chunk_land_eq m c k fd)))))
  isplitr; · iexact HI
  isplitl [Hs]; · iexact Hs
  isplitl [Hd]; · iexact Hd
  isplitl [Htok]; · iexact Htok
  iexact Hr

/-! ## A wait for the whole round of one of the device's own cells -/

theorem step_wait_gen {α : Type} {Q : α → sProp 𝕄} {kont : PUnit → Prog (TpuEff nD τ sig (Elt F) Λ₀ .tc) α} (sm : SemLoc sig) (κ : ℕ) (hinv : records m K ⊢ cellInv ER (sched m) κ ((c : Thread nD τ), sm))
    (n : ℕ) (hexp : (sched m).expect ((c : Thread nD τ), sm) 0 = n)
    (P : sProp 𝕄) (hrest : bigSep ((sched m).duties ((c : Thread nD τ), sm) 0 \ ∅) (fun d => (sched m).payload ((c : Thread nD τ), sm) 0 d) = P)
    (O : CellTallies nD τ sig Unit) (hmay : (levAts L lv : sProp 𝕄) ⊢ MayWait (c : Thread nD τ) sm () O) (W : Waits sig Unit)
    {w : TpuEff nD τ sig (Elt F) Λ₀ .tc PUnit}
    (hw : ∀ Kk : PUnit → sProp 𝕄, wpE (defs₀ (F := F)) 𝒱₀ (c : Thread nD τ) none Set.univ w Kk = waitSpec (c : Thread nD τ) Set.univ sm n Kk) :
    iprop(records m K ∗ levAts L lv ∗ cred (tallyAt ((c : Thread nD τ), sm) () n) ∗ owes (c : Thread nD τ) O W ∗ atPos ER ((c : Thread nD τ), sm) 0 ∅ 0)
      ⊢ iprop(((owes (c : Thread nD τ) O (insert (sm, ()) W) ∗ atPos ER ((c : Thread nD τ), sm) 1 ∅ 0 ∗ P)
            -∗ wp frame (wpE (defs₀ (F := F)) 𝒱₀ (c : Thread nD τ) none) Set.univ (kont ⟨⟩) Q)
          -∗ wp frame (wpE (defs₀ (F := F)) 𝒱₀ (c : Thread nD τ) none) Set.univ (.op w kont) Q) := by
  iintro ⟨#Hrec, #Hlev, Hc, HO, Hat⟩ Hk
  ihave HI := hinv $$ Hrec
  iapply (Rounds.wp_wait_rest_token 𝒱₀ ER (sched m) (c : Thread nD τ) none (κ := κ) hw (Set.mem_univ _) () (O := O) (W := W) (R := 0) (m := 0) (T := ∅)
      (by rw [Nat.zero_add, hexp])) $$ [Hc HO Hat]
  · isplitr; · iexact HI
    isplitl [Hc]; · iexact Hc
    isplitl [HO]; · iexact HO
    isplitr; · iapply hmay; iexact Hlev
    iexact Hat
  iintro ⟨HO, Hat, -, Hpay⟩
  iapply Hk
  isplitl [HO]; · iexact HO
  isplitl [Hat]; · iexact Hat
  rw [← hrest]; iexact Hpay

theorem mayWait_nothing (sm : SemLoc sig) : (levAts L lv : sProp 𝕄) ⊢ MayWait (c : Thread nD τ) sm () (owedOf c ∅ ∅) := by
  rw [owed_empty, MayWait_zero]; iintro -; iempintro

/-! ## The transfer of the device's own row to the peer at offset `i` -/

theorem step_send {α : Type} {Q : α → sProp 𝕄} {kont : PUnit → Prog (TpuEff nD τ sig (Elt F) Λ₀ .tc) α} (i : Fin 15) (Sr : Finset (Fin 15)) (hi : i ∈ Sr) (n : Dev nD) (hn : n = peer c i) (W : Waits sig Unit)
    (fd : Buf (Elt F) ((rowM c).view.loc (peer c i : Thread nD τ)))
    {hsc : (rowM c : Memref sig (Dev.tc n : Thread nD τ).2.kind .vmem S1x1024 .f32).view.ref.isScScratch = false}
    {hsrc : (rowM c).view.WordExact} {hdst : (rowM c).view.WordExact}
    {hsem : DmaTarget.Typed .vmem (.dma (recvSem i)) (.remote (Dev.tc n : Thread nD τ) (rowM c) (.dma (sendSem i)) hsc)} :
    iprop(records m K ∗ rowPts c c (shareOf i) (rowBuf c c (part m c)) ∗ rowPts (peer c i) c fullShare fd
        ∗ owes (c : Thread nD τ) (owedOf c Sr ∅) W ∗ dutyTok ER (sendCell c i) 0 0 ∗ dutyTok ER (recvCell (peer c i) i) 0 0)
      ⊢ iprop(((cred (tallyAt (sendCell c i) () NR) ∗ owes (c : Thread nD τ) (owedOf c (Sr.erase i) ∅) W)
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (rowM c) (.remote (Dev.tc n : Thread nD τ) (rowM c) (.dma (sendSem i)) hsc) (.dma (recvSem i)) hsrc hdst hsem) kont) Q) := by
  subst hn
  iintro ⟨#Hrec, Hs, Hd, HO, HtS, HtR⟩
  ihave HIs := (inv_send m K c i) $$ Hrec
  ihave HIr := (inv_recv m K (peer c i) i) $$ Hrec
  ihave Hrs := (reached_send m K c i) $$ Hrec
  ihave Hrr := (reached_recv m K (peer c i) i) $$ Hrec
  unfold rowPts
  iapply (Rounds.wp_send_pointsTo 𝒱₀ ER (sched m) (c : Thread nD τ) none (κ₁ := K (c, ixSend i)) (κ₂ := K (peer c i, ixRecv i))
      (r₁ := 0) (r₂ := 0) (d₁ := 0) (d₂ := 0) (fd := fd) (fs := rowBuf c c (part m c)) (q := shareOf i)
      (by rw [duties_send]; exact Finset.mem_singleton_self _) (by rw [duties_recv]; exact Finset.mem_singleton_self _)
      () () NR rfl (amount_send m c i 0) (amount_recv m (peer c i) i 0) (owedOf c (Sr.erase i) ∅) (owed_peel_recv c Sr ∅ i hi) (W := W)
      (by rw [payload_send]; exact BI.Entails.refl _)
      (by rw [payload_recv]; unfold recvPay rowPts; rw [peer_peer_rev]
          exact Entails.of_eq (pts_congr _ _ _ _ _ (row_land_eq (peer c i) c c fd (rowBuf c c (part m c)) (part m c) (rowBuf_read c c _)))))
  isplitr; · iexact HIs
  isplitr; · iexact HIr
  isplitl [Hs]; · iexact Hs
  isplitl [Hd]; · iexact Hd
  isplitl [HO]; · iexact HO
  isplitl [HtS]; · iexact HtS
  isplitr; · iexact Hrs
  isplitl [HtR]; · iexact HtR
  iexact Hrr

end Rules2

section Loads

variable (c : Dev nD)

/-! ## Loads and the store, through what the landings left -/

theorem step_load_chunk {α : Type} {Q : α → sProp 𝕄} (k : Fin 8) (inb : ∀ a, (![k.val, 0, 0] : Fin 3 → Nat) a + S1x512x1024.size a ≤ S8x512x1024.size a)
    {hl : (bM : Memref sig .tc .vmem S8x512x1024 .f32).view.LoadsAt (Rect.unit (s := S8x512x1024) ![k.val, 0, 0] S1x512x1024.size inb).toLoadRect}
    {kont : (Vec F S1x512x1024 .f32) → Prog (TpuEff nD τ sig (Elt F) Λ₀ .tc) α} :
    ((chunkDst k).view.loc (c : Thread nD τ) ↦[(chunkDst k).view.set]{fullShare} chunkBuf m c k : sProp 𝕄)
      ⊢ iprop((((chunkDst k).view.loc (c : Thread nD τ) ↦[(chunkDst k).view.set]{fullShare} chunkBuf m c k)
            -∗ wp frame (wpE (defs₀ (F := F)) 𝒱₀ (c : Thread nD τ) none) Set.univ (kont (SumValue.chunk (blockOf m c) k)) Q)
          -∗ wp frame (wpE (defs₀ (F := F)) 𝒱₀ (c : Thread nD τ) none) Set.univ
              (.op (.load (bM : Memref sig .tc .vmem S8x512x1024 .f32) (Rect.unit (s := S8x512x1024) ![k.val, 0, 0] S1x512x1024.size inb).toLoadRect hl) kont) Q) := by
  have h := wp_load (defs := defs₀ (F := F)) (Γ := PendingWaitsCtx.empty) 𝒱₀ (c : Thread nD τ) none Set.univ (m := (bM : Memref sig .tc .vmem S8x512x1024 .f32)) (hl := hl) (k := kont) (Q := Q)
    (q := fullShare) (f := chunkBuf m c k) (chunk_load_sub k inb)
  rw [chunk_load_read] at h
  exact h

theorem step_load_row {α : Type} {Q : α → sProp 𝕄} (j : Dev nD) (q : PosShare TreeShare) (v : Vec F S1x1024 .f32) (o : Fin 2 → Nat) (ho : o = k0_off2 j) (inb : ∀ a, o a + S1x1024.size a ≤ S16x1024.size a)
    {hl : (cM : Memref sig .tc .vmem S16x1024 .f32).view.LoadsAt (Rect.unit (s := S16x1024) o S1x1024.size inb).toLoadRect}
    {kont : (Vec F S1x1024 .f32) → Prog (TpuEff nD τ sig (Elt F) Λ₀ .tc) α} :
    (rowPts c j q (rowBuf c j v) : sProp 𝕄)
      ⊢ iprop((rowPts c j q (rowBuf c j v) -∗ wp frame (wpE (defs₀ (F := F)) 𝒱₀ (c : Thread nD τ) none) Set.univ (kont v) Q)
          -∗ wp frame (wpE (defs₀ (F := F)) 𝒱₀ (c : Thread nD τ) none) Set.univ
              (.op (.load (cM : Memref sig .tc .vmem S16x1024 .f32) (Rect.unit (s := S16x1024) o S1x1024.size inb).toLoadRect hl) kont) Q) := by
  have h := wp_load (defs := defs₀ (F := F)) (Γ := PendingWaitsCtx.empty) 𝒱₀ (c : Thread nD τ) none Set.univ (m := (cM : Memref sig .tc .vmem S16x1024 .f32)) (hl := hl) (k := kont) (Q := Q)
    (q := q) (f := rowBuf c j v) (row_load_sub j o ho inb)
  rw [row_load_read c j v o ho inb] at h
  exact h

end Loads

/-! ## The body's order: handshake signals by offset, transfers in the kernel's send order -/

/-- The handshake units still owed when the first `n` signals (offsets `1 … n`) are sent. -/
def barSet (n : ℕ) : Finset (Fin 15) := Finset.univ.filter fun j => n ≤ j.val
/-- The place of offset index `i` in the kernel's send order (offsets 14, 13, 15, 10, 9, 11, 12, 6, 8, 2, 5, 7, 1, 3, 4). -/
def posOf : Fin 15 → ℕ := ![12, 9, 13, 14, 10, 7, 11, 8, 4, 3, 5, 6, 1, 0, 2]
theorem posOf_inj : Function.Injective posOf := by decide
/-- The row transfers still owed when the first `t` of the send order are issued. -/
def sendSet (t : ℕ) : Finset (Fin 15) := Finset.univ.filter fun i => t ≤ posOf i

theorem barSet_zero : barSet 0 = Finset.univ := by decide
theorem barSet_done : barSet 15 = ∅ := by decide
theorem sendSet_zero : sendSet 0 = Finset.univ := by decide
theorem sendSet_done : sendSet 15 = ∅ := by decide
theorem barSet_erase (j : Fin 15) : (barSet j.val).erase j = barSet (j.val + 1) := by
  ext x; simp only [barSet, Finset.mem_erase, Finset.mem_filter, Finset.mem_univ, true_and, ne_eq, Fin.ext_iff]; omega
theorem mem_barSet (j : Fin 15) : j ∈ barSet j.val := by simp [barSet]
theorem sendSet_erase (i : Fin 15) : (sendSet (posOf i)).erase i = sendSet (posOf i + 1) := by
  ext x; simp only [sendSet, Finset.mem_erase, Finset.mem_filter, Finset.mem_univ, true_and, ne_eq]
  constructor
  · rintro ⟨hne, hle⟩; exact Nat.lt_of_le_of_ne hle fun h => hne (posOf_inj h.symm)
  · intro h; exact ⟨fun hx => by rw [hx] at h; omega, by omega⟩
theorem mem_sendSet (i : Fin 15) : i ∈ sendSet (posOf i) := by simp [sendSet]

theorem O₀_eq (c : Dev nD) : O₀ c = owedOf c (sendSet 0) (barSet 0) := by rw [sendSet_zero, barSet_zero]; rfl

section Rules3

variable (K : Dev nD × Fin 39 → ℕ) (c : Dev nD)

/-- The handshake signal to the peer at offset `j`, the `j` before it sent. -/
theorem step_signal' {α : Type} {Q : α → sProp 𝕄} {kont : PUnit → Prog (TpuEff nD τ sig (Elt F) Λ₀ .tc) α}
    (j : Fin 15) (Sr : Finset (Fin 15)) (n : Dev nD) (hn : n = peer c j) (W : Waits sig Unit)
    (f : Buf (Elt F) ((rowM (peer c j)).view.loc (c : Thread nD τ))) :
    iprop(records m K ∗ owes (c : Thread nD τ) (owedOf c Sr (barSet j.val)) W ∗ dutyTok ER (barCell (peer c j)) 0 j.rev ∗ rowPts c (peer c j) fullShare f)
      ⊢ iprop((owes (c : Thread nD τ) (owedOf c Sr (barSet (j.val + 1))) W -∗ wp frame (wpE (defs₀ (F := F)) 𝒱₀ (c : Thread nD τ) none) Set.univ (kont ⟨⟩) Q)
          -∗ wp frame (wpE (defs₀ (F := F)) 𝒱₀ (c : Thread nD τ) none) Set.univ (.op (.semSignal (n : Thread nD τ) barS 1) kont) Q) := by
  rw [← barSet_erase]; exact step_signal m K c j Sr _ (mem_barSet j) n hn W f

/-- The transfer of the device's own row to the peer at offset `i`, those before it in the send order issued. -/
theorem step_send' {α : Type} {Q : α → sProp 𝕄} {kont : PUnit → Prog (TpuEff nD τ sig (Elt F) Λ₀ .tc) α}
    (i : Fin 15) (n : Dev nD) (hn : n = peer c i) (W : Waits sig Unit)
    (fd : Buf (Elt F) ((rowM c).view.loc (peer c i : Thread nD τ)))
    {hsc : (rowM c : Memref sig (Dev.tc n : Thread nD τ).2.kind .vmem S1x1024 .f32).view.ref.isScScratch = false}
    {hsrc : (rowM c).view.WordExact} {hdst : (rowM c).view.WordExact}
    {hsem : DmaTarget.Typed .vmem (.dma (recvSem i)) (.remote (Dev.tc n : Thread nD τ) (rowM c) (.dma (sendSem i)) hsc)} :
    iprop(records m K ∗ rowPts c c (shareOf i) (rowBuf c c (part m c)) ∗ rowPts (peer c i) c fullShare fd
        ∗ owes (c : Thread nD τ) (owedOf c (sendSet (posOf i)) ∅) W ∗ dutyTok ER (sendCell c i) 0 0 ∗ dutyTok ER (recvCell (peer c i) i) 0 0)
      ⊢ iprop(((cred (tallyAt (sendCell c i) () NR) ∗ owes (c : Thread nD τ) (owedOf c (sendSet (posOf i + 1)) ∅) W)
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (rowM c) (.remote (Dev.tc n : Thread nD τ) (rowM c) (.dma (sendSem i)) hsc) (.dma (recvSem i)) hsrc hdst hsem) kont) Q) := by
  rw [← sendSet_erase]; exact step_send m K c i _ (mem_sendSet i) n hn W fd

/-- The store of the partial sum into the device's own row. -/
theorem step_store_row {α : Type} {Q : α → sProp 𝕄} {kont : PUnit → Prog (TpuEff nD τ sig (Elt F) Λ₀ .tc) α}
    (f : Buf (Elt F) ((rowM c).view.loc (c : Thread nD τ))) (v : Vec F S1x1024 .f32) (o : Fin 2 → Nat) (ho : o = k0_off2 c) (inb : ∀ a, o a + S1x1024.size a ≤ S16x1024.size a)
    {hx : ((cM : Memref sig .tc .vmem S16x1024 .f32).access (Rect.unit (s := S16x1024) o S1x1024.size inb)).Stores Finset.univ}
    {hm : (Finset.univ : Finset (Rect.unit (s := S16x1024) o S1x1024.size inb).shape.Idx) = Finset.univ ∨ ∀ a, (Rect.unit (s := S16x1024) o S1x1024.size inb).stride a = 1} :
    (rowPts c c fullShare f : sProp 𝕄)
      ⊢ iprop((rowPts c c fullShare (rowBuf c c v) -∗ wp frame (wpE (defs₀ (F := F)) 𝒱₀ (c : Thread nD τ) none) Set.univ (kont ⟨⟩) Q)
          -∗ wp frame (wpE (defs₀ (F := F)) 𝒱₀ (c : Thread nD τ) none) Set.univ
              (.op (.store (cM : Memref sig .tc .vmem S16x1024 .f32) (Rect.unit (s := S16x1024) o S1x1024.size inb) v Finset.univ hx hm) kont) Q) := by
  subst ho
  have h := wp_store (defs := defs₀ (F := F)) (Γ := PendingWaitsCtx.empty) 𝒱₀ (c : Thread nD τ) none Set.univ (m := (cM : Memref sig .tc .vmem S16x1024 .f32))
    (r := Rect.unit (s := S16x1024) (k0_off2 c) S1x1024.size inb) (w := v) (Mk := Finset.univ) (hx := hx) (hm := hm) (k := kont) (Q := Q)
    (S := (rowM c).view.set) (f := f) (row_store_sub c (k0_off2 c) rfl inb)
  have h' : ((rowM c).view.loc (c : Thread nD τ) ↦[(rowM c).view.set]{fullShare} f : sProp 𝕄)
      ⊢ iprop((((rowM c).view.loc (c : Thread nD τ) ↦[(rowM c).view.set]{fullShare}
            ((cM : Memref sig .tc .vmem S16x1024 .f32).access (Rect.unit (s := S16x1024) (k0_off2 c) S1x1024.size inb)).write (Elt F) f v Finset.univ)
          -∗ wp frame (wpE (defs₀ (F := F)) 𝒱₀ (c : Thread nD τ) none) Set.univ (kont ⟨⟩) Q)
        -∗ wp frame (wpE (defs₀ (F := F)) 𝒱₀ (c : Thread nD τ) none) Set.univ
            (.op (.store (cM : Memref sig .tc .vmem S16x1024 .f32) (Rect.unit (s := S16x1024) (k0_off2 c) S1x1024.size inb) v Finset.univ hx hm) kont) Q) := h
  have e : ((rowM c).view.loc (c : Thread nD τ) ↦[(rowM c).view.set]{fullShare}
        ((cM : Memref sig .tc .vmem S16x1024 .f32).access (Rect.unit (s := S16x1024) (k0_off2 c) S1x1024.size inb)).write (Elt F) f v Finset.univ : sProp 𝕄)
      = rowPts c c fullShare (rowBuf c c v) := pts_congr _ _ _ _ _ (row_store_eq c c (k0_off2 c) rfl inb f v)
  unfold rowPts at e ⊢
  iintro H Hk
  iapply h' $$ H
  iintro H'
  iapply Hk
  iapply (Entails.of_eq e)
  iexact H'

end Rules3

/-! ## The staging buffer of the result: loaded whole, stored whole -/

abbrev r0 : Rect S1x1024 := Rect.unit (s := S1x1024) ![0, 0] S1x1024.size inb_S1x1024_S1x1024_0_0
theorem hz : (![0, 0] : Fin 2 → Nat) = fun _ => 0 := funext fun a => by fin_cases a <;> rfl
theorem write_out (f w : (cc0_stg0_0 : Ref sig .tc).ty.Contents (Elt F)) :
    ((oM : Memref sig .tc .vmem S1x1024 .f32).access r0 : View sig .tc _ _ _).write (Elt F) f w Finset.univ = w :=
  Memref.write_access_unit_zero_univ (Elt F) cc0_stg0_0 hz _ f w

section Rules4

variable (c : Dev nD)

/-- The cast the body applies to its partial sum before storing it changes nothing. -/
theorem pay5_eq (v : FVec F S1x1024 .f32) : k0_pay5 v = v := by
  unfold k0_pay5; exact shapeCast_self v _

/-- A load of row `j` at whatever it holds. -/
theorem step_load_row_any {α : Type} {Q : α → sProp 𝕄} (j : Dev nD) (q : PosShare TreeShare) (f : Buf (Elt F) ((rowM j).view.loc (c : Thread nD τ)))
    (o : Fin 2 → Nat) (ho : o = k0_off2 j) (inb : ∀ a, o a + S1x1024.size a ≤ S16x1024.size a)
    {hl : (cM : Memref sig .tc .vmem S16x1024 .f32).view.LoadsAt (Rect.unit (s := S16x1024) o S1x1024.size inb).toLoadRect}
    {kont : (Vec F S1x1024 .f32) → Prog (TpuEff nD τ sig (Elt F) Λ₀ .tc) α} :
    (rowPts c j q f : sProp 𝕄)
      ⊢ iprop((rowPts c j q f -∗ wp frame (wpE (defs₀ (F := F)) 𝒱₀ (c : Thread nD τ) none) Set.univ
              (kont ((cM : Memref sig .tc .vmem S16x1024 .f32).view.readAt (Elt F) (Rect.unit (s := S16x1024) o S1x1024.size inb).toLoadRect f)) Q)
          -∗ wp frame (wpE (defs₀ (F := F)) 𝒱₀ (c : Thread nD τ) none) Set.univ
              (.op (.load (cM : Memref sig .tc .vmem S16x1024 .f32) (Rect.unit (s := S16x1024) o S1x1024.size inb).toLoadRect hl) kont) Q) :=
  wp_load (defs := defs₀ (F := F)) (Γ := PendingWaitsCtx.empty) 𝒱₀ (c : Thread nD τ) none Set.univ (m := (cM : Memref sig .tc .vmem S16x1024 .f32)) (hl := hl) (k := kont) (Q := Q)
    (q := q) (f := f) (row_load_sub j o ho inb)

/-- The store of the partial sum, the stored value known to be `w`. -/
theorem step_store_row' {α : Type} {Q : α → sProp 𝕄} {kont : PUnit → Prog (TpuEff nD τ sig (Elt F) Λ₀ .tc) α}
    (f : Buf (Elt F) ((rowM c).view.loc (c : Thread nD τ))) (v w : Vec F S1x1024 .f32) (hvw : v = w) (o : Fin 2 → Nat) (ho : o = k0_off2 c) (inb : ∀ a, o a + S1x1024.size a ≤ S16x1024.size a)
    {hx : ((cM : Memref sig .tc .vmem S16x1024 .f32).access (Rect.unit (s := S16x1024) o S1x1024.size inb)).Stores Finset.univ}
    {hm : (Finset.univ : Finset (Rect.unit (s := S16x1024) o S1x1024.size inb).shape.Idx) = Finset.univ ∨ ∀ a, (Rect.unit (s := S16x1024) o S1x1024.size inb).stride a = 1} :
    (rowPts c c fullShare f : sProp 𝕄)
      ⊢ iprop((rowPts c c fullShare (rowBuf c c w) -∗ wp frame (wpE (defs₀ (F := F)) 𝒱₀ (c : Thread nD τ) none) Set.univ (kont ⟨⟩) Q)
          -∗ wp frame (wpE (defs₀ (F := F)) 𝒱₀ (c : Thread nD τ) none) Set.univ
              (.op (.store (cM : Memref sig .tc .vmem S16x1024 .f32) (Rect.unit (s := S16x1024) o S1x1024.size inb) v Finset.univ hx hm) kont) Q) := by
  subst hvw; exact step_store_row c f v o ho inb

end Rules4

/-! ## The waits on the device's own cells, at the program's spelling -/

theorem credit_chunk (k : Fin 8) : (chunkDst k).view.dmaCredit = NC := rfl
theorem credit_row (o : Fin 2 → Nat) (inb : ∀ a, o a + S1x1024.size a ≤ S16x1024.size a) (h : ∀ a, (Rect.unit (s := S16x1024) o S1x1024.size inb).stride a = 1) :
    ((cM : Memref sig .tc .vmem S16x1024 .f32).slice (Rect.unit (s := S16x1024) o S1x1024.size inb) h).view.dmaCredit = NR := rfl

theorem lv_bar_lt (c : Dev nD) : lv (barCell c) () < 2 := by dsimp only [lv]; decide
theorem lv_copy_lt (c : Dev nD) (k : Fin 8) : lv (copyCell c k) () < 2 := by dsimp only [lv]; rw [kind_copy]; exact Nat.zero_lt_two
theorem lv_send_lt (c : Dev nD) (i : Fin 15) : lv (sendCell c i) () < 2 := by dsimp only [lv]; rw [kind_send]; exact Nat.zero_lt_two

section Waits

variable (K : Dev nD × Fin 39 → ℕ) (c : Dev nD)

/-- The wait for chunk copy `k`, while row transfers are still owed. -/
theorem step_wait_copy {α : Type} {Q : α → sProp 𝕄} {kont : PUnit → Prog (TpuEff nD τ sig (Elt F) Λ₀ .tc) α}
    (k : Fin 8) (Sr : Finset (Fin 15)) (W : Waits sig Unit)
    {src : Memref sig .tc .hbm S512x1024 .f32} {hsrc : src.view.WordExact} {hdst : (chunkDst k).view.WordExact} :
    iprop(records m K ∗ levAts L lv ∗ cred (tallyAt (copyCell c k) () NC) ∗ owes (c : Thread nD τ) (owedOf c Sr ∅) W ∗ atPos ER (copyCell c k) 0 ∅ 0)
      ⊢ iprop(((owes (c : Thread nD τ) (owedOf c Sr ∅) (insert (.dma (copySem k), ()) W) ∗ atPos ER (copyCell c k) 1 ∅ 0 ∗ copyPay m c k)
            -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 (copySem k) src (chunkDst k) hsrc hdst) kont) Q) :=
  step_wait_gen m K c (.dma (copySem k)) _ (inv_copy m K c k) NC (expect_copy m c k) _ (rest_copy m c k) _
    (mayWait_owing_rows c _ (lv_copy_lt c k) Sr) W
    (fun Kk => by rw [wpE_waitDma2_eq, credit_chunk])

/-- The wait for the departure of the transfer at offset index `i`. -/
theorem step_wait_send {α : Type} {Q : α → sProp 𝕄} {kont : PUnit → Prog (TpuEff nD τ sig (Elt F) Λ₀ .tc) α}
    (i : Fin 15) (Sr : Finset (Fin 15)) (W : Waits sig Unit)
    (o : Fin 2 → Nat) (inb : ∀ a, o a + S1x1024.size a ≤ S16x1024.size a) (h : ∀ a, (Rect.unit (s := S16x1024) o S1x1024.size inb).stride a = 1)
    {src : Memref sig .tc .vmem S1x1024 .f32} {hsrc : src.view.WordExact}
    {hdst : ((cM : Memref sig .tc .vmem S16x1024 .f32).slice (Rect.unit (s := S16x1024) o S1x1024.size inb) h).view.WordExact} :
    iprop(records m K ∗ levAts L lv ∗ cred (tallyAt (sendCell c i) () NR) ∗ owes (c : Thread nD τ) (owedOf c Sr ∅) W ∗ atPos ER (sendCell c i) 0 ∅ 0)
      ⊢ iprop(((owes (c : Thread nD τ) (owedOf c Sr ∅) (insert (.dma (sendSem i), ()) W) ∗ atPos ER (sendCell c i) 1 ∅ 0 ∗ sendPay m c i)
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (sendSem i) src ((cM : Memref sig .tc .vmem S16x1024 .f32).slice (Rect.unit (s := S16x1024) o S1x1024.size inb) h) hsrc hdst) kont) Q) :=
  step_wait_gen m K c (.dma (sendSem i)) _ (inv_send m K c i) NR (expect_send m c i) _ (rest_send m c i) _
    (mayWait_owing_rows c _ (lv_send_lt c i) Sr) W
    (fun Kk => by rw [wpE_waitDma2_eq, credit_row])

/-- The wait for the row of the device `off i` places before, nothing owed any more. -/
theorem step_wait_recv {α : Type} {Q : α → sProp 𝕄} {kont : PUnit → Prog (TpuEff nD τ sig (Elt F) Λ₀ .tc) α}
    (i : Fin 15) (W : Waits sig Unit)
    (o : Fin 2 → Nat) (inb : ∀ a, o a + S1x1024.size a ≤ S16x1024.size a) (h : ∀ a, (Rect.unit (s := S16x1024) o S1x1024.size inb).stride a = 1)
    {src : Memref sig .tc .vmem S1x1024 .f32} {hsrc : src.view.WordExact}
    {hdst : ((cM : Memref sig .tc .vmem S16x1024 .f32).slice (Rect.unit (s := S16x1024) o S1x1024.size inb) h).view.WordExact} :
    iprop(records m K ∗ levAts L lv ∗ cred (tallyAt (recvCell c i) () NR) ∗ owes (c : Thread nD τ) (owedOf c ∅ ∅) W ∗ atPos ER (recvCell c i) 0 ∅ 0)
      ⊢ iprop(((owes (c : Thread nD τ) (owedOf c ∅ ∅) (insert (.dma (recvSem i), ()) W) ∗ atPos ER (recvCell c i) 1 ∅ 0 ∗ recvPay m c i)
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (recvSem i) src ((cM : Memref sig .tc .vmem S16x1024 .f32).slice (Rect.unit (s := S16x1024) o S1x1024.size inb) h) hsrc hdst) kont) Q) :=
  step_wait_gen m K c (.dma (recvSem i)) _ (inv_recv m K c i) NR (expect_recv m c i) _ (rest_recv m c i) _
    (mayWait_nothing c _) W
    (fun Kk => by rw [wpE_waitDma2_eq, credit_row])

/-- The wait for the fifteen handshake units, while row transfers are still owed. -/
theorem step_wait_bar {α : Type} {Q : α → sProp 𝕄} {kont : PUnit → Prog (TpuEff nD τ sig (Elt F) Λ₀ .tc) α}
    (Sr : Finset (Fin 15)) (W : Waits sig Unit) :
    iprop(records m K ∗ levAts L lv ∗ cred (tallyAt (barCell c) () 15) ∗ owes (c : Thread nD τ) (owedOf c Sr ∅) W ∗ atPos ER (barCell c) 0 ∅ 0)
      ⊢ iprop(((owes (c : Thread nD τ) (owedOf c Sr ∅) (insert (.reg barS, ()) W) ∗ atPos ER (barCell c) 1 ∅ 0 ∗ bigSep Finset.univ (fun i => barPay (F := F) c i))
            -∗ wp frame (wpE (defs₀ (F := F)) 𝒱₀ (c : Thread nD τ) none) Set.univ (kont ⟨⟩) Q)
          -∗ wp frame (wpE (defs₀ (F := F)) 𝒱₀ (c : Thread nD τ) none) Set.univ (.op (.semWait barS 15) kont) Q) :=
  step_wait_gen m K c (.reg barS) _ (inv_bar m K c) 15 (expect_bar m c) _ (rest_bar m c) _
    (mayWait_owing_rows c _ (lv_bar_lt c) Sr) W
    (fun Kk => wpE_semWait_eq 𝒱₀ (c : Thread nD τ) none Set.univ Kk)

end Waits

end Cert.KernelIdeal.P

end
-- ==== Proof.Finish.lean ====
/-
  The end of a device's body: its own cells, every duty landed and taken, close and give their counters back at zero;
  the lent shares of its own row, the fifteen received rows, the eight slabs and the eight source row ranges go
  back together into whole buffers.
-/
import proofs.«901088_g7700000000001089_dist_sum_ax0_shard0_i_m4096_n1024_v7x_i16_f32_1_alg».proof.Proof.Steps

noncomputable section

namespace Cert.KernelIdeal.P

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Closing the own cells: each stands at round 1 with nothing more scheduled -/

theorem close_copy (K : Dev nD × Fin 39 → ℕ) (c : Dev nD) :
    iprop(records m K ∗ bigSep Finset.univ fun k : Fin 8 => atPos ER (copyCell c k) 1 ∅ 0)
      ⊢ (|={Set.univ}=> bigSep Finset.univ fun k : Fin 8 => semVal (copyCell c k) 0 : sProp 𝕄) :=
  (bigSep_with_persistent (R := records m K) (Φ := fun k : Fin 8 => atPos ER (copyCell c k) 1 ∅ 0)
      (Ψ := fun k : Fin 8 => iprop(|={Set.univ}=> semVal (copyCell c k) 0)) fun k _ =>
    (sep_mono_left (inv_copy m K c k)).trans
      (Rounds.cell_close ER (sched m) (Set.mem_univ _) (fun h => h) (R := 1) (duties_later m _))).trans
    (bigSep_fupd _ _)
theorem close_send (K : Dev nD × Fin 39 → ℕ) (c : Dev nD) :
    iprop(records m K ∗ bigSep Finset.univ fun i : Fin 15 => atPos ER (sendCell c i) 1 ∅ 0)
      ⊢ (|={Set.univ}=> bigSep Finset.univ fun i : Fin 15 => semVal (sendCell c i) 0 : sProp 𝕄) :=
  (bigSep_with_persistent (R := records m K) (Φ := fun i : Fin 15 => atPos ER (sendCell c i) 1 ∅ 0)
      (Ψ := fun i : Fin 15 => iprop(|={Set.univ}=> semVal (sendCell c i) 0)) fun i _ =>
    (sep_mono_left (inv_send m K c i)).trans
      (Rounds.cell_close ER (sched m) (Set.mem_univ _) (fun h => h) (R := 1) (duties_later m _))).trans
    (bigSep_fupd _ _)
theorem close_recv (K : Dev nD × Fin 39 → ℕ) (c : Dev nD) :
    iprop(records m K ∗ bigSep Finset.univ fun i : Fin 15 => atPos ER (recvCell c i) 1 ∅ 0)
      ⊢ (|={Set.univ}=> bigSep Finset.univ fun i : Fin 15 => semVal (recvCell c i) 0 : sProp 𝕄) :=
  (bigSep_with_persistent (R := records m K) (Φ := fun i : Fin 15 => atPos ER (recvCell c i) 1 ∅ 0)
      (Ψ := fun i : Fin 15 => iprop(|={Set.univ}=> semVal (recvCell c i) 0)) fun i _ =>
    (sep_mono_left (inv_recv m K c i)).trans
      (Rounds.cell_close ER (sched m) (Set.mem_univ _) (fun h => h) (R := 1) (duties_later m _))).trans
    (bigSep_fupd _ _)

/-! ## The buffers whole again -/

/-- The fifteen lent shares of the device's own row make the row at the full share. -/
theorem own_row_home (c : Dev nD) :
    (bigSep Finset.univ fun i : Fin 15 => sendPay m c i : sProp 𝕄) ⊢ rowPts c c fullShare (rowBuf c c (part m c)) :=
  (shares_split c c (rowBuf c c (part m c))).2
/-- A received row is that peer's row at some contents. -/
private theorem recv_row (c : Dev nD) (i : Fin 15) :
    (recvPay m c i : sProp 𝕄) ⊢ iprop(∃ g, rowPts c (peer c i.rev) fullShare g) := by
  unfold recvPay; iintro H; iexists _; iexact H

/-- A landed chunk copy's slab is that slab at some contents. -/
private theorem slab_some (c : Dev nD) (k : Fin 8) :
    ((chunkDst k).view.loc (c : Thread nD τ) ↦[(chunkDst k).view.set]{fullShare} chunkBuf m c k : sProp 𝕄)
      ⊢ iprop(∃ g, (chunkDst k).view.loc (c : Thread nD τ) ↦[(chunkDst k).view.set]{fullShare} g) := by
  iintro H; iexists _; iexact H

/-- Its own row and the fifteen received rows make the exchange buffer whole, at some contents. -/
theorem rows_home (c : Dev nD) (f : Buf (Elt F) ((rowM c).view.loc (c : Thread nD τ))) :
    iprop(rowPts c c fullShare f ∗ bigSep Finset.univ fun i : Fin 15 => recvPay m c i)
      ⊢ iprop(∃ f : Buf (Elt F) ((c : Thread nD τ).loc cc0_scratch1), ((c : Thread nD τ).loc cc0_scratch1) ↦{fullShare} f) := by
  have h1 : (rowPts c c fullShare f : sProp 𝕄) ⊢ iprop(∃ g, rowPts c c fullShare g) := by
    iintro H; iexists f; iexact H
  have h2 : (bigSep Finset.univ fun i : Fin 15 => recvPay m c i : sProp 𝕄)
      ⊢ bigSep Finset.univ fun i : Fin 15 => (iprop(∃ g, rowPts c (peer c i.rev) fullShare g) : sProp 𝕄) :=
    bigSep_mono fun i _ => recv_row m c i
  have h3 := (dev_split_rev c fun j : Dev nD => (iprop(∃ g, rowPts c j fullShare g) : sProp 𝕄)).2
  exact (BIClass.sep_mono h1 h2).trans (h3.trans (rows_join c))
/-- The eight landed chunk copies make the chunk scratch whole, at some contents, and the block in HBM whole, unchanged. -/
theorem slabs_home (c : Dev nD) :
    (bigSep Finset.univ fun k : Fin 8 => copyPay m c k : sProp 𝕄)
      ⊢ iprop((∃ f : Buf (Elt F) ((c : Thread nD τ).loc cc0_scratch0), ((c : Thread nD τ).loc cc0_scratch0) ↦{fullShare} f)
          ∗ (((c : Thread nD τ).loc main_arg0) ↦{fullShare} m ((c : Thread nD τ).loc main_arg0))) := by
  have h0 : (bigSep Finset.univ fun k : Fin 8 => copyPay m c k : sProp 𝕄)
      = iprop((bigSep Finset.univ fun k : Fin 8 => ((chunkDst k).view.loc (c : Thread nD τ) ↦[(chunkDst k).view.set]{fullShare} chunkBuf m c k))
          ∗ (bigSep Finset.univ fun k : Fin 8 => ((chunkSrc k).view.loc (c : Thread nD τ) ↦[(chunkSrc k).view.set]{fullShare} xBuf m c k))) :=
    bigSep_sep' Finset.univ _ _
  have h1 : (bigSep Finset.univ fun k : Fin 8 => ((chunkDst k).view.loc (c : Thread nD τ) ↦[(chunkDst k).view.set]{fullShare} chunkBuf m c k) : sProp 𝕄)
      ⊢ bigSep Finset.univ fun k : Fin 8 => (iprop(∃ g, (chunkDst k).view.loc (c : Thread nD τ) ↦[(chunkDst k).view.set]{fullShare} g) : sProp 𝕄) :=
    bigSep_mono fun k _ => slab_some m c k
  rw [h0]
  exact BIClass.sep_mono (h1.trans (slabs_join c)) (xrows_split m c).2

end Cert.KernelIdeal.P

end
-- ==== Proof.Body.lean ====
/-
  One device's body, from its invariant before the point to its invariant after it. In program order: the eight chunk
  copies are started; the fifteen peers are signalled on the barrier semaphore, each signal handing that peer this
  device's exchange-buffer row for it; each chunk's copy is awaited and its slab loaded, the column sums added up:
  the device's partial sum; it is stored in the device's own row; the fifteen handshake units are awaited, which
  brings every peer's row for this device; the own row is sent to each peer, a fifteenth share of it lent to each
  transfer; the departures are awaited, the shares come back; each peer's row is awaited and loaded and added to the
  running sum; the sum is stored in the result block. Then the own cells close and the buffers are whole again.
-/
import proofs.«901088_g7700000000001089_dist_sum_ax0_shard0_i_m4096_n1024_v7x_i16_f32_1_alg».proof.Proof.Finish

noncomputable section

namespace Cert.KernelIdeal.P

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.Tactic
local notation "𝕄" => MT nD τ sig Unit (Elt F) ℕ UU ℕ

variable (m : (ℓ : Loc nD τ sig) → Buf (Elt F) ℓ)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem owed_bar_done (c : Dev nD) (Sr : Finset (Fin 15)) : owedOf c Sr (barSet ((14 : Fin 15).val + 1)) = owedOf c Sr ∅ := by
  rw [show ((14 : Fin 15).val + 1) = 15 from rfl, barSet_done]
theorem owed_send_done (c : Dev nD) : owedOf c (sendSet (posOf 3 + 1)) ∅ = owedOf c (sendSet 15) ∅ := by
  rw [show posOf 3 + 1 = 15 from rfl]

set_option hygiene false in
/-- The copy of chunk `k`: the source rows, the slab and the copy's token go in, the copy's credit comes out. -/
macro "copy_step" k:term:max fd:ident hx:ident hs:ident ht:ident hc:ident : tactic => `(tactic| (
  iapply (step_copy m K c $k $fd) $$ [$hx:ident $hs:ident $ht:ident]
  · isplitr
    · iexact Hrec
    isplitl [$hx:ident]
    · iexact $hx
    isplitl [$hs:ident]
    · iexact $hs
    iexact $ht
  iintro $hc:ident))

set_option hygiene false in
/-- The handshake signal to the peer at offset index `j`: its token and the device's row for that peer go with it. -/
macro "sig_step" j:term:max hdev:ident fr:ident ht:ident hrow:ident : tactic => `(tactic| (
  iapply (step_signal' m K c $j _ _ ($hdev c) _ $fr) $$ [HO $ht:ident $hrow:ident]
  · isplitr
    · iexact Hrec
    isplitl [HO]
    · iexact HO
    isplitl [$ht:ident]
    · iexact $ht
    iexact $hrow
  iintro HO))

set_option hygiene false in
/-- The wait for chunk copy `k`: the slab holding the chunk and the source rows come back. -/
macro "cwait_step" k:term:max hc:ident ha:ident hsl:ident hxr:ident : tactic => `(tactic| (
  iapply (step_wait_copy m K c $k _ _) $$ [$hc:ident HO $ha:ident]
  · isplitr
    · iexact Hrec
    isplitr
    · iexact Hlev
    isplitl [$hc:ident]
    · iexact $hc
    isplitl [HO]
    · iexact HO
    iexact $ha
  iintro ⟨HO, $ha:ident, Hpay⟩
  unfold copyPay
  icases Hpay with ⟨$hsl:ident, $hxr:ident⟩
  iapply (step_load_chunk m c $k _) $$ $hsl:ident
  iintro $hsl:ident))

set_option hygiene false in
/-- The transfer of the device's own row to the peer at offset index `i`. -/
macro "send_step" i:term:max hdev:ident fd:ident hsh:ident hd:ident hts:ident htr:ident hcs:ident : tactic => `(tactic| (
  iapply (step_send' m K c $i _ ($hdev c) _ $fd) $$ [$hsh:ident $hd:ident HO $hts:ident $htr:ident]
  · isplitr
    · iexact Hrec
    isplitl [$hsh:ident]
    · iexact $hsh
    isplitl [$hd:ident]
    · iexact $hd
    isplitl [HO]
    · iexact HO
    isplitl [$hts:ident]
    · iexact $hts
    iexact $htr
  iintro ⟨$hcs:ident, HO⟩))

set_option hygiene false in
/-- The wait for the departure of the transfer at offset index `i`: the lent share of the own row comes back. -/
macro "swait_step" i:term:max hc:ident ha:ident hpay:ident : tactic => `(tactic| (
  iapply (step_wait_send m K c $i _ _ _ _ _) $$ [$hc:ident HO $ha:ident]
  · isplitr
    · iexact Hrec
    isplitr
    · iexact Hlev
    isplitl [$hc:ident]
    · iexact $hc
    isplitl [HO]
    · iexact HO
    iexact $ha
  iintro ⟨HO, $ha:ident, $hpay:ident⟩))

set_option hygiene false in
/-- The wait for the row of the device `off i` places before, and the load of that row: its partial sum. -/
macro "rwait_step" i:term:max hc:ident ha:ident hpay:ident : tactic => `(tactic| (
  iapply (step_wait_recv m K c $i _ _ _ _) $$ [$hc:ident HO $ha:ident]
  · isplitr
    · iexact Hrec
    isplitr
    · iexact Hlev
    isplitl [$hc:ident]
    · iexact $hc
    isplitl [HO]
    · iexact HO
    iexact $ha
  iintro ⟨HO, $ha:ident, $hpay:ident⟩
  unfold recvPay
  iapply (step_load_row c (peer c (Fin.rev $i)) fullShare (part m (peer c (Fin.rev $i))) _ (off4_eq c $i) _) $$ $hpay:ident
  iintro $hpay:ident))

set_option maxHeartbeats 16000000 in
theorem body_obligation (c : Dev nD) : BodyObligation (dats (F := F) m 0 c) (defs₀ (F := F)) 𝒱₀ () Set.univ := fun t => by
  rw [fin_N t]
  rw [bigSep_W0, bigSep_W0]
  simp only [owns_whole_eq]
  show iprop(Φ₀ m c ∗ (dats m 0 c).owesAt () t₀.castSucc ∗ ∃ d f, ⌜f = (dats m 0 c).before 0 t₀ d⌝ ∗ c.tc.loc cc0_stg0_0 ↦{fullShare} f) ⊢
    wp frame (wpE (defs₀ (F := F)) 𝒱₀ c.tc none) Set.univ
      (cc0_body (Memref.whole main_arg0) (Memref.isWhole_whole _) (Memref.whole cc0_stg0_0) (Memref.isWhole_whole _) (Memref.whole cc0_scratch0) (Memref.isWhole_whole _) (Memref.whole cc0_scratch1) (Memref.isWhole_whole _) cc0_scratch2 cc0_scratch3 cc0_scratch4) _
  unfold Φ₀ start
  iintro ⟨⟨⟨⟨%K, Hg⟩, HcB, HcR, #Hlev⟩, ⟨%fb, Hb⟩, ⟨%fc, Hc⟩, Hx⟩, Ho, ⟨%d, %g0, %hg0, Hout⟩⟩
  unfold Dat.owesAt Pipeline.owesWithin
  icases Ho with ⟨%W, %hW, HO⟩
  rw [show (dats m 0 c).owed t₀.castSucc = O₀ c from rfl]
  unfold ghost positions payToks
  icases Hg with ⟨#Hrec, ⟨HaB, HaC, HaS, HaR⟩, ⟨HtB, HtC, HtS, HtR⟩⟩
  -- the families, member by member
  ihave HaC' := (Entails.of_eq (bigSep_fin8 _)) $$ HaC
  icases HaC' with ⟨HaC0, HaC1, HaC2, HaC3, HaC4, HaC5, HaC6, HaC7⟩
  ihave HaS' := (Entails.of_eq (bigSep_fin15 _)) $$ HaS
  icases HaS' with ⟨HaS0, HaS1, HaS2, HaS3, HaS4, HaS5, HaS6, HaS7, HaS8, HaS9, HaS10, HaS11, HaS12, HaS13, HaS14⟩
  ihave HaR' := (Entails.of_eq (bigSep_fin15 _)) $$ HaR
  icases HaR' with ⟨HaR0, HaR1, HaR2, HaR3, HaR4, HaR5, HaR6, HaR7, HaR8, HaR9, HaR10, HaR11, HaR12, HaR13, HaR14⟩
  ihave HtB' := (Entails.of_eq (bigSep_fin15 _)) $$ HtB
  icases HtB' with ⟨HtB0, HtB1, HtB2, HtB3, HtB4, HtB5, HtB6, HtB7, HtB8, HtB9, HtB10, HtB11, HtB12, HtB13, HtB14⟩
  ihave HtC' := (Entails.of_eq (bigSep_fin8 _)) $$ HtC
  icases HtC' with ⟨HtC0, HtC1, HtC2, HtC3, HtC4, HtC5, HtC6, HtC7⟩
  ihave HtS' := (Entails.of_eq (bigSep_fin15 _)) $$ HtS
  icases HtS' with ⟨HtS0, HtS1, HtS2, HtS3, HtS4, HtS5, HtS6, HtS7, HtS8, HtS9, HtS10, HtS11, HtS12, HtS13, HtS14⟩
  ihave HtR' := (Entails.of_eq (bigSep_fin15 _)) $$ HtR
  icases HtR' with ⟨HtR0, HtR1, HtR2, HtR3, HtR4, HtR5, HtR6, HtR7, HtR8, HtR9, HtR10, HtR11, HtR12, HtR13, HtR14⟩
  ihave HcR' := (Entails.of_eq (bigSep_fin15 _)) $$ HcR
  icases HcR' with ⟨HcR0, HcR1, HcR2, HcR3, HcR4, HcR5, HcR6, HcR7, HcR8, HcR9, HcR10, HcR11, HcR12, HcR13, HcR14⟩
  -- the exchange buffer by rows: the device's own, and one for each peer
  ihave Hrows := (rows_split (F := F) c) $$ [Hc]
  · iexists fc; iexact Hc
  ihave Hrows' := (dev_split c (fun j => iprop(∃ f, rowPts (F := F) c j fullShare f))).1 $$ Hrows
  icases Hrows' with ⟨⟨%fown, Hown⟩, Hpeers⟩
  ihave Hpeers' := (Entails.of_eq (bigSep_fin15 _)) $$ Hpeers
  icases Hpeers' with ⟨⟨%fr0, Hrow0⟩, ⟨%fr1, Hrow1⟩, ⟨%fr2, Hrow2⟩, ⟨%fr3, Hrow3⟩, ⟨%fr4, Hrow4⟩, ⟨%fr5, Hrow5⟩, ⟨%fr6, Hrow6⟩, ⟨%fr7, Hrow7⟩, ⟨%fr8, Hrow8⟩, ⟨%fr9, Hrow9⟩, ⟨%fr10, Hrow10⟩, ⟨%fr11, Hrow11⟩, ⟨%fr12, Hrow12⟩, ⟨%fr13, Hrow13⟩, ⟨%fr14, Hrow14⟩⟩
  -- the chunk scratch by slabs, the block by row ranges
  ihave Hslabs := (slabs_split (F := F) c) $$ [Hb]
  · iexists fb; iexact Hb
  ihave Hslabs' := (Entails.of_eq (bigSep_fin8 _)) $$ Hslabs
  icases Hslabs' with ⟨⟨%fs0, Hsl0⟩, ⟨%fs1, Hsl1⟩, ⟨%fs2, Hsl2⟩, ⟨%fs3, Hsl3⟩, ⟨%fs4, Hsl4⟩, ⟨%fs5, Hsl5⟩, ⟨%fs6, Hsl6⟩, ⟨%fs7, Hsl7⟩⟩
  ihave Hxr := (xrows_split m c).1 $$ Hx
  ihave Hxr' := (Entails.of_eq (bigSep_fin8 _)) $$ Hxr
  icases Hxr' with ⟨Hxr0, Hxr1, Hxr2, Hxr3, Hxr4, Hxr5, Hxr6, Hxr7⟩
  rw [O₀_eq]
  rw [cc0_body_eq_skeleton]; unfold cc0_body_skel
  rw [k0_part1_eq_skeleton]; unfold k0_part1_skel
  simp only [semSignalWord, semWaitWord, Prog.lift, Prog.bind_op, Prog.bind_ret, Prog.pure_eq_ret, wp_deviceId]
  copy_step 0 fs0 Hxr0 Hsl0 HtC0 HcC0
  copy_step 1 fs1 Hxr1 Hsl1 HtC1 HcC1
  copy_step 2 fs2 Hxr2 Hsl2 HtC2 HcC2
  copy_step 3 fs3 Hxr3 Hsl3 HtC3 HcC3
  rw [k0_part2_eq_skeleton]; unfold k0_part2_skel
  simp only [semSignalWord, semWaitWord, Prog.lift, Prog.bind_op, Prog.bind_ret, Prog.pure_eq_ret, wp_deviceId]
  copy_step 4 fs4 Hxr4 Hsl4 HtC4 HcC4
  copy_step 5 fs5 Hxr5 Hsl5 HtC5 HcC5
  copy_step 6 fs6 Hxr6 Hsl6 HtC6 HcC6
  copy_step 7 fs7 Hxr7 Hsl7 HtC7 HcC7
  sig_step 0 dev1_eq fr0 HtB0 Hrow0
  rw [k0_part3_eq_skeleton]; unfold k0_part3_skel
  simp only [semSignalWord, semWaitWord, Prog.lift, Prog.bind_op, Prog.bind_ret, Prog.pure_eq_ret, wp_deviceId]
  sig_step 1 dev2_eq fr1 HtB1 Hrow1
  sig_step 2 dev3_eq fr2 HtB2 Hrow2
  sig_step 3 dev4_eq fr3 HtB3 Hrow3
  sig_step 4 dev5_eq fr4 HtB4 Hrow4
  sig_step 5 dev6_eq fr5 HtB5 Hrow5
  sig_step 6 dev7_eq fr6 HtB6 Hrow6
  rw [k0_part4_eq_skeleton]; unfold k0_part4_skel
  simp only [semSignalWord, semWaitWord, Prog.lift, Prog.bind_op, Prog.bind_ret, Prog.pure_eq_ret, wp_deviceId]
  sig_step 7 dev8_eq fr7 HtB7 Hrow7
  sig_step 8 dev9_eq fr8 HtB8 Hrow8
  sig_step 9 dev10_eq fr9 HtB9 Hrow9
  sig_step 10 dev11_eq fr10 HtB10 Hrow10
  sig_step 11 dev12_eq fr11 HtB11 Hrow11
  sig_step 12 dev13_eq fr12 HtB12 Hrow12
  rw [k0_part5_eq_skeleton]; unfold k0_part5_skel
  simp only [semSignalWord, semWaitWord, Prog.lift, Prog.bind_op, Prog.bind_ret, Prog.pure_eq_ret, wp_deviceId]
  sig_step 13 dev14_eq fr13 HtB13 Hrow13
  sig_step 14 dev15_eq fr14 HtB14 Hrow14
  rw [owed_bar_done]
  cwait_step 0 HcC0 HaC0 Hsl0 Hxr0
  cwait_step 1 HcC1 HaC1 Hsl1 Hxr1
  rw [k0_part6_eq_skeleton]; unfold k0_part6_skel
  simp only [semSignalWord, semWaitWord, Prog.lift, Prog.bind_op, Prog.bind_ret, Prog.pure_eq_ret, wp_deviceId]
  cwait_step 2 HcC2 HaC2 Hsl2 Hxr2
  cwait_step 3 HcC3 HaC3 Hsl3 Hxr3
  cwait_step 4 HcC4 HaC4 Hsl4 Hxr4
  rw [k0_part7_eq_skeleton]; unfold k0_part7_skel
  simp only [semSignalWord, semWaitWord, Prog.lift, Prog.bind_op, Prog.bind_ret, Prog.pure_eq_ret, wp_deviceId]
  cwait_step 5 HcC5 HaC5 Hsl5 Hxr5
  cwait_step 6 HcC6 HaC6 Hsl6 Hxr6
  cwait_step 7 HcC7 HaC7 Hsl7 Hxr7
  rw [k0_part8_eq_skeleton]; unfold k0_part8_skel
  simp only [semSignalWord, semWaitWord, Prog.lift, Prog.bind_op, Prog.bind_ret, Prog.pure_eq_ret, wp_deviceId]
  iapply (step_load_row_any c c fullShare fown _ (off1_eq c) _) $$ Hown
  iintro Hown
  iapply (step_store_row' c fown _ (part m c) (pay5_eq _) _ (off1_eq c) _) $$ Hown
  iintro Hown
  ihave Hsh := (shares_split c c _).1 $$ Hown
  ihave Hsh' := (Entails.of_eq (bigSep_fin15 _)) $$ Hsh
  icases Hsh' with ⟨Hsh0, Hsh1, Hsh2, Hsh3, Hsh4, Hsh5, Hsh6, Hsh7, Hsh8, Hsh9, Hsh10, Hsh11, Hsh12, Hsh13, Hsh14⟩
  iapply (step_wait_bar m K c _ _) $$ [HcB HO HaB]
  · isplitr
    · iexact Hrec
    isplitr
    · iexact Hlev
    isplitl [HcB]
    · iexact HcB
    isplitl [HO]
    · iexact HO
    iexact HaB
  iintro ⟨HO, HaB, Hbar⟩
  ihave Hbar' := (Entails.of_eq (bigSep_fin15 _)) $$ Hbar
  unfold barPay
  icases Hbar' with ⟨⟨⟨%fd0, Hd0⟩, -⟩, ⟨⟨%fd1, Hd1⟩, -⟩, ⟨⟨%fd2, Hd2⟩, -⟩, ⟨⟨%fd3, Hd3⟩, -⟩, ⟨⟨%fd4, Hd4⟩, -⟩, ⟨⟨%fd5, Hd5⟩, -⟩, ⟨⟨%fd6, Hd6⟩, -⟩, ⟨⟨%fd7, Hd7⟩, -⟩, ⟨⟨%fd8, Hd8⟩, -⟩, ⟨⟨%fd9, Hd9⟩, -⟩, ⟨⟨%fd10, Hd10⟩, -⟩, ⟨⟨%fd11, Hd11⟩, -⟩, ⟨⟨%fd12, Hd12⟩, -⟩, ⟨⟨%fd13, Hd13⟩, -⟩, ⟨⟨%fd14, Hd14⟩, -⟩⟩
  send_step 13 dev16_eq fd13 Hsh13 Hd13 HtS13 HtR13 HcS13
  send_step 12 dev17_eq fd12 Hsh12 Hd12 HtS12 HtR12 HcS12
  rw [k0_part9_eq_skeleton]; unfold k0_part9_skel
  simp only [semSignalWord, semWaitWord, Prog.lift, Prog.bind_op, Prog.bind_ret, Prog.pure_eq_ret, wp_deviceId]
  send_step 14 dev18_eq fd14 Hsh14 Hd14 HtS14 HtR14 HcS14
  send_step 9 dev19_eq fd9 Hsh9 Hd9 HtS9 HtR9 HcS9
  send_step 8 dev20_eq fd8 Hsh8 Hd8 HtS8 HtR8 HcS8
  rw [k0_part10_eq_skeleton]; unfold k0_part10_skel
  simp only [semSignalWord, semWaitWord, Prog.lift, Prog.bind_op, Prog.bind_ret, Prog.pure_eq_ret, wp_deviceId]
  send_step 10 dev21_eq fd10 Hsh10 Hd10 HtS10 HtR10 HcS10
  send_step 11 dev22_eq fd11 Hsh11 Hd11 HtS11 HtR11 HcS11
  send_step 5 dev23_eq fd5 Hsh5 Hd5 HtS5 HtR5 HcS5
  send_step 7 dev24_eq fd7 Hsh7 Hd7 HtS7 HtR7 HcS7
  rw [k0_part11_eq_skeleton]; unfold k0_part11_skel
  simp only [semSignalWord, semWaitWord, Prog.lift, Prog.bind_op, Prog.bind_ret, Prog.pure_eq_ret, wp_deviceId]
  send_step 1 dev25_eq fd1 Hsh1 Hd1 HtS1 HtR1 HcS1
  send_step 4 dev26_eq fd4 Hsh4 Hd4 HtS4 HtR4 HcS4
  send_step 6 dev27_eq fd6 Hsh6 Hd6 HtS6 HtR6 HcS6
  rw [k0_part12_eq_skeleton]; unfold k0_part12_skel
  simp only [semSignalWord, semWaitWord, Prog.lift, Prog.bind_op, Prog.bind_ret, Prog.pure_eq_ret, wp_deviceId]
  send_step 0 dev28_eq fd0 Hsh0 Hd0 HtS0 HtR0 HcS0
  send_step 2 dev29_eq fd2 Hsh2 Hd2 HtS2 HtR2 HcS2
  send_step 3 dev30_eq fd3 Hsh3 Hd3 HtS3 HtR3 HcS3
  rw [owed_send_done]
  rw [k0_part13_eq_skeleton]; unfold k0_part13_skel
  simp only [semSignalWord, semWaitWord, Prog.lift, Prog.bind_op, Prog.bind_ret, Prog.pure_eq_ret, wp_deviceId]
  swait_step 13 HcS13 HaS13 Hsp13
  swait_step 12 HcS12 HaS12 Hsp12
  swait_step 14 HcS14 HaS14 Hsp14
  swait_step 9 HcS9 HaS9 Hsp9
  swait_step 8 HcS8 HaS8 Hsp8
  swait_step 10 HcS10 HaS10 Hsp10
  rw [k0_part14_eq_skeleton]; unfold k0_part14_skel
  simp only [semSignalWord, semWaitWord, Prog.lift, Prog.bind_op, Prog.bind_ret, Prog.pure_eq_ret, wp_deviceId]
  swait_step 11 HcS11 HaS11 Hsp11
  swait_step 5 HcS5 HaS5 Hsp5
  swait_step 7 HcS7 HaS7 Hsp7
  swait_step 1 HcS1 HaS1 Hsp1
  swait_step 4 HcS4 HaS4 Hsp4
  swait_step 6 HcS6 HaS6 Hsp6
  rw [k0_part15_eq_skeleton]; unfold k0_part15_skel
  simp only [semSignalWord, semWaitWord, Prog.lift, Prog.bind_op, Prog.bind_ret, Prog.pure_eq_ret, wp_deviceId]
  swait_step 0 HcS0 HaS0 Hsp0
  swait_step 2 HcS2 HaS2 Hsp2
  swait_step 3 HcS3 HaS3 Hsp3
  rw [sendSet_done]
  rwait_step 3 HcR3 HaR3 Hrp3
  rw [k0_part16_eq_skeleton]; unfold k0_part16_skel
  simp only [semSignalWord, semWaitWord, Prog.lift, Prog.bind_op, Prog.bind_ret, Prog.pure_eq_ret, wp_deviceId]
  rwait_step 2 HcR2 HaR2 Hrp2
  rwait_step 0 HcR0 HaR0 Hrp0
  rwait_step 6 HcR6 HaR6 Hrp6
  rw [k0_part17_eq_skeleton]; unfold k0_part17_skel
  simp only [semSignalWord, semWaitWord, Prog.lift, Prog.bind_op, Prog.bind_ret, Prog.pure_eq_ret, wp_deviceId]
  rwait_step 4 HcR4 HaR4 Hrp4
  rwait_step 1 HcR1 HaR1 Hrp1
  rw [k0_part18_eq_skeleton]; unfold k0_part18_skel
  simp only [semSignalWord, semWaitWord, Prog.lift, Prog.bind_op, Prog.bind_ret, Prog.pure_eq_ret, wp_deviceId]
  rwait_step 7 HcR7 HaR7 Hrp7
  rwait_step 5 HcR5 HaR5 Hrp5
  rwait_step 11 HcR11 HaR11 Hrp11
  rw [k0_part19_eq_skeleton]; unfold k0_part19_skel
  simp only [semSignalWord, semWaitWord, Prog.lift, Prog.bind_op, Prog.bind_ret, Prog.pure_eq_ret, wp_deviceId]
  rwait_step 10 HcR10 HaR10 Hrp10
  rwait_step 8 HcR8 HaR8 Hrp8
  rwait_step 9 HcR9 HaR9 Hrp9
  rw [k0_part20_eq_skeleton]; unfold k0_part20_skel
  simp only [semSignalWord, semWaitWord, Prog.lift, Prog.bind_op, Prog.bind_ret, Prog.pure_eq_ret, wp_deviceId]
  rwait_step 14 HcR14 HaR14 Hrp14
  rwait_step 12 HcR12 HaR12 Hrp12
  rwait_step 13 HcR13 HaR13 Hrp13
  -- every own cell stands at round 1 with nothing more scheduled: they close, their counters back at zero
  imod (close_copy m K c) $$ [HaC0 HaC1 HaC2 HaC3 HaC4 HaC5 HaC6 HaC7] with HzC
  · isplitr
    · iexact Hrec
    rw [bigSep_fin8]
    isplitl [HaC0]
    · iexact HaC0
    isplitl [HaC1]
    · iexact HaC1
    isplitl [HaC2]
    · iexact HaC2
    isplitl [HaC3]
    · iexact HaC3
    isplitl [HaC4]
    · iexact HaC4
    isplitl [HaC5]
    · iexact HaC5
    isplitl [HaC6]
    · iexact HaC6
    iexact HaC7
  imod (close_send m K c) $$ [HaS0 HaS1 HaS2 HaS3 HaS4 HaS5 HaS6 HaS7 HaS8 HaS9 HaS10 HaS11 HaS12 HaS13 HaS14] with HzS
  · isplitr
    · iexact Hrec
    rw [bigSep_fin15]
    isplitl [HaS0]
    · iexact HaS0
    isplitl [HaS1]
    · iexact HaS1
    isplitl [HaS2]
    · iexact HaS2
    isplitl [HaS3]
    · iexact HaS3
    isplitl [HaS4]
    · iexact HaS4
    isplitl [HaS5]
    · iexact HaS5
    isplitl [HaS6]
    · iexact HaS6
    isplitl [HaS7]
    · iexact HaS7
    isplitl [HaS8]
    · iexact HaS8
    isplitl [HaS9]
    · iexact HaS9
    isplitl [HaS10]
    · iexact HaS10
    isplitl [HaS11]
    · iexact HaS11
    isplitl [HaS12]
    · iexact HaS12
    isplitl [HaS13]
    · iexact HaS13
    iexact HaS14
  imod (close_recv m K c) $$ [HaR0 HaR1 HaR2 HaR3 HaR4 HaR5 HaR6 HaR7 HaR8 HaR9 HaR10 HaR11 HaR12 HaR13 HaR14] with HzR
  · isplitr
    · iexact Hrec
    rw [bigSep_fin15]
    isplitl [HaR0]
    · iexact HaR0
    isplitl [HaR1]
    · iexact HaR1
    isplitl [HaR2]
    · iexact HaR2
    isplitl [HaR3]
    · iexact HaR3
    isplitl [HaR4]
    · iexact HaR4
    isplitl [HaR5]
    · iexact HaR5
    isplitl [HaR6]
    · iexact HaR6
    isplitl [HaR7]
    · iexact HaR7
    isplitl [HaR8]
    · iexact HaR8
    isplitl [HaR9]
    · iexact HaR9
    isplitl [HaR10]
    · iexact HaR10
    isplitl [HaR11]
    · iexact HaR11
    isplitl [HaR12]
    · iexact HaR12
    isplitl [HaR13]
    · iexact HaR13
    iexact HaR14
  -- the result block: loaded whole (the value is not used), stored whole
  iapply (wp_load (defs := defs₀ (F := F)) (Γ := PendingWaitsCtx.empty) 𝒱₀ (c : Thread nD τ) none Set.univ (m := (oM : Memref sig .tc .vmem S1x1024 .f32)) (Finset.subset_univ _)) $$ Hout
  iintro Hout
  iapply (wp_store (defs := defs₀ (F := F)) (Γ := PendingWaitsCtx.empty) 𝒱₀ (c : Thread nD τ) none Set.univ (m := (oM : Memref sig .tc .vmem S1x1024 .f32)) (r := r0) (Mk := Finset.univ) (Finset.subset_univ _)) $$ Hout
  iintro Hout
  rw [write_out, wp_ret]; imodintro
  rw [owed_empty]
  -- the buffers whole again
  ihave Hown := (own_row_home m c) $$ [Hsp0 Hsp1 Hsp2 Hsp3 Hsp4 Hsp5 Hsp6 Hsp7 Hsp8 Hsp9 Hsp10 Hsp11 Hsp12 Hsp13 Hsp14]
  · rw [bigSep_fin15]
    isplitl [Hsp0]
    · iexact Hsp0
    isplitl [Hsp1]
    · iexact Hsp1
    isplitl [Hsp2]
    · iexact Hsp2
    isplitl [Hsp3]
    · iexact Hsp3
    isplitl [Hsp4]
    · iexact Hsp4
    isplitl [Hsp5]
    · iexact Hsp5
    isplitl [Hsp6]
    · iexact Hsp6
    isplitl [Hsp7]
    · iexact Hsp7
    isplitl [Hsp8]
    · iexact Hsp8
    isplitl [Hsp9]
    · iexact Hsp9
    isplitl [Hsp10]
    · iexact Hsp10
    isplitl [Hsp11]
    · iexact Hsp11
    isplitl [Hsp12]
    · iexact Hsp12
    isplitl [Hsp13]
    · iexact Hsp13
    iexact Hsp14
  ihave Hcbuf := (rows_home m c _) $$ [Hown Hrp0 Hrp1 Hrp2 Hrp3 Hrp4 Hrp5 Hrp6 Hrp7 Hrp8 Hrp9 Hrp10 Hrp11 Hrp12 Hrp13 Hrp14]
  · isplitl [Hown]
    · iexact Hown
    rw [bigSep_fin15]; unfold recvPay
    isplitl [Hrp0]
    · iexact Hrp0
    isplitl [Hrp1]
    · iexact Hrp1
    isplitl [Hrp2]
    · iexact Hrp2
    isplitl [Hrp3]
    · iexact Hrp3
    isplitl [Hrp4]
    · iexact Hrp4
    isplitl [Hrp5]
    · iexact Hrp5
    isplitl [Hrp6]
    · iexact Hrp6
    isplitl [Hrp7]
    · iexact Hrp7
    isplitl [Hrp8]
    · iexact Hrp8
    isplitl [Hrp9]
    · iexact Hrp9
    isplitl [Hrp10]
    · iexact Hrp10
    isplitl [Hrp11]
    · iexact Hrp11
    isplitl [Hrp12]
    · iexact Hrp12
    isplitl [Hrp13]
    · iexact Hrp13
    iexact Hrp14
  ihave Hbx := (slabs_home m c) $$ [Hsl0 Hsl1 Hsl2 Hsl3 Hsl4 Hsl5 Hsl6 Hsl7 Hxr0 Hxr1 Hxr2 Hxr3 Hxr4 Hxr5 Hxr6 Hxr7]
  · rw [bigSep_fin8]; unfold copyPay
    isplitl [Hsl0 Hxr0]
    · isplitl [Hsl0]
      · iexact Hsl0
      iexact Hxr0
    isplitl [Hsl1 Hxr1]
    · isplitl [Hsl1]
      · iexact Hsl1
      iexact Hxr1
    isplitl [Hsl2 Hxr2]
    · isplitl [Hsl2]
      · iexact Hsl2
      iexact Hxr2
    isplitl [Hsl3 Hxr3]
    · isplitl [Hsl3]
      · iexact Hsl3
      iexact Hxr3
    isplitl [Hsl4 Hxr4]
    · isplitl [Hsl4]
      · iexact Hsl4
      iexact Hxr4
    isplitl [Hsl5 Hxr5]
    · isplitl [Hsl5]
      · iexact Hsl5
      iexact Hxr5
    isplitl [Hsl6 Hxr6]
    · isplitl [Hsl6]
      · iexact Hsl6
      iexact Hxr6
    isplitl [Hsl7]
    · iexact Hsl7
    iexact Hxr7
  icases Hbx with ⟨Hb, Hx⟩
  rw [show (dats m 0 c).Φ t₀.succ = Φ₁ m c from rfl, show (dats m 0 c).owed t₀.succ = 0 from rfl]
  unfold Φ₁
  isplitl [Hb Hcbuf Hx HzC HzS HzR]
  · isplitl [Hb]
    · iexact Hb
    isplitl [Hcbuf]
    · iexact Hcbuf
    isplitl [Hx]
    · iexact Hx
    isplitl [HzC]
    · iexact HzC
    isplitl [HzS]
    · iexact HzS
    iexact HzR
  isplitl [HO]
  · iexists _
    isplitr
    rotate_left
    · iexact HO
    · ipureintro; exact fun _ _ => Or.inl trivial
  iexists _
  isplitr
  · ipureintro; rfl
  iexact Hout

/-- info: 'Cert.KernelIdeal.P.body_obligation' depends on axioms: [propext, Classical.choice, Quot.sound] -/
#guard_msgs in #print axioms body_obligation

end Cert.KernelIdeal.P

end
-- ==== Proof.Launch.lean ====
/-
  The launch: from every device's body to the run of the whole program on the mesh.
-/
import proofs.«901088_g7700000000001089_dist_sum_ax0_shard0_i_m4096_n1024_v7x_i16_f32_1_alg».proof.Proof.Body

noncomputable section

namespace Cert.KernelIdeal.P

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The layout: the kernel's own semaphores, and the cells of a device family by family -/

theorem ownSemFacts : Pipeline.OwnSemFacts cfg0.spec osem := by decide

theorem share_eq (c : Dev nD) (w : Fin cfg0.W) : (dats (F := F) m 0 c).share w = fullShare := by unfold Dat.share; split <;> rfl

theorem csem_injective : Function.Injective csem := by decide

theorem kcell_injective : Function.Injective (kcell : Dev nD × Fin 39 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-- Every device's 39 cells. -/
def ringCells : Finset (GSem nD τ sig) := Finset.univ.map ⟨kcell, kcell_injective⟩

/-- The 39 cell indices as the barrier's, the eight copies', the fifteen sends' and the fifteen receives'. -/
abbrev Fam : Type := Unit ⊕ (Fin 8 ⊕ (Fin 15 ⊕ Fin 15))
def famIx : Fam → Fin 39 := Sum.elim (fun _ => 0) (Sum.elim ixCopy (Sum.elim ixSend ixRecv))
theorem famIx_bijective : Function.Bijective famIx := by decide
def famEquiv : Fam ≃ Fin 39 := Equiv.ofBijective famIx famIx_bijective

/-- A product over the 39 cell indices, family by family. -/
theorem bigSep_fin39 (Φ : Fin 39 → sProp 𝕄) :
    bigSep Finset.univ Φ = iprop(Φ 0 ∗ (bigSep Finset.univ fun k : Fin 8 => Φ (ixCopy k)) ∗ (bigSep Finset.univ fun i : Fin 15 => Φ (ixSend i))
      ∗ (bigSep Finset.univ fun i : Fin 15 => Φ (ixRecv i))) := by
  rw [bigSep_univ_equiv famEquiv, bigSep_univ_sum, bigSep_univ_sum, bigSep_univ_sum, bigSep_univ_of_subsingleton ()]; rfl

/-- A product over a device's cells, family by family. -/
theorem bigSep_cells (c : Dev nD) (Φ : GSem nD τ sig → sProp 𝕄) :
    (bigSep Finset.univ fun k : Fin 39 => Φ (kcell (c, k)))
      = iprop(Φ (barCell c) ∗ (bigSep Finset.univ fun k : Fin 8 => Φ (copyCell c k)) ∗ (bigSep Finset.univ fun i : Fin 15 => Φ (sendCell c i))
        ∗ (bigSep Finset.univ fun i : Fin 15 => Φ (recvCell c i))) := by
  rw [bigSep_fin39]
  simp only [kcell, csem_copy, csem_send, csem_recv]
  rfl

/-- The 38 own semaphores as the eight copies', the fifteen sends' and the fifteen receives'. -/
abbrev Own : Type := Fin 8 ⊕ (Fin 15 ⊕ Fin 15)
def ownIx : Own → Fin 38 :=
  Sum.elim (fun k => ⟨k.val, by omega⟩) (Sum.elim (fun i => ⟨8 + i.val, by omega⟩) (fun i => ⟨23 + i.val, by omega⟩))
theorem ownIx_bijective : Function.Bijective ownIx := by decide
def ownEquiv : Own ≃ Fin 38 := Equiv.ofBijective ownIx ownIx_bijective
theorem osem_copy (k : Fin 8) : osem (ownIx (.inl k)) = .dma (copySem k) := by revert k; decide
theorem osem_send (i : Fin 15) : osem (ownIx (.inr (.inl i))) = .dma (sendSem i) := by revert i; decide
theorem osem_recv (i : Fin 15) : osem (ownIx (.inr (.inr i))) = .dma (recvSem i) := by revert i; decide

/-! ## The launch element -/

/-- The duty tokens minted: for every device the fifteen duties of its barrier cell, and the one duty of each of its
    copy, send and receive cells. -/
abbrev TokIx : Type := Fin 15 ⊕ (Fin 8 ⊕ (Fin 15 ⊕ Fin 15))
def tokOf (cj : Dev nD × TokIx) : GSem nD τ sig × ℕ × Fin 15 := match cj.2 with
  | .inl d => (barCell cj.1, 0, d)
  | .inr (.inl k) => (copyCell cj.1 k, 0, 0)
  | .inr (.inr (.inl i)) => (sendCell cj.1 i, 0, 0)
  | .inr (.inr (.inr i)) => (recvCell cj.1 i, 0, 0)

/-- A token index by the kind of its cell and its duty. -/
def kindTok : TokIx → Kind × Fin 15
  | .inl d => (.bar, d)
  | .inr (.inl k) => (.copy k, 0)
  | .inr (.inr (.inl i)) => (.send i, 0)
  | .inr (.inr (.inr i)) => (.recv i, 0)
theorem kindTok_injective : Function.Injective kindTok := by decide
theorem tokOf_kind (c : Dev nD) (j : TokIx) : (kindOf (tokOf (c, j)).1.2, (tokOf (c, j)).2.2) = kindTok j := by
  rcases j with d | k | i | i
  · rfl
  · exact Prod.ext (kind_copy k) rfl
  · exact Prod.ext (kind_send i) rfl
  · exact Prod.ext (kind_recv i) rfl
theorem tokOf_dev (c : Dev nD) (j : TokIx) : (tokOf (c, j)).1.1.1 = c := by rcases j with d | k | i | i <;> rfl

theorem tokOf_injective : Function.Injective (tokOf : Dev nD × TokIx → GSem nD τ sig × ℕ × Fin 15) := by
  rintro ⟨c, j⟩ ⟨c', j'⟩ h
  have h1 : c = c' :=
    calc c = (tokOf (c, j)).1.1.1 := (tokOf_dev c j).symm
      _ = (tokOf (c', j')).1.1.1 := by rw [h]
      _ = c' := tokOf_dev c' j'
  subst h1
  have h2 : kindTok j = kindTok j' :=
    calc kindTok j = (kindOf (tokOf (c, j)).1.2, (tokOf (c, j)).2.2) := (tokOf_kind c j).symm
      _ = (kindOf (tokOf (c, j')).1.2, (tokOf (c, j')).2.2) := by rw [h]
      _ = kindTok j' := tokOf_kind c j'
  rw [kindTok_injective h2]

def ringToks : Finset (GSem nD τ sig × ℕ × Fin 15) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep Finset.univ fun d : Fin 15 => dutyTok ER (barCell c) 0 d)
    ∗ (bigSep Finset.univ fun k : Fin 8 => dutyTok ER (copyCell c k) 0 0)
    ∗ (bigSep Finset.univ fun i : Fin 15 => dutyTok ER (sendCell c i) 0 0)
    ∗ (bigSep Finset.univ fun i : Fin 15 => dutyTok ER (recvCell c i) 0 0))

/-- What the launch element deals device `c`. -/
def G (c : Dev nD) : sProp 𝕄 :=
  iprop((bigSep Finset.univ fun k : Fin 39 => roundState ER (sched m) (kcell (c, k)) 0)
    ∗ (bigSep Finset.univ fun k : Fin 39 => iprop(atPos ER (kcell (c, k)) 0 ∅ 0 ∗ reached ER (kcell (c, k)) 0)) ∗ toks c)

/-- What the global step makes of it. -/
def G' (c : Dev nD) : sProp 𝕄 := iprop(∃ K, ghost m K c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 39 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_univ_sum, bigSep_univ_sum]; rfl
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: the cells' invariants allocated, the tokens dealt to their payers -/

/-- The kernel's own 38 semaphores at zero, family by family; -/
theorem ownSems0_eq (c : Dev nD) : (Pipeline.ownSems0 (Ix := Unit) (Name := ℕ) (U := UU) (Lvl := ℕ) (Val := Elt F) (τ := τ) osem c : sProp 𝕄)
    = iprop((bigSep Finset.univ fun k : Fin 8 => semVal (copyCell c k) 0) ∗ (bigSep Finset.univ fun i : Fin 15 => semVal (sendCell c i) 0)
      ∗ (bigSep Finset.univ fun i : Fin 15 => semVal (recvCell c i) 0)) := by
  unfold Pipeline.ownSems0
  rw [bigSep_univ_equiv ownEquiv, bigSep_univ_sum, bigSep_univ_sum]
  show iprop((bigSep Finset.univ fun k : Fin 8 => semVal ((c : Thread nD τ), osem (ownIx (.inl k))) 0)
      ∗ (bigSep Finset.univ fun i : Fin 15 => semVal ((c : Thread nD τ), osem (ownIx (.inr (.inl i)))) 0)
      ∗ (bigSep Finset.univ fun i : Fin 15 => semVal ((c : Thread nD τ), osem (ownIx (.inr (.inr i)))) 0)) = _
  simp only [osem_copy, osem_send, osem_recv]

/-- the barrier semaphore the one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 39 => semVal (kcell (c, k)) 0 : sProp 𝕄) := by
  rw [ownSems0_eq, unscopedSems0_eq, bigSep_cells c (fun g => semVal g 0)]
  iintro ⟨⟨HC, HS, HV⟩, HB⟩
  isplitl [HB]; · iexact HB
  isplitl [HC]; · iexact HC
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 39 => semVal (kcell (c, k)) 0) ∗ bigSep Finset.univ fun k : Fin 39 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × Fin 39 → ℕ) (c : Dev nD) : iprop(records m K ∗ positions c ∗ payToks c) ⊢ G' m c := by
  unfold G' ghost
  iintro H
  iexists K
  iexact H

/-- A barrier cell's token of duty `j` goes to the peer at offset `j`, which sees the cell's owner at offset `rev j`. -/
def barDeal : Dev nD × Fin 15 ≃ Dev nD × Fin 15 where
  toFun cj := (peer cj.1 cj.2, cj.2.rev)
  invFun cj := (peer cj.1 cj.2, cj.2.rev)
  left_inv := by rintro ⟨c, j⟩; show (peer (peer c j) j.rev, j.rev.rev) = (c, j); rw [peer_peer_rev, Fin.rev_rev]
  right_inv := by rintro ⟨c, j⟩; show (peer (peer c j) j.rev, j.rev.rev) = (c, j); rw [peer_peer_rev, Fin.rev_rev]

/-- A receive cell's token goes to the device `off i` places before its owner, which sees the owner at offset `i`. -/
def recvDeal : Dev nD × Fin 15 ≃ Dev nD × Fin 15 where
  toFun ci := (peer ci.1 ci.2, ci.2)
  invFun ci := (peer ci.1 ci.2.rev, ci.2)
  left_inv := by rintro ⟨c, i⟩; show (peer (peer c i) i.rev, i) = (c, i); rw [peer_peer_rev]
  right_inv := by rintro ⟨c, i⟩; show (peer (peer c i.rev) i, i) = (c, i); rw [peer_rev_peer]

/-- The tokens dealt to their payers: the barrier cells' and the receive cells' go round the ring, the copy and send
    cells' stay. -/
theorem toks_around : (bigSep Finset.univ fun c : Dev nD => (toks c : sProp 𝕄)) ⊢ bigSep Finset.univ fun c : Dev nD => payToks c := by
  have hA : (bigSep Finset.univ fun c : Dev nD => bigSep Finset.univ fun d : Fin 15 => (dutyTok ER (barCell c) 0 d : sProp 𝕄))
      = bigSep Finset.univ fun c : Dev nD => bigSep Finset.univ fun j : Fin 15 => dutyTok ER (barCell (peer c j)) 0 j.rev :=
    calc _ = bigSep Finset.univ (fun cd : Dev nD × Fin 15 => (dutyTok ER (barCell cd.1) 0 cd.2 : sProp 𝕄)) :=
            (bigSep_univ_prod (fun cd : Dev nD × Fin 15 => (dutyTok ER (barCell cd.1) 0 cd.2 : sProp 𝕄))).symm
      _ = bigSep Finset.univ (fun cd : Dev nD × Fin 15 => (dutyTok ER (barCell (barDeal cd).1) 0 (barDeal cd).2 : sProp 𝕄)) :=
            bigSep_univ_equiv barDeal _
      _ = _ := bigSep_univ_prod _
  have hD : (bigSep Finset.univ fun c : Dev nD => bigSep Finset.univ fun i : Fin 15 => (dutyTok ER (recvCell c i) 0 0 : sProp 𝕄))
      = bigSep Finset.univ fun c : Dev nD => bigSep Finset.univ fun i : Fin 15 => dutyTok ER (recvCell (peer c i) i) 0 0 :=
    calc _ = bigSep Finset.univ (fun ci : Dev nD × Fin 15 => (dutyTok ER (recvCell ci.1 ci.2) 0 0 : sProp 𝕄)) :=
            (bigSep_univ_prod (fun ci : Dev nD × Fin 15 => (dutyTok ER (recvCell ci.1 ci.2) 0 0 : sProp 𝕄))).symm
      _ = bigSep Finset.univ (fun ci : Dev nD × Fin 15 => (dutyTok ER (recvCell (recvDeal ci).1 (recvDeal ci).2) 0 0 : sProp 𝕄)) :=
            bigSep_univ_equiv recvDeal _
      _ = _ := bigSep_univ_prod _
  unfold toks payToks
  rw [bigSep_sep', bigSep_sep', bigSep_sep', bigSep_sep', bigSep_sep', bigSep_sep', hA, hD]

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 39 => iprop(∃ κ : ℕ, cellInv ER (sched m) κ (kcell ck))),
    bigSep_congr (s := Finset.univ) (fun (c : Dev nD) _ => bigSep_sep' Finset.univ (fun k : Fin 39 => (atPos ER (kcell (c, k)) 0 ∅ 0 : sProp 𝕄)) (fun k => reached ER (kcell (c, k)) 0)),
    bigSep_sep', ← bigSep_univ_prod (fun ck : Dev nD × Fin 39 => (reached ER (kcell ck) 0 : sProp 𝕄))]
  iintro ⟨HI, ⟨Hat, #HR⟩, Htok⟩
  ihave HK := (BI.bigSep_exists_pi Finset.univ (fun (ck : Dev nD × Fin 39) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 39 => (atPos ER (kcell (c, k)) 0 ∅ 0 : sProp 𝕄)) payToks).symm).trans
      (bigSep_mono fun c _ => show _ ⊢ iprop(positions c ∗ payToks c) from Entails.of_eq (by unfold positions; rw [bigSep_cells c (fun g => atPos ER g 0 ∅ 0)])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem nsmul_tallyAt (g : GSem nD τ sig) (n : ℕ) : n • (tallyAt g () 1 : CellTallies nD τ sig Unit) = tallyAt g () n := by
  induction n with
  | zero => rw [zero_nsmul, tallyAt_zero]
  | succ n ih => rw [succ_nsmul, ih, tallyAt_add]

/-- The unit every device owes the barrier cell of its peer at offset `j`, summed over the devices, is one unit for each device's barrier cell; -/
theorem cred_bar (c : Dev nD) (j : Fin 15) :
    (Pipeline.launchCred (fun d : Dev nD => (tallyAt (barCell (peer d j)) () 1 : CellTallies nD τ sig Unit)) c : sProp 𝕄) ⊢ cred (tallyAt (barCell c) () 1) :=
  Pipeline.launchCred_tallyAt (.reg barS) (fun d => peer d j) (fun d => peer d j.rev) (fun d => peer_rev_peer d j) (fun d => peer_peer_rev d j) () 1 c
/-- likewise the row transfer owed to receive cell `i` of the peer at offset `i`. -/
theorem cred_recv (c : Dev nD) (i : Fin 15) :
    (Pipeline.launchCred (fun d : Dev nD => (tallyAt (recvCell (peer d i) i) () NR : CellTallies nD τ sig Unit)) c : sProp 𝕄) ⊢ cred (tallyAt (recvCell c i) () NR) :=
  Pipeline.launchCred_tallyAt (.dma (recvSem i)) (fun d => peer d i) (fun d => peer d i.rev) (fun d => peer_rev_peer d i) (fun d => peer_peer_rev d i) () NR c

theorem creds_bar (c : Dev nD) :
    (bigSep Finset.univ fun j : Fin 15 => Pipeline.launchCred (fun d : Dev nD => (tallyAt (barCell (peer d j)) () 1 : CellTallies nD τ sig Unit)) c : sProp 𝕄)
      ⊢ cred (tallyAt (barCell c) () 15) := by
  have h15 : (tallyAt (barCell c) () 15 : CellTallies nD τ sig Unit) = ∑ _j : Fin 15, tallyAt (barCell c) () 1 := by
    rw [Finset.sum_const, Finset.card_univ, Fintype.card_fin, nsmul_tallyAt]
  rw [h15, Pipeline.cred_finsetSum]
  exact bigSep_mono fun j _ => cred_bar c j
theorem creds_recv (c : Dev nD) :
    (bigSep Finset.univ fun i : Fin 15 => Pipeline.launchCred (fun d : Dev nD => (tallyAt (recvCell (peer d i) i) () NR : CellTallies nD τ sig Unit)) c : sProp 𝕄)
      ⊢ bigSep Finset.univ fun i : Fin 15 => cred (tallyAt (recvCell c i) () NR) :=
  bigSep_mono fun i _ => cred_recv c i

/-- What all devices owe a device: fifteen handshake units on its barrier cell, one row transfer on each receive cell. -/
theorem creds (c : Dev nD) :
    (Pipeline.launchCred O₀ c : sProp 𝕄) ⊢ iprop(cred (tallyAt (barCell c) () 15) ∗ bigSep Finset.univ fun i : Fin 15 => cred (tallyAt (recvCell c i) () NR)) := by
  have e : (O₀ : Dev nD → CellTallies nD τ sig Unit)
      = fun d => (∑ i ∈ Finset.univ, (fun (i : Fin 15) (d : Dev nD) => (tallyAt (recvCell (peer d i) i) () NR : CellTallies nD τ sig Unit)) i d)
        + (∑ j ∈ Finset.univ, (fun (j : Fin 15) (d : Dev nD) => (tallyAt (barCell (peer d j)) () 1 : CellTallies nD τ sig Unit)) j d) := rfl
  rw [e, Pipeline.launchCred_add, Pipeline.launchCred_sum, Pipeline.launchCred_sum]
  iintro ⟨HR, HB⟩
  isplitl [HB]
  · iapply (creds_bar (F := F) c); iexact HB
  · iapply (creds_recv (F := F) c); iexact HR

/-! ## The theorem's side conditions -/

/-- A device owes only receive cells and barrier cells. -/
theorem O₀_pos {c : Dev nD} {g : GSem nD τ sig} {u : Unit} (h : 0 < O₀ c g u) :
    (∃ i, g = recvCell (peer c i) i) ∨ (∃ j, g = barCell (peer c j)) := by
  unfold O₀ owedOf at h
  rcases Pipeline.add_pos_cases h with h | h
  · obtain ⟨i, -, hi⟩ := Pipeline.sum_pos_exists h
    exact Or.inl ⟨i, (Pipeline.tallyAt_pos hi).1⟩
  · obtain ⟨j, -, hj⟩ := Pipeline.sum_pos_exists h
    exact Or.inr ⟨j, (Pipeline.tallyAt_pos hj).1⟩

/-- The staging cell sits at level 0, below everything a device owes. -/
theorem mayWait_stage (c : Dev nD) (O : CellTallies nD τ sig Unit) (hO : O = O₀ c ∨ O = 0) :
    (levAts L lv : sProp 𝕄) ⊢ MayWait (c : Thread nD τ) (.dma cc0_sem0_0) () O := by
  rcases hO with rfl | rfl
  · refine Pipeline.mayWait_of_levAts (by rw [L_tc]; exact Finset.mem_singleton_self _) fun g u hg => ?_
    rcases O₀_pos hg with ⟨i, rfl⟩ | ⟨j, rfl⟩
    · refine ⟨by rw [L_tc]; exact Finset.mem_singleton_self _, ?_⟩
      show lv _ _ < lv _ _
      dsimp only [lv]; rw [kind_recv]; exact Nat.zero_lt_two
    · refine ⟨by rw [L_tc]; exact Finset.mem_singleton_self _, ?_⟩
      show lv _ _ < lv _ _
      dsimp only [lv]; rw [kind_bar]; exact Nat.zero_lt_one
  · rw [MayWait_zero]; iintro -; iempintro

theorem waits (c : Dev nD) : (levAts L lv : sProp 𝕄) ⊢ Pipeline.cellsWaits cfgs (dats (F := F) m) () 0 c :=
  Pipeline.cellsWaits_intro cfgs (dats m) () 0 c fun w s t => by
    have hs : ((cfgs 0).win w).sem s = cc0_sem0_0 := by fin_cases w; fin_cases s; rfl
    rw [hs]
    exact mayWait_stage c _ (by
      rcases t with ⟨_ | _, ht⟩
      · exact Or.inl rfl
      · exact Or.inr rfl)

/-- What a device starts from besides its scoped buffers: `start`, and its block in HBM. -/
def X (c : Dev nD) : sProp 𝕄 :=
  iprop(start m c ∗ (((c : Thread nD τ).loc main_arg0) ↦{fullShare} m ((c : Thread nD τ).loc main_arg0)))
/-- What it ends with besides them: its block in HBM, unchanged. -/
def Y (c : Dev nD) : sProp 𝕄 := iprop(((c : Thread nD τ).loc main_arg0) ↦{fullShare} m ((c : Thread nD τ).loc main_arg0))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(X m c ∗ emp) := by
  rw [Pipeline.unscopedRestP_none, unscopedRest0_eq]
  iintro ⟨Hx, Hlev, Hcr, -, HG⟩
  ihave Hc := (creds (F := F) c) $$ Hcr
  icases Hc with ⟨HB, HR⟩
  imodintro
  unfold X start G'
  isplitl
  · isplitr [Hx]
    · isplitl [HG]; · iexact HG
      isplitl [HB]; · iexact HB
      isplitl [HR]; · iexact HR
      iexact Hlev
    · iexact Hx
  · iempintro

theorem phi0_intro (c : Dev nD) :
    iprop(X m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ X
  iintro ⟨⟨Hs, Hx⟩, -, ⟨H0, H1⟩⟩
  isplitl [Hs]; · iexact Hs
  isplitl [H0]; · iexact H0
  isplitl [H1]; · iexact H1
  iexact Hx

theorem phi1_exit (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = Φ₁ m c from rfl, scopedRest0_eq, ownSems0_eq]
  unfold Φ₁ Y
  iintro ⟨H0, H1, Hx, Hc, Hs, Hr⟩
  isplitl [Hx]; · iexact Hx
  isplitl [Hc Hs Hr]
  · isplitl [Hc]; · iexact Hc
    isplitl [Hs] <;> iassumption
  isplitl [H0] <;> iassumption

/-! ## The result array -/

/-- The result array after the one point's write-back holds what the body left in the staging buffer. -/
theorem final_out (c : Dev nD) : (dats (F := F) m 0 c).arrAt (0 : Fin 1) cfg0.N = outAt m c := by
  show (dats (F := F) m 0 c).arrAt (0 : Fin 1) ((t0_0 : Fin cfg0.N).val + 1) = _
  rw [(dats (F := F) m 0 c).arrAt_succ 0 t0_0, flush0_0 t0_0, if_pos rfl]
  have hz : (fun a => (win0_0.index t0_0) a * main_v1.ty.shape.size a) = fun _ => 0 := funext fun a => by fin_cases a <;> decide
  refine (Memref.write_access_unit_zero_univ (Elt F) main_v1 hz (fun a => by fin_cases a <;> decide) _ _).trans ?_
  show (cfg0.win 0).cut (cfg0.grid.coords t0_0) ((dats (F := F) m 0 c).after 0 t0_0) = _
  dsimp only [dats]
  rfl

/-! ## The run -/

/-- After the run every device's result array holds the sum in that device's order, and its block is unchanged. -/
def QC : PUnit × MemSt nD τ sig (Elt F) → Prop := fun r => ∀ c : Dev nD,
  r.2.mem ((c.tc : Thread nD τ).loc main_v1) = outAt m c
  ∧ r.2.mem ((c.tc : Thread nD τ).loc main_arg0) = m ((c.tc : Thread nD τ).loc main_arg0)

set_option maxRecDepth 8000 in
/-- At the compiled mesh of sixteen devices, from any memory with every semaphore at zero: every weakly fair execution
    of the program terminates, nothing faults, and every final state satisfies `QC`. -/
theorem run_main : θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := X m) (Y := Y m) (Z := fun _ => iprop(emp))
    (hX := start_intro m ρ) (hin := phi0_intro m) (hout := phi1_exit m)
    (QY := fun c s => s.mem ((c : Thread nD τ).loc main_arg0) = m ((c : Thread nD τ).loc main_arg0))
    (hY := fun c s' => by
      unfold Y
      iintro ⟨Hx, -, HSI⟩
      icombine HSI Hx gives %hx
      imodintro
      isplitr; · ipureintro; exact Buf.eq_of_forall_mem_univ hx
      iexact HSI)
    (hQ := fun s h c => ⟨((h c).1 0).trans (final_out m c), (h c).2.2⟩)

/-- info: 'Cert.KernelIdeal.P.run_main' depends on axioms: [propext, Classical.choice, Quot.sound] -/
#guard_msgs in #print axioms run_main

end Cert.KernelIdeal.P

end
-- ==== Proof.Bits.Mesh.lean ====
/-
  The ring of sixteen devices: the device `k` places after `c`, and each printed device chain of the kernel
  as such a rotation of the thread's own device.
-/
import proofs.«901088_g7700000000001089_dist_sum_ax0_shard0_i_m4096_n1024_v7x_i16_f32_1_alg».proof.Proof.Gen.Kernel

namespace Cert.Kernel.P

open Idealize.ShloMosaic Cert.Kernel Cert.Kernel.Gen

/-- The device `k` places after `c` around the ring of sixteen. -/
def rot (c : Dev nD) (k : ℕ) : Dev nD := ⟨(c.val + k) % 16, Nat.mod_lt _ (by decide)⟩

theorem rot_val (c : Dev nD) (k : ℕ) : (rot c k).val = (c.val + k) % 16 := rfl

/-- Rotations compose by adding their steps. -/
theorem rot_rot (c : Dev nD) (a b : ℕ) : rot (rot c a) b = rot c (a + b) :=
  Fin.ext (by simp only [rot_val]; omega)

/-- Rotating by a multiple of sixteen is the identity. -/
theorem rot_zero (c : Dev nD) : rot c 0 = c := Fin.ext (by simp only [rot_val]; have hc : c.val < 16 := c.isLt; omega)
theorem rot_sixteen (c : Dev nD) : rot c 16 = c := Fin.ext (by simp only [rot_val]; have hc : c.val < 16 := c.isLt; omega)

/-- Going `d` places on and `16 - d` places on again comes back. -/
theorem rot_back (c : Dev nD) (d : ℕ) (hd : d ≤ 16) : rot (rot c d) (16 - d) = c := by
  rw [rot_rot, Nat.add_sub_cancel' hd, rot_sixteen]
theorem rot_fwd (c : Dev nD) (d : ℕ) (hd : d ≤ 16) : rot (rot c (16 - d)) d = c := by
  rw [rot_rot, Nat.sub_add_cancel hd, rot_sixteen]

/-- Two rotations of one device by steps below sixteen agree only when the steps do. -/
theorem rot_inj (c : Dev nD) {a b : ℕ} (ha : a < 16) (hb : b < 16) (h : rot c a = rot c b) : a = b := by
  have := congrArg Fin.val h; simp only [rot_val] at this; have hc : c.val < 16 := c.isLt; omega

/-- A rotation by a step strictly between 0 and 16 moves every device. -/
theorem rot_ne (c : Dev nD) {d : ℕ} (h0 : 0 < d) (hd : d < 16) : rot c d ≠ c := fun h => by
  have := congrArg Fin.val h; simp only [rot_val] at this; have hc : c.val < 16 := c.isLt; omega

/-! The fifteen handshake signals name the devices 1 to 15 places on; the fifteen transfers name them in the kernel's send order. -/
theorem dev1_eq (c : Dev nD) : (⟨k0_dev1 c, k0_dev1_lt c⟩ : Dev nD) = rot c 1 := Fin.ext (k0_dev1_eq c)
theorem dev2_eq (c : Dev nD) : (⟨k0_dev2 c, k0_dev2_lt c⟩ : Dev nD) = rot c 2 := Fin.ext (k0_dev2_eq c)
theorem dev3_eq (c : Dev nD) : (⟨k0_dev3 c, k0_dev3_lt c⟩ : Dev nD) = rot c 3 := Fin.ext (k0_dev3_eq c)
theorem dev4_eq (c : Dev nD) : (⟨k0_dev4 c, k0_dev4_lt c⟩ : Dev nD) = rot c 4 := Fin.ext (k0_dev4_eq c)
theorem dev5_eq (c : Dev nD) : (⟨k0_dev5 c, k0_dev5_lt c⟩ : Dev nD) = rot c 5 := Fin.ext (k0_dev5_eq c)
theorem dev6_eq (c : Dev nD) : (⟨k0_dev6 c, k0_dev6_lt c⟩ : Dev nD) = rot c 6 := Fin.ext (k0_dev6_eq c)
theorem dev7_eq (c : Dev nD) : (⟨k0_dev7 c, k0_dev7_lt c⟩ : Dev nD) = rot c 7 := Fin.ext (k0_dev7_eq c)
theorem dev8_eq (c : Dev nD) : (⟨k0_dev8 c, k0_dev8_lt c⟩ : Dev nD) = rot c 8 := Fin.ext (k0_dev8_eq c)
theorem dev9_eq (c : Dev nD) : (⟨k0_dev9 c, k0_dev9_lt c⟩ : Dev nD) = rot c 9 := Fin.ext (k0_dev9_eq c)
theorem dev10_eq (c : Dev nD) : (⟨k0_dev10 c, k0_dev10_lt c⟩ : Dev nD) = rot c 10 := Fin.ext (k0_dev10_eq c)
theorem dev11_eq (c : Dev nD) : (⟨k0_dev11 c, k0_dev11_lt c⟩ : Dev nD) = rot c 11 := Fin.ext (k0_dev11_eq c)
theorem dev12_eq (c : Dev nD) : (⟨k0_dev12 c, k0_dev12_lt c⟩ : Dev nD) = rot c 12 := Fin.ext (k0_dev12_eq c)
theorem dev13_eq (c : Dev nD) : (⟨k0_dev13 c, k0_dev13_lt c⟩ : Dev nD) = rot c 13 := Fin.ext (k0_dev13_eq c)
theorem dev14_eq (c : Dev nD) : (⟨k0_dev14 c, k0_dev14_lt c⟩ : Dev nD) = rot c 14 := Fin.ext (k0_dev14_eq c)
theorem dev15_eq (c : Dev nD) : (⟨k0_dev15 c, k0_dev15_lt c⟩ : Dev nD) = rot c 15 := Fin.ext (k0_dev15_eq c)
theorem dev16_eq (c : Dev nD) : (⟨k0_dev16 c, k0_dev16_lt c⟩ : Dev nD) = rot c 14 := Fin.ext (k0_dev16_eq c)
theorem dev17_eq (c : Dev nD) : (⟨k0_dev17 c, k0_dev17_lt c⟩ : Dev nD) = rot c 13 := Fin.ext (k0_dev17_eq c)
theorem dev18_eq (c : Dev nD) : (⟨k0_dev18 c, k0_dev18_lt c⟩ : Dev nD) = rot c 15 := Fin.ext (k0_dev18_eq c)
theorem dev19_eq (c : Dev nD) : (⟨k0_dev19 c, k0_dev19_lt c⟩ : Dev nD) = rot c 10 := Fin.ext (k0_dev19_eq c)
theorem dev20_eq (c : Dev nD) : (⟨k0_dev20 c, k0_dev20_lt c⟩ : Dev nD) = rot c 9 := Fin.ext (k0_dev20_eq c)
theorem dev21_eq (c : Dev nD) : (⟨k0_dev21 c, k0_dev21_lt c⟩ : Dev nD) = rot c 11 := Fin.ext (k0_dev21_eq c)
theorem dev22_eq (c : Dev nD) : (⟨k0_dev22 c, k0_dev22_lt c⟩ : Dev nD) = rot c 12 := Fin.ext (k0_dev22_eq c)
theorem dev23_eq (c : Dev nD) : (⟨k0_dev23 c, k0_dev23_lt c⟩ : Dev nD) = rot c 6 := Fin.ext (k0_dev23_eq c)
theorem dev24_eq (c : Dev nD) : (⟨k0_dev24 c, k0_dev24_lt c⟩ : Dev nD) = rot c 8 := Fin.ext (k0_dev24_eq c)
theorem dev25_eq (c : Dev nD) : (⟨k0_dev25 c, k0_dev25_lt c⟩ : Dev nD) = rot c 2 := Fin.ext (k0_dev25_eq c)
theorem dev26_eq (c : Dev nD) : (⟨k0_dev26 c, k0_dev26_lt c⟩ : Dev nD) = rot c 5 := Fin.ext (k0_dev26_eq c)
theorem dev27_eq (c : Dev nD) : (⟨k0_dev27 c, k0_dev27_lt c⟩ : Dev nD) = rot c 7 := Fin.ext (k0_dev27_eq c)
theorem dev28_eq (c : Dev nD) : (⟨k0_dev28 c, k0_dev28_lt c⟩ : Dev nD) = rot c 1 := Fin.ext (k0_dev28_eq c)
theorem dev29_eq (c : Dev nD) : (⟨k0_dev29 c, k0_dev29_lt c⟩ : Dev nD) = rot c 3 := Fin.ext (k0_dev29_eq c)
theorem dev30_eq (c : Dev nD) : (⟨k0_dev30 c, k0_dev30_lt c⟩ : Dev nD) = rot c 4 := Fin.ext (k0_dev30_eq c)

end Cert.Kernel.P
-- ==== Proof.Bits.Cells.lean ====
/-
  The protocol's vocabulary: the sixteen devices' peers by offset, the semaphore cells of one device (the runtime's
  barrier semaphore, the eight chunk-copy semaphores, fifteen send and fifteen receive semaphores), the views the
  body copies through, and the resource algebra the cells' ghost state lives in.
-/
import proofs.«901088_g7700000000001089_dist_sum_ax0_shard0_i_m4096_n1024_v7x_i16_f32_1_alg».proof.Proof.Bits.Mesh
import proofs.«901088_g7700000000001089_dist_sum_ax0_shard0_i_m4096_n1024_v7x_i16_f32_1_alg».proof.Proof.Gen.Kernel.Skeleton
import proofs.«901088_g7700000000001089_dist_sum_ax0_shard0_i_m4096_n1024_v7x_i16_f32_1_alg».proof.Proof.Gen.Kernel.Launch
import proofs.«901088_g7700000000001089_dist_sum_ax0_shard0_i_m4096_n1024_v7x_i16_f32_1_alg».proof.Proof.Gen.Kernel.Points
import Idealize.ShloMosaic.Lib.Pipeline.Launch
import Idealize.ShloMosaic.Lib.Pipeline.Kit
import Idealize.ShloMosaic.Lib.Tactic

noncomputable section

namespace Cert.Kernel.P

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the rounds library's, duties named by `Fin 15` -/

abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Peers by offset

Offset index `i : Fin 15` stands for the step `i + 1` around the ring; the opposite step is `Fin.rev i`
(`(i + 1) + (15 - i) = 16`). -/

/-- The step an offset index stands for: 1 to 15. -/
def off (i : Fin 15) : ℕ := i.val + 1

theorem off_pos (i : Fin 15) : 0 < off i := Nat.succ_pos _
theorem off_lt (i : Fin 15) : off i < 16 := by unfold off; omega
theorem off_rev (i : Fin 15) : off i.rev = 16 - off i := by unfold off; rw [Fin.val_rev]; omega

/-- The device `off i` places after `c`. -/
def peer (c : Dev nD) (i : Fin 15) : Dev nD := rot c (off i)

theorem peer_peer_rev (c : Dev nD) (i : Fin 15) : peer (peer c i) i.rev = c := by
  unfold peer; rw [off_rev]; exact rot_back c _ (off_lt i).le
theorem peer_rev_peer (c : Dev nD) (i : Fin 15) : peer (peer c i.rev) i = c := by
  unfold peer; rw [off_rev]; exact rot_fwd c _ (off_lt i).le
theorem peer_ne (c : Dev nD) (i : Fin 15) : peer c i ≠ c := rot_ne c (off_pos i) (off_lt i)
theorem peer_inj (c : Dev nD) {i j : Fin 15} (h : peer c i = peer c j) : i = j :=
  Fin.ext (Nat.succ_injective (rot_inj c (off_lt i) (off_lt j) h))

/-! ## The semaphores and cells of one device -/

/-- The runtime's barrier semaphore of collective id 0. -/
abbrev barS : Sem sig := (SemArray.scalar (sig.barrier 0 rfl) : Sems sig S_).sem
/-- The semaphore of the copy of chunk `k` (scratch semaphores 1 to 8). -/
def copySem (k : Fin 8) : DmaSem sig := ⟨1 + k.val, by have := k.isLt; show 1 + k.val < 41; omega⟩
/-- The send semaphore of the transfer to the peer at offset `i` (scratch semaphores 10 to 24). -/
def sendSem (i : Fin 15) : DmaSem sig := ⟨9 + off i, by have := off_lt i; show 9 + off i < 41; omega⟩
/-- The receive semaphore the peer at offset `rev i` — the device this one is at offset `i` of — credits (scratch semaphores 26 to 40). -/
def recvSem (i : Fin 15) : DmaSem sig := ⟨25 + off i, by have := off_lt i; show 25 + off i < 41; omega⟩

abbrev barCell (c : Dev nD) : GSem nD τ sig := ((c : Thread nD τ), .reg barS)
abbrev copyCell (c : Dev nD) (k : Fin 8) : GSem nD τ sig := ((c : Thread nD τ), .dma (copySem k))
abbrev sendCell (c : Dev nD) (i : Fin 15) : GSem nD τ sig := ((c : Thread nD τ), .dma (sendSem i))
abbrev recvCell (c : Dev nD) (i : Fin 15) : GSem nD τ sig := ((c : Thread nD τ), .dma (recvSem i))

/-! ## The memrefs and views -/

abbrev xM : Memref sig .tc .hbm S4096x1024 .f32 := Memref.whole main_arg0
abbrev oM : Memref sig .tc .vmem S1x1024 .f32 := Memref.whole cc0_stg0_0
abbrev bM : Memref sig .tc .vmem S8x512x1024 .f32 := Memref.whole cc0_scratch0
abbrev cM : Memref sig .tc .vmem S16x1024 .f32 := Memref.whole cc0_scratch1

/-- Row `j` of the exchange buffer: where device `j`'s partial sum lives on every device. -/
def rowM (j : Dev nD) : Memref sig .tc .vmem S1x1024 .f32 :=
  cM.slice (Rect.unit (s := S16x1024) (k0_off2 j) S1x1024.size (k0_off2_inb j)) (fun _ => rfl)

theorem chunkDst_inb (k : Fin 8) : ∀ a, (![k.val, 0, 0] : Fin 3 → Nat) a + S1x512x1024.size a ≤ S8x512x1024.size a := by
  revert k; decide
theorem chunkSrc_inb (k : Fin 8) : ∀ a, (![512 * k.val, 0] : Fin 2 → Nat) a + S512x1024.size a ≤ S4096x1024.size a := by
  revert k; decide

/-- Chunk buffer `k`: slab `k` of the 8 × 512 × 1024 scratch, as a 512 × 1024 memref. -/
def chunkDst (k : Fin 8) : Memref sig .tc .vmem S512x1024 .f32 :=
  (bM.slice (Rect.unit (s := S8x512x1024) ![k.val, 0, 0] S1x512x1024.size (chunkDst_inb k)) (fun _ => rfl)).squeeze S512x1024 squeezes_S1x512x1024_S512x1024
/-- Rows `[512 k, 512 k + 512)` of the device's block in HBM. -/
def chunkSrc (k : Fin 8) : Memref sig .tc .hbm S512x1024 .f32 :=
  xM.slice (Rect.unit (s := S4096x1024) ![512 * k.val, 0] S512x1024.size (chunkSrc_inb k)) (fun _ => rfl)

/-- The credit of one row transfer and of one chunk copy. -/
abbrev NR : ℕ := (rowM (0 : Dev nD)).view.dmaCredit
abbrev NC : ℕ := (chunkDst (0 : Fin 8)).view.dmaCredit

end Cert.Kernel.P

end
-- ==== Proof.Bits.SumValue.lean ====
/-
  What the sixteen devices compute, as one function of the whole array, and that it is the reference's column sum.
-/
import proofs.«901088_g7700000000001089_dist_sum_ax0_shard0_i_m4096_n1024_v7x_i16_f32_1_alg».proof.Proof.Bits.Mesh
import proofs.«901088_g7700000000001089_dist_sum_ax0_shard0_i_m4096_n1024_v7x_i16_f32_1_alg».proof.Proof.Gen.Kernel.Skeleton
import proofs.«901088_g7700000000001089_dist_sum_ax0_shard0_i_m4096_n1024_v7x_i16_f32_1_alg».proof.Proof.Gen.ReferenceIdeal.Run
import proofs.«901088_g7700000000001089_dist_sum_ax0_shard0_i_m4096_n1024_v7x_i16_f32_1_alg».proof.Proof.Gen.ReferenceIdeal.Read
import Idealize.ShloMosaic.Lib.Layout
import Idealize.ShloMosaic.Lib.ValueIdx
import Idealize.ShloMosaic.Lib.ValueLayout
import Idealize.ShloMosaic.PureOps.Ideal.Laws
import Mathlib.Algebra.BigOperators.Fin
import Mathlib.Data.Fintype.BigOperators
import Mathlib.Data.Fintype.EquivFin
import Mathlib.Logic.Equiv.Fin.Basic

noncomputable section

namespace Cert.Kernel.SumValue

open Idealize.ShloMosaic Idealize.SL.Sem Cert.Kernel Cert.Kernel.Gen Cert.Kernel.P
open Idealize.ShloMosaic.ValueIdx

variable {F : FTy → Type} [FloatOps F]

/-! ### Sums re-indexed -/

/-- A sum over `Fin N`, `N = m · n`, is the double sum over the `m` consecutive runs of `n` indices. -/
private theorem sum_runs {M : Type*} [AddCommMonoid M] (m n N : ℕ) (h : m * n = N) (f : Fin N → M)
    (hlt : ∀ (d : Fin m) (r : Fin n), n * d.val + r.val < N) :
    ∑ R : Fin N, f R = ∑ d : Fin m, ∑ r : Fin n, f ⟨n * d.val + r.val, hlt d r⟩ := by
  rw [← Equiv.sum_comp (finProdFinEquiv.trans (finCongr h)) f, Fintype.sum_prod_type]
  refine Finset.sum_congr rfl fun d _ => Finset.sum_congr rfl fun r _ => congrArg f (Fin.ext ?_)
  show (finCongr h (finProdFinEquiv (d, r))).val = n * d.val + r.val
  rw [finCongr_apply_coe, finProdFinEquiv_apply_val, Nat.add_comm]

/-- The terms of a list that holds each of the sixteen indices once, in any order, add up to the sum over all of them. -/
private theorem sum_perm16 {M : Type*} [AddCommMonoid M] (g : Fin 16 → M) (l : List (Fin 16))
    (hl : l.Perm (List.finRange 16)) : (l.map g).sum = ∑ k : Fin 16, g k := by
  rw [Fin.sum_univ_def]; exact (hl.map g).sum_eq

/-- The sixteen rotations of one device are all the devices, so a sum over the rotation steps is the sum over the devices. -/
private theorem sum_rot {M : Type*} [AddCommMonoid M] (c : Dev nD) (g : Dev nD → M) :
    ∑ k : Fin 16, g (rot c k.val) = ∑ d : Dev nD, g d := by
  refine Function.Bijective.sum_comp (e := fun k : Fin 16 => rot c k.val) ?_ g
  refine Function.Injective.bijective_of_finite fun a b hab => ?_
  exact Fin.ext (rot_inj c a.isLt b.isLt hab)

/-- Sixteen terms added from the left in the order 0, 12, 13, 15, 9, 11, 14, 8, 10, 4, 5, 7, 6, 1, 3, 2 of their indices are the
    sum over all sixteen indices. -/
private theorem sum16_order {M : Type*} [AddCommMonoid M] (g : Fin 16 → M) :
    g 0 + g 12 + g 13 + g 15 + g 9 + g 11 + g 14 + g 8 + g 10 + g 4 + g 5 + g 7 + g 6 + g 1 + g 3 + g 2 = ∑ k : Fin 16, g k := by
  rw [← sum_perm16 g [0, 12, 13, 15, 9, 11, 14, 8, 10, 4, 5, 7, 6, 1, 3, 2] (by decide)]
  simp only [List.map_cons, List.map_nil, List.sum_cons, List.sum_nil, add_zero, add_assoc]

/-! ### What one device adds up -/

/-- Rows `[512 k, 512 k + 512)` of a device's block `X`, as the 1 × 512 × 1024 vector the body loads from chunk buffer `k`:
    entry `(0, i, j)` is `X (512 k + i, j)`. -/
def chunk (X : FVec F S4096x1024 .f32) (k : Fin 8) : Vec F S1x512x1024 .f32 :=
  fun i => X (ix2 ⟨512 * k.val + (i 1).val, by have h1 : (i 1).val < 512 := (i 1).isLt; have := k.isLt; omega⟩ ⟨(i 2).val, (i 2).isLt⟩)

/-- A device's own partial result: the column sums of its eight chunks, added in chunk order. -/
def localSum (X : FVec F S4096x1024 .f32) : FVec F S1x1024 .f32 :=
  k0_pay4 (k0_pay3 (k0_pay2 (chunk X 0) (chunk X 1)) (chunk X 2) (chunk X 3) (chunk X 4)) (chunk X 5) (chunk X 6) (chunk X 7)

/-- The column sums of one chunk: the chunk without its unit axis, summed over its 512 rows, the unit axis put back. -/
private def colSum (v : Vec F S1x512x1024 .f32) : FVec F S1x1024 .f32 :=
  shapeCast S1x1024 (multiReduction .add [0] S1024 (shapeCast S512x1024 v shapeCasts_S1x512x1024_S512x1024) 0x00000000#32
    reduces_S512x1024_S1024 (.inl rfl) rfl) shapeCasts_S1024_S1x1024

/-- A device's partial result is the eight chunks' column sums added from the left. -/
private theorem localSum_eq (X : FVec F S4096x1024 .f32) :
    localSum X = addf (addf (addf (addf (addf (addf (addf (colSum (chunk X 0)) (colSum (chunk X 1))) (colSum (chunk X 2)))
      (colSum (chunk X 3))) (colSum (chunk X 4))) (colSum (chunk X 5))) (colSum (chunk X 6))) (colSum (chunk X 7)) := rfl

/-- At column `q` a chunk's column sum is the sum of the chunk's 512 entries of that column. -/
private theorem colSum_apply (v : FVec Ideal S1x512x1024 .f32) (u : Fin 1) (q : Fin 1024) :
    colSum (F := Ideal) v (ix2 u q) = ∑ r : Fin 512, v (ix3 (0 : Fin 1) r q) := by
  unfold colSum
  rw [shapeCast_a_1a_apply]
  refine (Ideal.multiReduction_add_single _ 0x00000000#32 reduces_S512x1024_S1024 (.inl rfl) rfl (ix1 q)).trans ?_
  refine Finset.sum_congr rfl fun r _ => ?_
  have hi : reduces_S512x1024_S1024.lift (ix1 q) r = ix2 r q := by
    funext a; match a with | ⟨0, _⟩ => rfl | ⟨1, _⟩ => rfl
  rw [hi]
  exact shapeCast_1ab_ab_apply v _ r q

/-- At column `q` a device's partial result is the sum of that column over the 4096 rows of its block. -/
private theorem localSum_apply (X : FVec Ideal S4096x1024 .f32) (u : Fin 1) (q : Fin 1024) :
    localSum (F := Ideal) X (ix2 u q) = ∑ R : Fin 4096, X (ix2 R q) := by
  rw [localSum_eq]
  simp only [addf_apply, colSum_apply]
  rw [sum_runs 8 512 4096 rfl (fun R => X (ix2 R q)) (fun d r => by omega), Fin.sum_univ_eight]
  rfl

/-! ### What the sixteen devices add up -/

/-- Device `c`'s result from every device's partial result `s`: its own, then the one of the device `d` places
    BEFORE it (`rot c (16 - d)`) for `d = 4, 3, 1, 7, 5, 2, 8, 6, 12, 11, 9, 10, 15, 13, 14`, added in that order. -/
def total (s : Dev nD → FVec F S1x1024 .f32) (c : Dev nD) : FVec F S1x1024 .f32 :=
  k0_pay1 (k0_pay11 (k0_pay10 (k0_pay9 (k0_pay8 (k0_pay7 (k0_pay6 (s c) (s (rot c 12))) (s (rot c 13)) (s (rot c 15)) (s (rot c 9)))
    (s (rot c 11)) (s (rot c 14))) (s (rot c 8)) (s (rot c 10)) (s (rot c 4))) (s (rot c 5)) (s (rot c 7)) (s (rot c 6))) (s (rot c 1)) (s (rot c 3))) (s (rot c 2))

/-- Whatever device adds them, and so in whatever order, the sixteen partial results add up to their sum over the devices. -/
private theorem total_apply (s : Dev nD → FVec Ideal S1x1024 .f32) (c : Dev nD) (j : S1x1024.Idx) :
    total (F := Ideal) s c j = ∑ d : Dev nD, s d j := by
  rw [← sum_rot c (fun d => s d j)]
  refine Eq.trans ?_ (sum16_order (fun k : Fin 16 => s (rot c k.val) j))
  refine Eq.trans (b := s (rot c 0) j + s (rot c 12) j + s (rot c 13) j + s (rot c 15) j + s (rot c 9) j + s (rot c 11) j
    + s (rot c 14) j + s (rot c 8) j + s (rot c 10) j + s (rot c 4) j + s (rot c 5) j + s (rot c 7) j + s (rot c 6) j
    + s (rot c 1) j + s (rot c 3) j + s (rot c 2) j) ?_ rfl
  rw [rot_zero]
  rfl

/-! ### The reference -/

/-- The reference's result as a function of the whole array: the sum over the 65536 rows, kept as one row. -/
def refVal (A : FVec Ideal Cert.ReferenceIdeal.S65536x1024 .f32) : FVec Ideal S1x1024 .f32 :=
  broadcastInDim Cert.ReferenceIdeal.S1x1024 ![1] Cert.ReferenceIdeal.Gen.bcast_S1024_S1x1024_1
    (Host.reduceAdd (F := Ideal) A (constant (F := Ideal) Cert.ReferenceIdeal.S_ .f32 0x00000000#32)
      Cert.ReferenceIdeal.Gen.reducesTo_S65536x1024_S1024_d0 Cert.ReferenceIdeal.Gen.h_S_)

/-- At column `q` the reference's result is the sum of that column over all 65536 rows. -/
private theorem refVal_apply (A : FVec Ideal Cert.ReferenceIdeal.S65536x1024 .f32) (u : Fin 1) (q : Fin 1024) :
    refVal A (ix2 u q) = ∑ R : Fin 65536, A (ix2 R q) := by
  show Cert.ReferenceIdeal.Read.val_main_v1 (F := Ideal) A (ix2 u q) = _
  rw [Cert.ReferenceIdeal.Read.val_main_v1_apply, Cert.ReferenceIdeal.Read.val_main_v0_apply,
    Cert.ReferenceIdeal.Read.val_main_cst_apply]
  show Ideal.ofBits .f32 0x00000000#32 + _ = _
  rw [Ideal.ofBits_zero_f32, zero_add]
  refine Finset.sum_congr rfl fun R _ => congrArg A (funext fun a => ?_)
  match a with
  | ⟨0, _⟩ => rfl
  | ⟨1, _⟩ => rfl

/-! ### The two agree -/

/-- Summed over all sixteen devices' blocks, in whatever order device `c` adds them, the partial results are the
    reference's column sum of the whole array. -/
theorem total_eq_ref (A : FVec Ideal Cert.ReferenceIdeal.S65536x1024 .f32) (c : Dev nD) :
    total (F := Ideal) (fun j => localSum (Layout.block ⟨2, ![4096, 1024]⟩ ⟨2, ![65536, 1024]⟩ 0 16 j A)) c = refVal A := by
  funext i
  obtain ⟨u, q, rfl⟩ : ∃ (u : Fin 1) (q : Fin 1024), i = ix2 u q := ⟨i 0, i 1, eq_ix2 i⟩
  rw [total_apply, refVal_apply]
  simp only [localSum_apply, Layout.block_apply]
  rw [sum_runs 16 4096 65536 rfl (fun R => A (ix2 R q)) (fun d r => by omega)]
  refine Finset.sum_congr rfl fun d _ => Finset.sum_congr rfl fun r _ => congrArg A (funext fun a => Fin.ext ?_)
  match a with
  | ⟨0, _⟩ => show d.val * 4096 + r.val = 4096 * d.val + r.val; omega
  | ⟨1, _⟩ => rfl

/-- The reference's run: it ends with its result at `refVal` of its argument array, the argument unchanged. -/
theorem ref_run (m' : (ℓ : Loc Cert.ReferenceIdeal.nD Cert.ReferenceIdeal.τ Cert.ReferenceIdeal.sig) → Buf (Elt Ideal) ℓ) (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r =>
      r.2.mem (((0 : Dev Cert.ReferenceIdeal.nD).tc : Thread Cert.ReferenceIdeal.nD Cert.ReferenceIdeal.τ).loc Cert.ReferenceIdeal.main_v1)
          = refVal (m' (((0 : Dev Cert.ReferenceIdeal.nD).tc : Thread Cert.ReferenceIdeal.nD Cert.ReferenceIdeal.τ).loc Cert.ReferenceIdeal.main_arg0))
      ∧ r.2.mem (((0 : Dev Cert.ReferenceIdeal.nD).tc : Thread Cert.ReferenceIdeal.nD Cert.ReferenceIdeal.τ).loc Cert.ReferenceIdeal.main_arg0)
          = m' (((0 : Dev Cert.ReferenceIdeal.nD).tc : Thread Cert.ReferenceIdeal.nD Cert.ReferenceIdeal.τ).loc Cert.ReferenceIdeal.main_arg0)) :=
  (θ_run _ _ _).mono (fun _ h => h 0) (Cert.ReferenceIdeal.Value.run (F := Ideal) m' g')

end Cert.Kernel.SumValue

end
-- ==== Proof.Bits.Sched.lean ====
/-
  The protocol as a schedule of rounds. Every cell has one round. A device's barrier cell has fifteen unit duties,
  one per peer: the peer at offset `i` pays duty `i` and hands over its own exchange-buffer row for this device
  together with the fact that its receive cell for this device stands at round 0. A chunk-copy cell, a send cell and
  a receive cell have one duty each: the copy's landing hands back the chunk buffer holding the chunk and the source
  rows; a send's completion hands back the share of the device's own row the transfer read; a receive's landing hands
  over the sender's row holding the sender's partial sum.
-/
import proofs.«901088_g7700000000001089_dist_sum_ax0_shard0_i_m4096_n1024_v7x_i16_f32_1_alg».proof.Proof.Bits.Cells
import proofs.«901088_g7700000000001089_dist_sum_ax0_shard0_i_m4096_n1024_v7x_i16_f32_1_alg».proof.Proof.Bits.SumValue

noncomputable section

namespace Cert.Kernel.P

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Contents -/

/-- Device `j`'s block of the argument array. -/
abbrev blockOf (j : Dev nD) : FVec F S4096x1024 .f32 := m ((j : Thread nD τ).loc main_arg0)

/-- Device `j`'s partial sum: what the body stores in its own row (through a shape cast that changes nothing) and sends. -/
def part (j : Dev nD) : FVec F S1x1024 .f32 := SumValue.localSum (blockOf m j)

/-- The exchange buffer on thread `t` with row `j` holding `v` (what the other rows hold is immaterial: the
    assertions below own row `j` only). -/
def rowBuf (t j : Dev nD) (v : Vec F S1x1024 .f32) : Buf (Elt F) ((rowM j).view.loc (t : Thread nD τ)) :=
  (rowM j).view.write (Elt F) (View.junk (rowM j).view) v Finset.univ

/-- The chunk scratch on thread `t` with slab `k` holding rows `[512 k, 512 k + 512)` of the device's block. -/
def chunkBuf (t : Dev nD) (k : Fin 8) : Buf (Elt F) ((chunkDst k).view.loc (t : Thread nD τ)) :=
  (chunkDst k).view.write (Elt F) (View.junk (chunkDst k).view) ((chunkSrc k).view.read (Elt F) (m ((t : Thread nD τ).loc main_arg0))) Finset.univ

/-- The device's block in HBM, typed as the contents under the source view of chunk copy `k`. -/
def xBuf (t : Dev nD) (k : Fin 8) : Buf (Elt F) ((chunkSrc k).view.loc (t : Thread nD τ)) := m ((t : Thread nD τ).loc main_arg0)

/-- Row `j` of thread `t`'s exchange buffer, owned at share `q` with contents `f`. -/
def rowPts (t j : Dev nD) (q : PosShare TreeShare) (f : Buf (Elt F) ((rowM j).view.loc (t : Thread nD τ))) : sProp 𝕄 :=
  (rowM j).view.loc (t : Thread nD τ) ↦[(rowM j).view.set]{q} f

/-! ## Fifteen shares of one row: `L, RL, RRL, …, R¹³L, R¹⁴` -/

def rightN : ℕ → PosShare TreeShare
  | 0 => fullShare
  | n + 1 => (rightN n).right

/-- The share of its own row a device lends to the transfer at offset `i`. -/
def shareOf (i : Fin 15) : PosShare TreeShare := if i.val < 14 then (rightN i.val).left else rightN 14

/-! ## Payloads -/

/-- What the peer at offset `i` hands device `c` with its handshake signal: its row for `c`, and that its receive
    cell for `c` stands at round 0. -/
def barPay (c : Dev nD) (i : Fin 15) : sProp 𝕄 :=
  iprop((∃ f, rowPts (peer c i) c fullShare f) ∗ reached ER (recvCell (peer c i) i) 0)
/-- What the completed send at offset `i` hands back: the lent share of the device's own row. -/
def sendPay (c : Dev nD) (i : Fin 15) : sProp 𝕄 := rowPts c c (shareOf i) (rowBuf c c (part m c))
/-- What the landing on receive cell `i` hands over: the row of the device `off i` places before, holding its partial sum. -/
def recvPay (c : Dev nD) (i : Fin 15) : sProp 𝕄 := rowPts c (peer c i.rev) fullShare (rowBuf c (peer c i.rev) (part m (peer c i.rev)))
/-- What the landing of chunk copy `k` hands back: the chunk buffer holding the chunk, and the source rows. -/
def copyPay (c : Dev nD) (k : Fin 8) : sProp 𝕄 :=
  iprop(((chunkDst k).view.loc (c : Thread nD τ) ↦[(chunkDst k).view.set]{fullShare} chunkBuf m c k)
    ∗ ((chunkSrc k).view.loc (c : Thread nD τ) ↦[(chunkSrc k).view.set]{fullShare} xBuf m c k))

/-! ## The schedule -/

/-- What a semaphore is in the protocol. -/
inductive Kind where
  | bar | copy (k : Fin 8) | send (i : Fin 15) | recv (i : Fin 15) | other
  deriving DecidableEq

def kindOf : SemLoc sig → Kind
  | .reg _ => .bar
  | .dma s =>
    if h : 1 ≤ s.val ∧ s.val ≤ 8 then .copy ⟨s.val - 1, by omega⟩
    else if h : 10 ≤ s.val ∧ s.val ≤ 24 then .send ⟨s.val - 10, by omega⟩
    else if h : 26 ≤ s.val ∧ s.val ≤ 40 then .recv ⟨s.val - 26, by omega⟩
    else .other

def sched : Rounds.Schedule (GSem nD τ sig) (Fin 15) 𝕄 where
  duties g r :=
    if r = 0 ∧ g.1.2 = .tc then
      (match kindOf g.2 with | .bar => Finset.univ | .copy _ => {0} | .send _ => {0} | .recv _ => {0} | .other => ∅)
    else ∅
  unitless _ := False
  amount g _ _ := match kindOf g.2 with | .bar => 1 | .copy _ => NC | _ => NR
  payload g _ d := match kindOf g.2 with
    | .bar => barPay g.1.1 d
    | .copy k => copyPay m g.1.1 k
    | .send i => sendPay m g.1.1 i
    | .recv i => recvPay m g.1.1 i
    | .other => iprop(emp)
  amount_pos g _ _ _ := by
    cases kindOf g.2
    · exact Nat.one_pos
    · exact View.dmaCredit_pos _ (by decide)
    all_goals exact View.dmaCredit_pos _ (by decide)

/-! ## The tables -/

theorem kind_bar (s : Sem sig) : kindOf (.reg s) = .bar := rfl
theorem kind_copy (k : Fin 8) : kindOf (.dma (copySem k)) = .copy k := by revert k; decide
theorem kind_send (i : Fin 15) : kindOf (.dma (sendSem i)) = .send i := by revert i; decide
theorem kind_recv (i : Fin 15) : kindOf (.dma (recvSem i)) = .recv i := by revert i; decide

section Tables
variable (c : Dev nD)

theorem duties_bar : (sched (F := F) m).duties (barCell c) 0 = Finset.univ := by
  dsimp only [sched]; rw [if_pos ⟨rfl, rfl⟩]; rfl
theorem duties_copy (k : Fin 8) : (sched (F := F) m).duties (copyCell c k) 0 = {0} := by
  dsimp only [sched]; rw [if_pos ⟨rfl, rfl⟩, kind_copy]
theorem duties_send (i : Fin 15) : (sched (F := F) m).duties (sendCell c i) 0 = {0} := by
  dsimp only [sched]; rw [if_pos ⟨rfl, rfl⟩, kind_send]
theorem duties_recv (i : Fin 15) : (sched (F := F) m).duties (recvCell c i) 0 = {0} := by
  dsimp only [sched]; rw [if_pos ⟨rfl, rfl⟩, kind_recv]
theorem duties_later (g : GSem nD τ sig) : ∀ r, 1 ≤ r → (sched (F := F) m).duties g r = ∅ :=
  fun r hr => by dsimp only [sched]; rw [if_neg fun h => by omega]

theorem amount_bar (d : Fin 15) : (sched (F := F) m).amount (barCell c) 0 d = 1 := rfl
theorem amount_copy (k : Fin 8) (d : Fin 15) : (sched (F := F) m).amount (copyCell c k) 0 d = NC := by
  dsimp only [sched]; rw [kind_copy]
theorem amount_send (i : Fin 15) (d : Fin 15) : (sched (F := F) m).amount (sendCell c i) 0 d = NR := by
  dsimp only [sched]; rw [kind_send]
theorem amount_recv (i : Fin 15) (d : Fin 15) : (sched (F := F) m).amount (recvCell c i) 0 d = NR := by
  dsimp only [sched]; rw [kind_recv]

theorem expect_bar : (sched (F := F) m).expect (barCell c) 0 = 15 := by
  unfold Schedule.expect Schedule.amountOf
  rw [duties_bar, Finset.sum_congr rfl fun d _ => amount_bar m c d, Finset.sum_const, Finset.card_univ, Fintype.card_fin, smul_eq_mul]
theorem expect_copy (k : Fin 8) : (sched (F := F) m).expect (copyCell c k) 0 = NC := by
  unfold Schedule.expect Schedule.amountOf; rw [duties_copy, Finset.sum_singleton, amount_copy]
theorem expect_send (i : Fin 15) : (sched (F := F) m).expect (sendCell c i) 0 = NR := by
  unfold Schedule.expect Schedule.amountOf; rw [duties_send, Finset.sum_singleton, amount_send]
theorem expect_recv (i : Fin 15) : (sched (F := F) m).expect (recvCell c i) 0 = NR := by
  unfold Schedule.expect Schedule.amountOf; rw [duties_recv, Finset.sum_singleton, amount_recv]

theorem payload_bar (d : Fin 15) : (sched m).payload (barCell c) 0 d = barPay (F := F) c d := rfl
theorem payload_copy (k : Fin 8) (d : Fin 15) : (sched m).payload (copyCell c k) 0 d = copyPay m c k := by
  dsimp only [sched]; rw [kind_copy]
theorem payload_send (i : Fin 15) (d : Fin 15) : (sched m).payload (sendCell c i) 0 d = sendPay m c i := by
  dsimp only [sched]; rw [kind_send]
theorem payload_recv (i : Fin 15) (d : Fin 15) : (sched m).payload (recvCell c i) 0 d = recvPay m c i := by
  dsimp only [sched]; rw [kind_recv]

/-- The whole of the barrier cell's round: every peer's row for this device, and every peer's receive cell at round 0. -/
theorem rest_bar : bigSep ((sched m).duties (barCell c) 0 \ ∅) (fun d => (sched m).payload (barCell c) 0 d) = bigSep Finset.univ (fun i => barPay (F := F) c i) := by
  rw [Finset.sdiff_empty, duties_bar]; rfl
theorem rest_copy (k : Fin 8) : bigSep ((sched m).duties (copyCell c k) 0 \ ∅) (fun d => (sched m).payload (copyCell c k) 0 d) = copyPay m c k := by
  rw [Finset.sdiff_empty, duties_copy, bigSep_singleton, payload_copy]
theorem rest_send (i : Fin 15) : bigSep ((sched m).duties (sendCell c i) 0 \ ∅) (fun d => (sched m).payload (sendCell c i) 0 d) = sendPay m c i := by
  rw [Finset.sdiff_empty, duties_send, bigSep_singleton, payload_send]
theorem rest_recv (i : Fin 15) : bigSep ((sched m).duties (recvCell c i) 0 \ ∅) (fun d => (sched m).payload (recvCell c i) 0 d) = recvPay m c i := by
  rw [Finset.sdiff_empty, duties_recv, bigSep_singleton, payload_recv]

end Tables

instance sched_payload_storable (g : GSem nD τ sig) (r : ℕ) (d : Fin 15) :
    BI.Storable (upEmb : UEmb _ 𝕄) ((sched (F := F) m).payload g r d) := by
  show BI.Storable upEmb (match kindOf g.2 with
    | .bar => barPay g.1.1 d
    | .copy k => copyPay m g.1.1 k
    | .send i => sendPay m g.1.1 i
    | .recv i => recvPay m g.1.1 i
    | .other => iprop(emp))
  split
  · unfold barPay rowPts; infer_instance
  · unfold copyPay; exact inferInstance
  · unfold sendPay rowPts; infer_instance
  · unfold recvPay rowPts; infer_instance
  · infer_instance

end Cert.Kernel.P

end
-- ==== Proof.Bits.Ghost.lean ====
/-
  What each device holds during the kernel: the cells' invariants and its own positions and duty tokens, what it
  owes its peers (one handshake unit and one row transfer each), the levels that order the waits, and the
  pipeline's proof data (the invariant before and after the one grid point, and what the output block holds).
-/
import proofs.«901088_g7700000000001089_dist_sum_ax0_shard0_i_m4096_n1024_v7x_i16_f32_1_alg».proof.Proof.Bits.Sched

noncomputable section

namespace Cert.Kernel.P

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The 39 cells of a device, indexed: the barrier cell, 8 copy cells, 15 send cells, 15 receive cells -/

def csem (n : Fin 39) : SemLoc sig :=
  if h0 : n.val = 0 then .reg barS
  else if h1 : n.val ≤ 8 then .dma (copySem ⟨n.val - 1, by omega⟩)
  else if h2 : n.val ≤ 23 then .dma (sendSem ⟨n.val - 9, by omega⟩)
  else .dma (recvSem ⟨n.val - 24, by omega⟩)

abbrev kcell (ck : Dev nD × Fin 39) : GSem nD τ sig := ((ck.1 : Thread nD τ), csem ck.2)

def ixCopy (k : Fin 8) : Fin 39 := ⟨1 + k.val, by omega⟩
def ixSend (i : Fin 15) : Fin 39 := ⟨9 + i.val, by omega⟩
def ixRecv (i : Fin 15) : Fin 39 := ⟨24 + i.val, by omega⟩

theorem csem_bar : csem 0 = .reg barS := rfl
theorem csem_copy (k : Fin 8) : csem (ixCopy k) = .dma (copySem k) := by revert k; decide
theorem csem_send (i : Fin 15) : csem (ixSend i) = .dma (sendSem i) := by revert i; decide
theorem csem_recv (i : Fin 15) : csem (ixRecv i) = .dma (recvSem i) := by revert i; decide

/-- The kernel's own (scoped) semaphores: every cell but the runtime's barrier. -/
abbrev osem (n : Fin 38) : SemLoc sig := csem n.succ

/-! ## What a device owes, and the levels -/

/-- Device `c` still owing the row transfers at the offsets in `Sr` and the handshake units at the offsets in `Sb`. -/
def owedOf (c : Dev nD) (Sr Sb : Finset (Fin 15)) : CellTallies nD τ sig Unit :=
  (∑ i ∈ Sr, tallyAt (recvCell (peer c i) i) () NR) + (∑ j ∈ Sb, tallyAt (barCell (peer c j)) () 1)

/-- At launch it owes all of them. -/
def O₀ (c : Dev nD) : CellTallies nD τ sig Unit := owedOf c Finset.univ Finset.univ

def L (g : GSem nD τ sig) : Finset Unit := if g.1.2 = .tc then {()} else ∅
/-- Barrier cells at level 1, receive cells at 2, everything else (staging, chunk copies, sends) at 0. -/
def lv (g : GSem nD τ sig) (_ : Unit) : ℕ := match kindOf g.2 with | .bar => 1 | .recv _ => 2 | _ => 0

/-! ## Ghost state -/

/-- Every cell's invariant under the names `K`, and every cell's round 0 reached: persistent, shared by all devices. -/
def records (K : Dev nD × Fin 39 → ℕ) : sProp 𝕄 :=
  iprop((bigSep Finset.univ fun ck : Dev nD × Fin 39 => cellInv ER (sched m) (K ck) (kcell ck))
    ∗ bigSep Finset.univ fun ck : Dev nD × Fin 39 => reached ER (kcell ck) 0)

instance records_persistent (K : Dev nD × Fin 39 → ℕ) : BI.Persistent (records m K) := by unfold records; infer_instance

/-- Device `c`'s positions on its own 39 cells. -/
def positions (c : Dev nD) : sProp 𝕄 :=
  iprop(atPos ER (barCell c) 0 ∅ 0
    ∗ (bigSep Finset.univ fun k : Fin 8 => atPos ER (copyCell c k) 0 ∅ 0)
    ∗ (bigSep Finset.univ fun i : Fin 15 => atPos ER (sendCell c i) 0 ∅ 0)
    ∗ (bigSep Finset.univ fun i : Fin 15 => atPos ER (recvCell c i) 0 ∅ 0))

/-- The tokens of the duties device `c` pays: on the barrier cell of the peer at offset `j` the duty `rev j` (that
    peer sees `c` at offset `rev j`); its own chunk copies and sends; on the peer at offset `i` the receive cell `i`. -/
def payToks (c : Dev nD) : sProp 𝕄 :=
  iprop((bigSep Finset.univ fun j : Fin 15 => dutyTok ER (barCell (peer c j)) 0 j.rev)
    ∗ (bigSep Finset.univ fun k : Fin 8 => dutyTok ER (copyCell c k) 0 0)
    ∗ (bigSep Finset.univ fun i : Fin 15 => dutyTok ER (sendCell c i) 0 0)
    ∗ (bigSep Finset.univ fun i : Fin 15 => dutyTok ER (recvCell (peer c i) i) 0 0))

def ghost (K : Dev nD × Fin 39 → ℕ) (c : Dev nD) : sProp 𝕄 := iprop(records m K ∗ positions c ∗ payToks c)

/-- What device `c`'s body starts from besides its buffers: the ghost state at some names, the credit its peers
    owe it (fifteen handshake units, fifteen row transfers), and the levels. -/
def start (c : Dev nD) : sProp 𝕄 :=
  iprop((∃ K, ghost m K c) ∗ cred (tallyAt (barCell c) () 15)
    ∗ (bigSep Finset.univ fun i : Fin 15 => cred (tallyAt (recvCell c i) () NR)) ∗ levAts L lv)

/-- Before the point: that, the two scratch buffers at some contents, and the device's block in HBM. -/
def Φ₀ (c : Dev nD) : sProp 𝕄 :=
  iprop(start m c
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (((c : Thread nD τ).loc main_arg0) ↦{fullShare} m ((c : Thread nD τ).loc main_arg0)))

/-- After the point: the scratch buffers at some contents, the block unchanged, the 38 own semaphores at zero again. -/
def Φ₁ (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (((c : Thread nD τ).loc main_arg0) ↦{fullShare} m ((c : Thread nD τ).loc main_arg0))
    ∗ (bigSep Finset.univ fun k : Fin 8 => semVal (copyCell c k) 0)
    ∗ (bigSep Finset.univ fun i : Fin 15 => semVal (sendCell c i) 0)
    ∗ (bigSep Finset.univ fun i : Fin 15 => semVal (recvCell c i) 0))

/-- The kernel's result on device `c`: every device's partial sum, added in `c`'s order. -/
def outAt (c : Dev nD) : (cc0_stg0_0 : Ref sig .tc).ty.Contents (Elt F) := SumValue.total (fun j => part m j) c

def dats (_ : Fin 1) (c : Dev nD) : Dat τ (Elt F) Unit ℕ UU ℕ cfg0 c where
  A w := m ((cfg0.win w).arr.view.loc (c : Thread nD τ))
  after w _ := match w with
    | ⟨0, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.Kernel.P

end
-- ==== Proof.Bits.Bridge.lean ====
/-
  Reading and writing the exchange buffer a row at a time and the chunk scratch a slab at a time: which elements an
  access touches, what a load reads from the contents a landing leaves, and that a landing's or a store's contents
  agree, on the row or slab, with the contents named in the schedule.
-/
import proofs.«901088_g7700000000001089_dist_sum_ax0_shard0_i_m4096_n1024_v7x_i16_f32_1_alg».proof.Proof.Bits.Sched
import Idealize.ShloMosaic.Lib.Pipeline.Value
import Idealize.ShloMosaic.Lib.ValueIdx
import Idealize.ShloMosaic.Lib.ValueLayout

noncomputable section

namespace Cert.Kernel.P

open Cert.Kernel Cert.Kernel.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Offsets: every row access of the body is at some device's row -/

theorem off1_eq (c : Dev nD) : k0_off1 c = k0_off2 c := by rw [k0_off1_eq, k0_off2_eq]
/-- The receive wait and the load for offset index `i` name the row of the device `off i` places before `c`. -/
theorem off3_eq (c : Dev nD) (i : Fin 15) : k0_off3 c (BitVec.ofNat 32 (1 + i.val)) = k0_off2 (peer c i.rev) := by
  rw [k0_off3_eq, k0_off2_eq]
  have hv : (peer c i.rev).val = (c.val + 15 - i.val) % 16 := by
    have hi := i.isLt
    simp only [peer, off, rot_val, Fin.val_rev]; congr 1; omega
  rw [hv]
theorem off4_eq (c : Dev nD) (i : Fin 15) : k0_off4 c (BitVec.ofNat 32 (1 + i.val)) = k0_off2 (peer c i.rev) := by
  rw [k0_off4_eq, ← off3_eq, k0_off3_eq]

/-! ## One row of the exchange buffer -/

/-- A load of the exchange buffer through the one-row rectangle at row `j`'s offsets touches row `j` only, -/
theorem row_load_sub (j : Dev nD) (o : Fin 2 → Nat) (ho : o = k0_off2 j) (inb : ∀ a, o a + S1x1024.size a ≤ S16x1024.size a) :
    (cM : Memref sig .tc .vmem S16x1024 .f32).view.setOn (Rect.unit (s := S16x1024) o S1x1024.size inb).toLoadRect.set ⊆ (rowM j).view.set := by
  subst ho
  exact (View.set_slice _ _).ge
/-- and reads what the row holds. -/
theorem row_load_read (t j : Dev nD) (v : Vec F S1x1024 .f32) (o : Fin 2 → Nat) (ho : o = k0_off2 j) (inb : ∀ a, o a + S1x1024.size a ≤ S16x1024.size a) :
    (cM : Memref sig .tc .vmem S16x1024 .f32).view.readAt (Elt F) (Rect.unit (s := S16x1024) o S1x1024.size inb).toLoadRect (rowBuf t j v) = v := by
  subst ho
  exact View.read_write_univ _ v
/-- A store through that rectangle touches row `j` only, -/
theorem row_store_sub (j : Dev nD) (o : Fin 2 → Nat) (ho : o = k0_off2 j) (inb : ∀ a, o a + S1x1024.size a ≤ S16x1024.size a) :
    ((cM : Memref sig .tc .vmem S16x1024 .f32).access (Rect.unit (s := S16x1024) o S1x1024.size inb)).setOn Finset.univ ⊆ (rowM j).view.set := by
  subst ho
  exact Finset.Subset.refl _
/-- and leaves the row holding what was stored. -/
theorem row_store_eq (t j : Dev nD) (o : Fin 2 → Nat) (ho : o = k0_off2 j) (inb : ∀ a, o a + S1x1024.size a ≤ S16x1024.size a)
    (f : Buf (Elt F) ((rowM j).view.loc (t : Thread nD τ))) (v : Vec F S1x1024 .f32) :
    ∀ x ∈ (rowM j).view.set, ((cM : Memref sig .tc .vmem S16x1024 .f32).access (Rect.unit (s := S16x1024) o S1x1024.size inb)).write (Elt F) f v Finset.univ x = rowBuf t j v x := by
  subst ho
  intro x hx
  exact View.write_congr (v := (rowM j).view) (fun _ _ _ => rfl) (fun h => absurd hx h)
/-- A row holds what was put in it. -/
theorem rowBuf_read (t j : Dev nD) (v : Vec F S1x1024 .f32) : (rowM j).view.read (Elt F) (rowBuf t j v) = v :=
  View.read_write_univ _ v
/-- A row transfer's landing: whatever the destination held, and whatever the source buffer holds in its other rows,
    row `j` of the destination ends holding the source's row `j`. -/
theorem row_land_eq (t s j : Dev nD) (fd : Buf (Elt F) ((rowM j).view.loc (t : Thread nD τ))) (fs : Buf (Elt F) ((rowM j).view.loc (s : Thread nD τ)))
    (v : Vec F S1x1024 .f32) (hfs : (rowM j).view.read (Elt F) fs = v) :
    ∀ x ∈ (rowM j).view.set, (rowM j).view.write (Elt F) fd ((rowM j).view.read (Elt F) fs) Finset.univ x = rowBuf t j v x := by
  intro x hx
  rw [hfs]
  exact View.write_congr (v := (rowM j).view) (fun _ _ _ => rfl) (fun h => absurd hx h)

/-! ## One slab of the chunk scratch -/

theorem chunk_load_sub (k : Fin 8) (inb : ∀ a, (![k.val, 0, 0] : Fin 3 → Nat) a + S1x512x1024.size a ≤ S8x512x1024.size a) :
    (bM : Memref sig .tc .vmem S8x512x1024 .f32).view.setOn (Rect.unit (s := S8x512x1024) ![k.val, 0, 0] S1x512x1024.size inb).toLoadRect.set ⊆ (chunkDst k).view.set := by
  have h1 : (chunkDst k).view.set
      = ((bM : Memref sig .tc .vmem S8x512x1024 .f32).view.slice (Rect.unit (s := S8x512x1024) ![k.val, 0, 0] S1x512x1024.size inb)).set :=
    View.set_reshape _ _
  exact (h1.trans (View.set_slice _ _)).ge
/-- The load of slab `k` after its copy landed reads rows `[512 k, 512 k + 512)` of the device's block. -/
theorem chunk_load_read (t : Dev nD) (k : Fin 8) (inb : ∀ a, (![k.val, 0, 0] : Fin 3 → Nat) a + S1x512x1024.size a ≤ S8x512x1024.size a) :
    (bM : Memref sig .tc .vmem S8x512x1024 .f32).view.readAt (Elt F) (Rect.unit (s := S8x512x1024) ![k.val, 0, 0] S1x512x1024.size inb).toLoadRect (chunkBuf m t k)
      = SumValue.chunk (blockOf m t) k := by
  funext x
  obtain ⟨u, i, j, rfl⟩ : ∃ (u : Fin 1) (i : Fin 512) (j : Fin 1024), x = ix3 u i j := ⟨x 0, x 1, x 2, eq_ix3 x⟩
  obtain rfl : u = ⟨0, Nat.one_pos⟩ := Subsingleton.elim _ _
  have hidx : (chunkSrc k).view.emb (ix2 i j)
      = ix2 (⟨512 * k.val + i.val, by have := k.isLt; have := i.isLt; omega⟩ : Fin 4096) (⟨j.val, j.isLt⟩ : Fin 1024) := by
    funext a
    refine Fin.ext ?_
    match a with
    | ⟨0, _⟩ => show 512 * k.val + 1 * i.val = 512 * k.val + i.val; omega
    | ⟨1, _⟩ => show 0 + 1 * j.val = j.val; omega
  have h1 : (bM : Memref sig .tc .vmem S8x512x1024 .f32).view.readAt (Elt F) (Rect.unit (s := S8x512x1024) ![k.val, 0, 0] S1x512x1024.size inb).toLoadRect (chunkBuf m t k) (ix3 ⟨0, Nat.one_pos⟩ i j)
      = (chunkDst k).view.read (Elt F) (chunkBuf m t k) (ix2 i j) :=
    (congrArg (((bM : Memref sig .tc .vmem S8x512x1024 .f32).view.slice (Rect.unit (s := S8x512x1024) ![k.val, 0, 0] S1x512x1024.size inb)).read (Elt F) (chunkBuf m t k))
      (reshapeEquiv_ix2_1ab _ i j)).symm
  have h2 : (chunkDst k).view.read (Elt F) (chunkBuf m t k) (ix2 i j)
      = (chunkSrc k).view.read (Elt F) (m ((t : Thread nD τ).loc main_arg0)) (ix2 i j) :=
    View.read_write_of_mem _ _ (Finset.mem_univ _)
  have h3 : (chunkSrc k).view.read (Elt F) (m ((t : Thread nD τ).loc main_arg0)) (ix2 i j)
      = SumValue.chunk (blockOf m t) k (ix3 ⟨0, Nat.one_pos⟩ i j) :=
    congrArg (m ((t : Thread nD τ).loc main_arg0)) hidx
  exact h1.trans (h2.trans h3)
/-- A chunk copy's landing: whatever the slab held, it ends holding the chunk. -/
theorem chunk_land_eq (t : Dev nD) (k : Fin 8) (fd : Buf (Elt F) ((chunkDst k).view.loc (t : Thread nD τ))) :
    ∀ x ∈ (chunkDst k).view.set, (chunkDst k).view.write (Elt F) fd ((chunkSrc k).view.read (Elt F) (xBuf m t k)) Finset.univ x = chunkBuf m t k x := by
  intro x hx
  exact View.write_congr (v := (chunkDst k).view) (fun _ _ _ => rfl) (fun h => absurd hx h)

/-! ## Contents that agree on the owned elements are the same assertion -/

theorem pts_congr (ℓ : Loc nD τ sig) (I : Finset (Idx ℓ)) (q : PosShare TreeShare) (f g : Buf (Elt F) ℓ) (h : ∀ x ∈ I, f x = g x) :
    ((ℓ ↦[I]{q} f : sProp 𝕄)) = (ℓ ↦[I]{q} g) :=
  Region.is_congr h

end Cert.Kernel.P

end
-- ==== Proof.Bits.Split.lean ====
/-
  Cutting the device's buffers along the protocol's lines and putting them together again: the exchange buffer into
  its sixteen rows, a row into the fifteen shares lent to the transfers, the chunk scratch into its eight slabs, the
  block in HBM into its eight row ranges; and the sixteen devices into one of them and its fifteen peers.
-/
import proofs.«901088_g7700000000001089_dist_sum_ax0_shard0_i_m4096_n1024_v7x_i16_f32_1_alg».proof.Proof.Bits.Sched

noncomputable section

namespace Cert.Kernel.P

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Small index sets spelt out -/

theorem bigSep_fin15 (Φ : Fin 15 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-! ## A device and its fifteen peers are all sixteen devices -/

/-- The fifteen peers of a device are exactly the devices other than it: they are fifteen different devices, none
    of them the device itself, and there are only fifteen others. -/
private theorem peers_eq (c : Dev nD) :
    (Finset.univ : Finset (Fin 15)).map ⟨peer c, fun _ _ h => peer_inj c h⟩ = Finset.univ.erase c := by
  refine Finset.eq_of_subset_of_card_le (fun x hx => ?_) ?_
  · obtain ⟨i, -, rfl⟩ := Finset.mem_map.mp hx
    exact Finset.mem_erase.mpr ⟨peer_ne c i, Finset.mem_univ _⟩
  · rw [Finset.card_map, Finset.card_erase_of_mem (Finset.mem_univ c), Finset.card_univ, Finset.card_univ,
      Fintype.card_fin, Fintype.card_fin]
    decide

theorem dev_split (c : Dev nD) (Φ : Dev nD → sProp 𝕄) :
    bigSep Finset.univ Φ ⊣⊢ iprop(Φ c ∗ bigSep Finset.univ fun i : Fin 15 => Φ (peer c i)) := by
  rw [bigSep_univ_split c, ← peers_eq c, bigSep_map]
  exact .rfl
theorem dev_split_rev (c : Dev nD) (Φ : Dev nD → sProp 𝕄) :
    bigSep Finset.univ Φ ⊣⊢ iprop(Φ c ∗ bigSep Finset.univ fun i : Fin 15 => Φ (peer c i.rev)) :=
  (dev_split c Φ).trans (.of_eq (congrArg (fun X : sProp 𝕄 => iprop(Φ c ∗ X))
    (bigSep_univ_equiv Fin.revPerm fun i : Fin 15 => Φ (peer c i))))

/-! ## A buffer cut along a family of disjoint element sets -/

section Cut

variable {ℓ : Loc nD τ sig} {T : Type} [DecidableEq T]

/-- Members of a pairwise disjoint family are disjoint from the union of the others. -/
private theorem disjoint_biUnion_rest {t : T} {S : Finset T} (ht : t ∉ S) (K : T → Finset (Idx ℓ))
    (hd : ∀ a ∈ insert t S, ∀ b ∈ insert t S, a ≠ b → Disjoint (K a) (K b)) : Disjoint (K t) (S.biUnion K) :=
  (Finset.disjoint_biUnion_right _ _ _).mpr fun b hb =>
    hd t (Finset.mem_insert_self _ _) b (Finset.mem_insert_of_mem hb) fun e => ht (e ▸ hb)

/-- The members of a pairwise disjoint family of element sets, each held with contents of its own, make the
    union held with some contents: the contents that agree with each member's on its set. -/
private theorem pointsTo_glue (S : Finset T) (K : T → Finset (Idx ℓ)) (q : PosShare TreeShare) (f₀ : Buf (Elt F) ℓ)
    (hd : ∀ a ∈ S, ∀ b ∈ S, a ≠ b → Disjoint (K a) (K b)) :
    (bigSep S fun t => iprop(∃ f, ℓ ↦[K t]{q} f) : sProp 𝕄) ⊢ iprop(∃ f, ℓ ↦[S.biUnion K]{q} f) := by
  induction S using Finset.induction_on with
  | empty =>
    rw [bigSep_empty, Finset.biUnion_empty]
    exact (Entails.of_eq pointsTo_empty.symm).trans (exists_intro f₀)
  | insert t S ht ih =>
    rw [bigSep_insert ht, Finset.biUnion_insert]
    have hd' := disjoint_biUnion_rest ht K hd
    show iprop((∃ f, ℓ ↦[K t]{q} f) ∗ bigSep S fun t => iprop(∃ f, ℓ ↦[K t]{q} f)) ⊢ _
    iintro ⟨⟨%f, Ht⟩, HS⟩
    ihave H := (ih fun a ha b hb => hd a (Finset.mem_insert_of_mem ha) b (Finset.mem_insert_of_mem hb)) $$ HS
    icases H with ⟨%g, HS⟩
    iexists (S.biUnion K).piecewise g f
    iapply (pointsTo_join hd')
    isplitl [Ht]
    · iexact Ht
    · iexact HS

/-- A union of pairwise disjoint element sets held with some contents is its members each held with some contents. -/
private theorem pointsTo_cut (S : Finset T) (K : T → Finset (Idx ℓ)) (q : PosShare TreeShare)
    (hd : ∀ a ∈ S, ∀ b ∈ S, a ≠ b → Disjoint (K a) (K b)) :
    (iprop(∃ f, ℓ ↦[S.biUnion K]{q} f) : sProp 𝕄) ⊢ bigSep S fun t => iprop(∃ f, ℓ ↦[K t]{q} f) := by
  refine exists_elim fun f => ?_
  rw [pointsTo_biUnion S K hd]
  refine bigSep_mono fun t _ => ?_
  show (ℓ ↦[K t]{q} f : sProp 𝕄) ⊢ iprop(∃ f, ℓ ↦[K t]{q} f)
  iintro H
  iexists f
  iexact H

end Cut

/-! ## The rows, slabs and row ranges as element sets -/

/-- Row `j` of the 16 × 1024 buffer, as a rectangle. -/
private abbrev rowR (j : Dev nD) : Rect S16x1024 := Rect.unit (s := S16x1024) (k0_off2 j) S1x1024.size (k0_off2_inb j)

private theorem row_set (j : Dev nD) : (rowM j).view.set = (rowR j).set := View.set_slice_whole cc0_scratch1 _

private theorem rowR_disjoint {j j' : Dev nD} (h : j ≠ j') : Disjoint (rowR j).set (rowR j').set := by
  refine Rect.unit_disjoint (0 : Fin 2) ?_
  rw [k0_off2_eq, k0_off2_eq]
  have := Fin.val_ne_of_ne h
  show j.val + 1 ≤ j'.val ∨ j'.val + 1 ≤ j.val
  omega

private theorem rowR_cover : (Finset.univ : Finset (Dev nD)).biUnion (fun j => (rowR j).set) = Finset.univ := by
  ext x
  simp only [Finset.mem_biUnion, Finset.mem_univ, true_and, iff_true]
  refine ⟨⟨(x 0).val, (x 0).isLt⟩, Rect.mem_set_unit.mpr ?_⟩
  rw [k0_off2_eq]
  refine Fin.forall_fin_two.mpr ⟨⟨Nat.le_refl _, Nat.lt_succ_self _⟩, Nat.zero_le _, ?_⟩
  exact (Nat.zero_add _).symm ▸ (x 1).isLt

/-- Slab `k` of the 8 × 512 × 1024 buffer, as a rectangle. -/
private abbrev slabR (k : Fin 8) : Rect S8x512x1024 := Rect.unit (s := S8x512x1024) ![k.val, 0, 0] S1x512x1024.size (chunkDst_inb k)

private theorem slab_set (k : Fin 8) : (chunkDst k).view.set = (slabR k).set :=
  (View.set_reshape _ _).trans (View.set_slice_whole cc0_scratch0 _)

private theorem slabR_disjoint {k k' : Fin 8} (h : k ≠ k') : Disjoint (slabR k).set (slabR k').set := by
  refine Rect.unit_disjoint (0 : Fin 3) ?_
  have := Fin.val_ne_of_ne h
  show k.val + 1 ≤ k'.val ∨ k'.val + 1 ≤ k.val
  omega

private theorem slabR_cover : (Finset.univ : Finset (Fin 8)).biUnion (fun k => (slabR k).set) = Finset.univ := by
  ext x
  simp only [Finset.mem_biUnion, Finset.mem_univ, true_and, iff_true]
  refine ⟨⟨(x 0).val, (x 0).isLt⟩, Rect.mem_set_unit.mpr ?_⟩
  refine Fin.forall_fin_succ.mpr ⟨⟨Nat.le_refl _, Nat.lt_succ_self _⟩, Fin.forall_fin_two.mpr ⟨⟨Nat.zero_le _, ?_⟩, Nat.zero_le _, ?_⟩⟩
  · exact (Nat.zero_add _).symm ▸ (x 1).isLt
  · exact (Nat.zero_add _).symm ▸ (x 2).isLt

/-- Rows `[512 k, 512 k + 512)` of the 4096 × 1024 block, as a rectangle. -/
private abbrev xrowR (k : Fin 8) : Rect S4096x1024 := Rect.unit (s := S4096x1024) ![512 * k.val, 0] S512x1024.size (chunkSrc_inb k)

private theorem xrow_set (k : Fin 8) : (chunkSrc k).view.set = (xrowR k).set := View.set_slice_whole main_arg0 _

private theorem xrowR_disjoint {k k' : Fin 8} (h : k ≠ k') : Disjoint (xrowR k).set (xrowR k').set := by
  refine Rect.unit_disjoint (0 : Fin 2) ?_
  have := Fin.val_ne_of_ne h
  show 512 * k.val + 512 ≤ 512 * k'.val ∨ 512 * k'.val + 512 ≤ 512 * k.val
  omega

private theorem xrowR_cover : (Finset.univ : Finset (Fin 8)).biUnion (fun k => (xrowR k).set) = Finset.univ := by
  ext x
  simp only [Finset.mem_biUnion, Finset.mem_univ, true_and, iff_true]
  have hx : (x 0).val < 4096 := (x 0).isLt
  refine ⟨⟨(x 0).val / 512, by omega⟩, Rect.mem_set_unit.mpr ?_⟩
  refine Fin.forall_fin_two.mpr ⟨?_, Nat.zero_le _, ?_⟩
  · show 512 * ((x 0).val / 512) ≤ (x 0).val ∧ (x 0).val < 512 * ((x 0).val / 512) + 512
    omega
  · exact (Nat.zero_add _).symm ▸ (x 1).isLt

/-! ## The exchange buffer by rows, a row by shares -/

theorem rows_split (t : Dev nD) :
    iprop(∃ f : Buf (Elt F) ((t : Thread nD τ).loc cc0_scratch1), ((t : Thread nD τ).loc cc0_scratch1) ↦{fullShare} f)
      ⊢ (bigSep Finset.univ fun j : Dev nD => iprop(∃ f, rowPts t j fullShare f) : sProp 𝕄) := by
  have h := pointsTo_cut (F := F) (ℓ := (t : Thread nD τ).loc cc0_scratch1) Finset.univ (fun j : Dev nD => (rowR j).set) fullShare
    (fun a _ b _ hab => rowR_disjoint hab)
  rw [rowR_cover] at h
  refine h.trans (Entails.of_eq (bigSep_congr fun j _ => ?_))
  rw [← row_set]; rfl
theorem rows_join (t : Dev nD) :
    (bigSep Finset.univ fun j : Dev nD => iprop(∃ f, rowPts t j fullShare f) : sProp 𝕄)
      ⊢ iprop(∃ f : Buf (Elt F) ((t : Thread nD τ).loc cc0_scratch1), ((t : Thread nD τ).loc cc0_scratch1) ↦{fullShare} f) := by
  have h := pointsTo_glue (F := F) (ℓ := (t : Thread nD τ).loc cc0_scratch1) Finset.univ (fun j : Dev nD => (rowR j).set) fullShare
    (View.junk cM.view) (fun a _ b _ hab => rowR_disjoint hab)
  rw [rowR_cover] at h
  refine (Entails.of_eq (bigSep_congr fun j _ => ?_)).trans h
  rw [← row_set]; rfl

/-- Halving a share `k` times to the right, keeping each left half: the pieces of a family of assertions indexed by shares. -/
private def chain (P : PosShare TreeShare → sProp 𝕄) : ℕ → PosShare TreeShare → sProp 𝕄
  | 0, q => P q
  | k + 1, q => iprop(P q.left ∗ chain P k q.right)

/-- A family that splits along the two halves of every share splits along the whole chain. -/
private theorem chain_eq (P : PosShare TreeShare → sProp 𝕄) (hP : ∀ q, P q = iprop(P q.left ∗ P q.right)) :
    ∀ (k : ℕ) (q : PosShare TreeShare), P q = chain P k q
  | 0, q => rfl
  | k + 1, q => by
    rw [hP q, chain_eq P hP k q.right]; rfl

/-- A row at a share is the row at the share's left half and at its right half. -/
private theorem row_halves (t j : Dev nD) (f : Buf (Elt F) ((rowM j).view.loc (t : Thread nD τ))) (q : PosShare TreeShare) :
    (rowPts t j q f : sProp 𝕄) = iprop(rowPts t j q.left f ∗ rowPts t j q.right f) :=
  have h : (rowPts t j q f : sProp 𝕄) ⊣⊢ iprop(rowPts t j q.left f ∗ rowPts t j q.right f) :=
    pointsTo_share (PosShare.mem_left_op_right q)
  equiv_iff.mp ⟨h.1, h.2⟩

private theorem shareOf_lt (i : Fin 15) (h : i.val < 14) : shareOf i = (rightN i.val).left := if_pos h
private theorem shareOf_last : shareOf 14 = rightN 14 := if_neg (by decide)

theorem shares_split (t j : Dev nD) (f : Buf (Elt F) ((rowM j).view.loc (t : Thread nD τ))) :
    rowPts t j fullShare f ⊣⊢ (bigSep Finset.univ fun i : Fin 15 => rowPts t j (shareOf i) f : sProp 𝕄) := by
  rw [bigSep_fin15, shareOf_lt 0 (by decide), shareOf_lt 1 (by decide), shareOf_lt 2 (by decide), shareOf_lt 3 (by decide),
    shareOf_lt 4 (by decide), shareOf_lt 5 (by decide), shareOf_lt 6 (by decide), shareOf_lt 7 (by decide), shareOf_lt 8 (by decide),
    shareOf_lt 9 (by decide), shareOf_lt 10 (by decide), shareOf_lt 11 (by decide), shareOf_lt 12 (by decide), shareOf_lt 13 (by decide),
    shareOf_last]
  exact .of_eq (chain_eq (fun q => rowPts t j q f) (row_halves t j f) 14 fullShare)

/-! ## The chunk scratch by slabs, the block in HBM by row ranges -/

theorem slabs_split (t : Dev nD) :
    iprop(∃ f : Buf (Elt F) ((t : Thread nD τ).loc cc0_scratch0), ((t : Thread nD τ).loc cc0_scratch0) ↦{fullShare} f)
      ⊢ (bigSep Finset.univ fun k : Fin 8 => iprop(∃ f, (chunkDst k).view.loc (t : Thread nD τ) ↦[(chunkDst k).view.set]{fullShare} f) : sProp 𝕄) := by
  have h := pointsTo_cut (F := F) (ℓ := (t : Thread nD τ).loc cc0_scratch0) Finset.univ (fun k : Fin 8 => (slabR k).set) fullShare
    (fun a _ b _ hab => slabR_disjoint hab)
  rw [slabR_cover] at h
  refine h.trans (Entails.of_eq (bigSep_congr fun k _ => ?_))
  rw [← slab_set]; rfl
theorem slabs_join (t : Dev nD) :
    (bigSep Finset.univ fun k : Fin 8 => iprop(∃ f, (chunkDst k).view.loc (t : Thread nD τ) ↦[(chunkDst k).view.set]{fullShare} f) : sProp 𝕄)
      ⊢ iprop(∃ f : Buf (Elt F) ((t : Thread nD τ).loc cc0_scratch0), ((t : Thread nD τ).loc cc0_scratch0) ↦{fullShare} f) := by
  have h := pointsTo_glue (F := F) (ℓ := (t : Thread nD τ).loc cc0_scratch0) Finset.univ (fun k : Fin 8 => (slabR k).set) fullShare
    (View.junk bM.view) (fun a _ b _ hab => slabR_disjoint hab)
  rw [slabR_cover] at h
  refine (Entails.of_eq (bigSep_congr fun k _ => ?_)).trans h
  rw [← slab_set]; rfl
theorem xrows_split (t : Dev nD) :
    (((t : Thread nD τ).loc main_arg0) ↦{fullShare} m ((t : Thread nD τ).loc main_arg0) : sProp 𝕄)
      ⊣⊢ (bigSep Finset.univ fun k : Fin 8 => ((chunkSrc k).view.loc (t : Thread nD τ) ↦[(chunkSrc k).view.set]{fullShare} xBuf m t k) : sProp 𝕄) := by
  have h : (((t : Thread nD τ).loc main_arg0) ↦[Finset.univ.biUnion fun k : Fin 8 => (xrowR k).set]{fullShare} m ((t : Thread nD τ).loc main_arg0) : sProp 𝕄)
      = bigSep Finset.univ fun k : Fin 8 => ((t : Thread nD τ).loc main_arg0) ↦[(xrowR k).set]{fullShare} m ((t : Thread nD τ).loc main_arg0) :=
    pointsTo_biUnion Finset.univ _ fun a _ b _ hab => xrowR_disjoint hab
  rw [xrowR_cover] at h
  refine .of_eq (h.trans (bigSep_congr fun k _ => ?_))
  rw [← xrow_set]; rfl

end Cert.Kernel.P

end
-- ==== Proof.Bits.Steps.lean ====
/-
  One rule per kind of step of the body, at a symbolic device and a symbolic offset: a handshake signal, a chunk
  copy and its wait, the wait for the fifteen handshake units, a row transfer, the wait for its departure and the
  wait for a peer's row; and the closing of a device's own cells at the end.
-/
import proofs.«901088_g7700000000001089_dist_sum_ax0_shard0_i_m4096_n1024_v7x_i16_f32_1_alg».proof.Proof.Bits.Ghost
import proofs.«901088_g7700000000001089_dist_sum_ax0_shard0_i_m4096_n1024_v7x_i16_f32_1_alg».proof.Proof.Bits.Bridge
import proofs.«901088_g7700000000001089_dist_sum_ax0_shard0_i_m4096_n1024_v7x_i16_f32_1_alg».proof.Proof.Bits.Split

noncomputable section

namespace Cert.Kernel.P

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Reading the shared records -/

theorem inv_at (K : Dev nD × Fin 39 → ℕ) (ck : Dev nD × Fin 39) : records m K ⊢ cellInv ER (sched m) (K ck) (kcell ck) := by
  unfold records; iintro ⟨HI, -⟩
  iapply (show (bigSep Finset.univ fun ck : Dev nD × Fin 39 => (cellInv ER (sched m) (K ck) (kcell ck) : sProp 𝕄)) ⊢ cellInv ER (sched m) (K ck) (kcell ck)
    from bigSep_elim (Finset.mem_univ ck))
  iexact HI
theorem reached_at (K : Dev nD × Fin 39 → ℕ) (ck : Dev nD × Fin 39) : records m K ⊢ reached ER (kcell ck) 0 := by
  unfold records; iintro ⟨-, HR⟩
  iapply (show (bigSep Finset.univ fun ck : Dev nD × Fin 39 => (reached ER (kcell ck) 0 : sProp 𝕄)) ⊢ reached ER (kcell ck) 0
    from bigSep_elim (Finset.mem_univ ck))
  iexact HR

theorem kcell_bar (c : Dev nD) : kcell (c, 0) = barCell c := rfl
theorem kcell_copy (c : Dev nD) (k : Fin 8) : kcell (c, ixCopy k) = copyCell c k := by show (_, csem _) = _; rw [csem_copy]
theorem kcell_send (c : Dev nD) (i : Fin 15) : kcell (c, ixSend i) = sendCell c i := by show (_, csem _) = _; rw [csem_send]
theorem kcell_recv (c : Dev nD) (i : Fin 15) : kcell (c, ixRecv i) = recvCell c i := by show (_, csem _) = _; rw [csem_recv]

theorem inv_bar (K : Dev nD × Fin 39 → ℕ) (c : Dev nD) : records m K ⊢ cellInv ER (sched m) (K (c, 0)) (barCell c) := inv_at m K (c, 0)
theorem inv_copy (K : Dev nD × Fin 39 → ℕ) (c : Dev nD) (k : Fin 8) : records m K ⊢ cellInv ER (sched m) (K (c, ixCopy k)) (copyCell c k) := by
  have h := inv_at m K (c, ixCopy k); rwa [kcell_copy] at h
theorem inv_send (K : Dev nD × Fin 39 → ℕ) (c : Dev nD) (i : Fin 15) : records m K ⊢ cellInv ER (sched m) (K (c, ixSend i)) (sendCell c i) := by
  have h := inv_at m K (c, ixSend i); rwa [kcell_send] at h
theorem inv_recv (K : Dev nD × Fin 39 → ℕ) (c : Dev nD) (i : Fin 15) : records m K ⊢ cellInv ER (sched m) (K (c, ixRecv i)) (recvCell c i) := by
  have h := inv_at m K (c, ixRecv i); rwa [kcell_recv] at h
theorem reached_bar (K : Dev nD × Fin 39 → ℕ) (c : Dev nD) : records m K ⊢ reached ER (barCell c) 0 := reached_at m K (c, 0)
theorem reached_copy (K : Dev nD × Fin 39 → ℕ) (c : Dev nD) (k : Fin 8) : records m K ⊢ reached ER (copyCell c k) 0 := by
  have h := reached_at m K (c, ixCopy k); rwa [kcell_copy] at h
theorem reached_send (K : Dev nD × Fin 39 → ℕ) (c : Dev nD) (i : Fin 15) : records m K ⊢ reached ER (sendCell c i) 0 := by
  have h := reached_at m K (c, ixSend i); rwa [kcell_send] at h
theorem reached_recv (K : Dev nD × Fin 39 → ℕ) (c : Dev nD) (i : Fin 15) : records m K ⊢ reached ER (recvCell c i) 0 := by
  have h := reached_at m K (c, ixRecv i); rwa [kcell_recv] at h

/-! ## What is owed, one tally peeled off -/

theorem owed_peel_bar (c : Dev nD) (Sr Sb : Finset (Fin 15)) (j : Fin 15) (hj : j ∈ Sb) :
    owedOf c Sr Sb = owedOf c Sr (Sb.erase j) + tallyAt (barCell (peer c j)) () 1 := by
  unfold owedOf; rw [← Finset.sum_erase_add _ _ hj, add_assoc]
theorem owed_peel_recv (c : Dev nD) (Sr Sb : Finset (Fin 15)) (i : Fin 15) (hi : i ∈ Sr) :
    owedOf c Sr Sb = owedOf c (Sr.erase i) Sb + tallyAt (recvCell (peer c i) i) () NR := by
  unfold owedOf; rw [← Finset.sum_erase_add _ _ hi, add_right_comm]
theorem owed_empty (c : Dev nD) : owedOf c ∅ ∅ = 0 := by unfold owedOf; rw [Finset.sum_empty, Finset.sum_empty, add_zero]

/-! ## The levels: a wait below level 2 while only row transfers are owed -/

theorem L_tc (c : Dev nD) (sm : SemLoc sig) : L ((c : Thread nD τ), sm) = {()} := if_pos rfl
theorem L_of_ne (g : GSem nD τ sig) (h : g.1.2 ≠ .tc) : L g = ∅ := if_neg h

theorem mayWait_owing_rows (c : Dev nD) (sm : SemLoc sig) (hlv : lv ((c : Thread nD τ), sm) () < 2) (Sr : Finset (Fin 15)) :
    (levAts L lv : sProp 𝕄) ⊢ MayWait (c : Thread nD τ) sm () (owedOf c Sr ∅) :=
  Pipeline.mayWait_of_levAts (by rw [L_tc]; exact Finset.mem_singleton_self _) fun g u h => by
    unfold owedOf at h; rw [Finset.sum_empty, add_zero] at h
    obtain ⟨i, -, hi⟩ := Pipeline.sum_pos_exists h
    rw [tallyAt_apply] at hi
    by_cases hh : g = recvCell (peer c i) i ∧ u = ()
    · rw [hh.1]
      refine ⟨by rw [L_tc]; exact Finset.mem_singleton_self _, lt_of_lt_of_le hlv ?_⟩
      show 2 ≤ lv (recvCell (peer c i) i) u
      dsimp only [lv]; rw [kind_recv]
    · rw [if_neg hh] at hi; exact absurd hi (lt_irrefl 0)

section Rules

variable (K : Dev nD × Fin 39 → ℕ) (c : Dev nD)

/-! ## The handshake signal to the peer at offset `j` -/

theorem step_signal {α : Type} {Q : α → sProp 𝕄} {kont : PUnit → Prog (TpuEff nD τ sig (Elt F) Λ₀ .tc) α} (j : Fin 15) (Sr Sb : Finset (Fin 15)) (hj : j ∈ Sb) (n : Dev nD) (hn : n = peer c j) (W : Waits sig Unit)
    (f : Buf (Elt F) ((rowM (peer c j)).view.loc (c : Thread nD τ))) :
    iprop(records m K ∗ owes (c : Thread nD τ) (owedOf c Sr Sb) W ∗ dutyTok ER (barCell (peer c j)) 0 j.rev ∗ rowPts c (peer c j) fullShare f)
      ⊢ iprop((owes (c : Thread nD τ) (owedOf c Sr (Sb.erase j)) W -∗ wp frame (wpE (defs₀ (F := F)) 𝒱₀ (c : Thread nD τ) none) Set.univ (kont ⟨⟩) Q)
          -∗ wp frame (wpE (defs₀ (F := F)) 𝒱₀ (c : Thread nD τ) none) Set.univ (.op (.semSignal (n : Thread nD τ) barS 1) kont) Q) := by
  subst hn
  iintro ⟨#Hrec, HO, Htok, Hrow⟩
  ihave HI := (inv_bar m K (peer c j)) $$ Hrec
  ihave Hr := (reached_bar m K (peer c j)) $$ Hrec
  ihave Hrv := (reached_recv m K c j.rev) $$ Hrec
  iapply (Rounds.wp_signal 𝒱₀ ER (sched m) (c : Thread nD τ) none (dst := (peer c j : Thread nD τ)) (κ := K (peer c j, 0))
      (d := j.rev) (by rw [duties_bar]; exact Finset.mem_univ _) (amount_bar m (peer c j) j.rev) () (owedOf c Sr (Sb.erase j))
      (owed_peel_bar c Sr Sb j hj))
  isplitr; · iexact HI
  isplitl [HO]; · iexact HO
  isplitl [Htok]; · iexact Htok
  isplitl [Hrow]
  · rw [payload_bar]; unfold barPay; rw [peer_peer_rev]
    isplitl [Hrow]; · iexists f; iexact Hrow
    iexact Hrv
  · iexact Hr

end Rules

section Rules2

variable (K : Dev nD × Fin 39 → ℕ) (c : Dev nD)

/-! ## The copy of chunk `k` into its slab -/

theorem step_copy {α : Type} {Q : α → sProp 𝕄} {kont : PUnit → Prog (TpuEff nD τ sig (Elt F) Λ₀ .tc) α} (k : Fin 8) (fd : Buf (Elt F) ((chunkDst k).view.loc (c : Thread nD τ)))
    {hsrc : (chunkSrc k).view.WordExact} {hdst : (chunkDst k).view.WordExact}
    {hsem : DmaTarget.Typed (nD := nD) .hbm (.dma (copySem k)) (DmaTarget.here (p := (c : Thread nD τ).2) (chunkDst k))} :
    iprop(records m K ∗ ((chunkSrc k).view.loc (c : Thread nD τ) ↦[(chunkSrc k).view.set]{fullShare} xBuf m c k)
        ∗ ((chunkDst k).view.loc (c : Thread nD τ) ↦[(chunkDst k).view.set]{fullShare} fd) ∗ dutyTok ER (copyCell c k) 0 0)
      ⊢ iprop((cred (tallyAt (copyCell c k) () NC) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (chunkSrc k) (DmaTarget.here (p := (c : Thread nD τ).2) (chunkDst k)) (.dma (copySem k)) hsrc hdst hsem) kont) Q) := by
  iintro ⟨#Hrec, Hs, Hd, Htok⟩
  ihave HI := (inv_copy m K c k) $$ Hrec
  ihave Hr := (reached_copy m K c k) $$ Hrec
  iapply (Rounds.wp_copy_pointsTo 𝒱₀ ER (sched m) (c : Thread nD τ) none (κ := K (c, ixCopy k)) (r := 0) (d := 0) (fd := fd) (fs := xBuf m c k)
      (by rw [duties_copy]; exact Finset.mem_singleton_self _) () NC rfl (amount_copy m c k 0)
      (by rw [payload_copy]; unfold copyPay
          exact sep_mono_left (Entails.of_eq (pts_congr _ _ _ _ _ (chunk_land_eq m c k fd)))))
  isplitr; · iexact HI
  isplitl [Hs]; · iexact Hs
  isplitl [Hd]; · iexact Hd
  isplitl [Htok]; · iexact Htok
  iexact Hr

/-! ## A wait for the whole round of one of the device's own cells -/

theorem step_wait_gen {α : Type} {Q : α → sProp 𝕄} {kont : PUnit → Prog (TpuEff nD τ sig (Elt F) Λ₀ .tc) α} (sm : SemLoc sig) (κ : ℕ) (hinv : records m K ⊢ cellInv ER (sched m) κ ((c : Thread nD τ), sm))
    (n : ℕ) (hexp : (sched m).expect ((c : Thread nD τ), sm) 0 = n)
    (P : sProp 𝕄) (hrest : bigSep ((sched m).duties ((c : Thread nD τ), sm) 0 \ ∅) (fun d => (sched m).payload ((c : Thread nD τ), sm) 0 d) = P)
    (O : CellTallies nD τ sig Unit) (hmay : (levAts L lv : sProp 𝕄) ⊢ MayWait (c : Thread nD τ) sm () O) (W : Waits sig Unit)
    {w : TpuEff nD τ sig (Elt F) Λ₀ .tc PUnit}
    (hw : ∀ Kk : PUnit → sProp 𝕄, wpE (defs₀ (F := F)) 𝒱₀ (c : Thread nD τ) none Set.univ w Kk = waitSpec (c : Thread nD τ) Set.univ sm n Kk) :
    iprop(records m K ∗ levAts L lv ∗ cred (tallyAt ((c : Thread nD τ), sm) () n) ∗ owes (c : Thread nD τ) O W ∗ atPos ER ((c : Thread nD τ), sm) 0 ∅ 0)
      ⊢ iprop(((owes (c : Thread nD τ) O (insert (sm, ()) W) ∗ atPos ER ((c : Thread nD τ), sm) 1 ∅ 0 ∗ P)
            -∗ wp frame (wpE (defs₀ (F := F)) 𝒱₀ (c : Thread nD τ) none) Set.univ (kont ⟨⟩) Q)
          -∗ wp frame (wpE (defs₀ (F := F)) 𝒱₀ (c : Thread nD τ) none) Set.univ (.op w kont) Q) := by
  iintro ⟨#Hrec, #Hlev, Hc, HO, Hat⟩ Hk
  ihave HI := hinv $$ Hrec
  iapply (Rounds.wp_wait_rest_token 𝒱₀ ER (sched m) (c : Thread nD τ) none (κ := κ) hw (Set.mem_univ _) () (O := O) (W := W) (R := 0) (m := 0) (T := ∅)
      (by rw [Nat.zero_add, hexp])) $$ [Hc HO Hat]
  · isplitr; · iexact HI
    isplitl [Hc]; · iexact Hc
    isplitl [HO]; · iexact HO
    isplitr; · iapply hmay; iexact Hlev
    iexact Hat
  iintro ⟨HO, Hat, -, Hpay⟩
  iapply Hk
  isplitl [HO]; · iexact HO
  isplitl [Hat]; · iexact Hat
  rw [← hrest]; iexact Hpay

theorem mayWait_nothing (sm : SemLoc sig) : (levAts L lv : sProp 𝕄) ⊢ MayWait (c : Thread nD τ) sm () (owedOf c ∅ ∅) := by
  rw [owed_empty, MayWait_zero]; iintro -; iempintro

/-! ## The transfer of the device's own row to the peer at offset `i` -/

theorem step_send {α : Type} {Q : α → sProp 𝕄} {kont : PUnit → Prog (TpuEff nD τ sig (Elt F) Λ₀ .tc) α} (i : Fin 15) (Sr : Finset (Fin 15)) (hi : i ∈ Sr) (n : Dev nD) (hn : n = peer c i) (W : Waits sig Unit)
    (fd : Buf (Elt F) ((rowM c).view.loc (peer c i : Thread nD τ)))
    {hsc : (rowM c : Memref sig (Dev.tc n : Thread nD τ).2.kind .vmem S1x1024 .f32).view.ref.isScScratch = false}
    {hsrc : (rowM c).view.WordExact} {hdst : (rowM c).view.WordExact}
    {hsem : DmaTarget.Typed .vmem (.dma (recvSem i)) (.remote (Dev.tc n : Thread nD τ) (rowM c) (.dma (sendSem i)) hsc)} :
    iprop(records m K ∗ rowPts c c (shareOf i) (rowBuf c c (part m c)) ∗ rowPts (peer c i) c fullShare fd
        ∗ owes (c : Thread nD τ) (owedOf c Sr ∅) W ∗ dutyTok ER (sendCell c i) 0 0 ∗ dutyTok ER (recvCell (peer c i) i) 0 0)
      ⊢ iprop(((cred (tallyAt (sendCell c i) () NR) ∗ owes (c : Thread nD τ) (owedOf c (Sr.erase i) ∅) W)
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (rowM c) (.remote (Dev.tc n : Thread nD τ) (rowM c) (.dma (sendSem i)) hsc) (.dma (recvSem i)) hsrc hdst hsem) kont) Q) := by
  subst hn
  iintro ⟨#Hrec, Hs, Hd, HO, HtS, HtR⟩
  ihave HIs := (inv_send m K c i) $$ Hrec
  ihave HIr := (inv_recv m K (peer c i) i) $$ Hrec
  ihave Hrs := (reached_send m K c i) $$ Hrec
  ihave Hrr := (reached_recv m K (peer c i) i) $$ Hrec
  unfold rowPts
  iapply (Rounds.wp_send_pointsTo 𝒱₀ ER (sched m) (c : Thread nD τ) none (κ₁ := K (c, ixSend i)) (κ₂ := K (peer c i, ixRecv i))
      (r₁ := 0) (r₂ := 0) (d₁ := 0) (d₂ := 0) (fd := fd) (fs := rowBuf c c (part m c)) (q := shareOf i)
      (by rw [duties_send]; exact Finset.mem_singleton_self _) (by rw [duties_recv]; exact Finset.mem_singleton_self _)
      () () NR rfl (amount_send m c i 0) (amount_recv m (peer c i) i 0) (owedOf c (Sr.erase i) ∅) (owed_peel_recv c Sr ∅ i hi) (W := W)
      (by rw [payload_send]; exact BI.Entails.refl _)
      (by rw [payload_recv]; unfold recvPay rowPts; rw [peer_peer_rev]
          exact Entails.of_eq (pts_congr _ _ _ _ _ (row_land_eq (peer c i) c c fd (rowBuf c c (part m c)) (part m c) (rowBuf_read c c _)))))
  isplitr; · iexact HIs
  isplitr; · iexact HIr
  isplitl [Hs]; · iexact Hs
  isplitl [Hd]; · iexact Hd
  isplitl [HO]; · iexact HO
  isplitl [HtS]; · iexact HtS
  isplitr; · iexact Hrs
  isplitl [HtR]; · iexact HtR
  iexact Hrr

end Rules2

section Loads

variable (c : Dev nD)

/-! ## Loads and the store, through what the landings left -/

theorem step_load_chunk {α : Type} {Q : α → sProp 𝕄} (k : Fin 8) (inb : ∀ a, (![k.val, 0, 0] : Fin 3 → Nat) a + S1x512x1024.size a ≤ S8x512x1024.size a)
    {hl : (bM : Memref sig .tc .vmem S8x512x1024 .f32).view.LoadsAt (Rect.unit (s := S8x512x1024) ![k.val, 0, 0] S1x512x1024.size inb).toLoadRect}
    {kont : (Vec F S1x512x1024 .f32) → Prog (TpuEff nD τ sig (Elt F) Λ₀ .tc) α} :
    ((chunkDst k).view.loc (c : Thread nD τ) ↦[(chunkDst k).view.set]{fullShare} chunkBuf m c k : sProp 𝕄)
      ⊢ iprop((((chunkDst k).view.loc (c : Thread nD τ) ↦[(chunkDst k).view.set]{fullShare} chunkBuf m c k)
            -∗ wp frame (wpE (defs₀ (F := F)) 𝒱₀ (c : Thread nD τ) none) Set.univ (kont (SumValue.chunk (blockOf m c) k)) Q)
          -∗ wp frame (wpE (defs₀ (F := F)) 𝒱₀ (c : Thread nD τ) none) Set.univ
              (.op (.load (bM : Memref sig .tc .vmem S8x512x1024 .f32) (Rect.unit (s := S8x512x1024) ![k.val, 0, 0] S1x512x1024.size inb).toLoadRect hl) kont) Q) := by
  have h := wp_load (defs := defs₀ (F := F)) (Γ := PendingWaitsCtx.empty) 𝒱₀ (c : Thread nD τ) none Set.univ (m := (bM : Memref sig .tc .vmem S8x512x1024 .f32)) (hl := hl) (k := kont) (Q := Q)
    (q := fullShare) (f := chunkBuf m c k) (chunk_load_sub k inb)
  rw [chunk_load_read] at h
  exact h

theorem step_load_row {α : Type} {Q : α → sProp 𝕄} (j : Dev nD) (q : PosShare TreeShare) (v : Vec F S1x1024 .f32) (o : Fin 2 → Nat) (ho : o = k0_off2 j) (inb : ∀ a, o a + S1x1024.size a ≤ S16x1024.size a)
    {hl : (cM : Memref sig .tc .vmem S16x1024 .f32).view.LoadsAt (Rect.unit (s := S16x1024) o S1x1024.size inb).toLoadRect}
    {kont : (Vec F S1x1024 .f32) → Prog (TpuEff nD τ sig (Elt F) Λ₀ .tc) α} :
    (rowPts c j q (rowBuf c j v) : sProp 𝕄)
      ⊢ iprop((rowPts c j q (rowBuf c j v) -∗ wp frame (wpE (defs₀ (F := F)) 𝒱₀ (c : Thread nD τ) none) Set.univ (kont v) Q)
          -∗ wp frame (wpE (defs₀ (F := F)) 𝒱₀ (c : Thread nD τ) none) Set.univ
              (.op (.load (cM : Memref sig .tc .vmem S16x1024 .f32) (Rect.unit (s := S16x1024) o S1x1024.size inb).toLoadRect hl) kont) Q) := by
  have h := wp_load (defs := defs₀ (F := F)) (Γ := PendingWaitsCtx.empty) 𝒱₀ (c : Thread nD τ) none Set.univ (m := (cM : Memref sig .tc .vmem S16x1024 .f32)) (hl := hl) (k := kont) (Q := Q)
    (q := q) (f := rowBuf c j v) (row_load_sub j o ho inb)
  rw [row_load_read c j v o ho inb] at h
  exact h

end Loads

/-! ## The body's order: handshake signals by offset, transfers in the kernel's send order -/

/-- The handshake units still owed when the first `n` signals (offsets `1 … n`) are sent. -/
def barSet (n : ℕ) : Finset (Fin 15) := Finset.univ.filter fun j => n ≤ j.val
/-- The place of offset index `i` in the kernel's send order (offsets 14, 13, 15, 10, 9, 11, 12, 6, 8, 2, 5, 7, 1, 3, 4). -/
def posOf : Fin 15 → ℕ := ![12, 9, 13, 14, 10, 7, 11, 8, 4, 3, 5, 6, 1, 0, 2]
theorem posOf_inj : Function.Injective posOf := by decide
/-- The row transfers still owed when the first `t` of the send order are issued. -/
def sendSet (t : ℕ) : Finset (Fin 15) := Finset.univ.filter fun i => t ≤ posOf i

theorem barSet_zero : barSet 0 = Finset.univ := by decide
theorem barSet_done : barSet 15 = ∅ := by decide
theorem sendSet_zero : sendSet 0 = Finset.univ := by decide
theorem sendSet_done : sendSet 15 = ∅ := by decide
theorem barSet_erase (j : Fin 15) : (barSet j.val).erase j = barSet (j.val + 1) := by
  ext x; simp only [barSet, Finset.mem_erase, Finset.mem_filter, Finset.mem_univ, true_and, ne_eq, Fin.ext_iff]; omega
theorem mem_barSet (j : Fin 15) : j ∈ barSet j.val := by simp [barSet]
theorem sendSet_erase (i : Fin 15) : (sendSet (posOf i)).erase i = sendSet (posOf i + 1) := by
  ext x; simp only [sendSet, Finset.mem_erase, Finset.mem_filter, Finset.mem_univ, true_and, ne_eq]
  constructor
  · rintro ⟨hne, hle⟩; exact Nat.lt_of_le_of_ne hle fun h => hne (posOf_inj h.symm)
  · intro h; exact ⟨fun hx => by rw [hx] at h; omega, by omega⟩
theorem mem_sendSet (i : Fin 15) : i ∈ sendSet (posOf i) := by simp [sendSet]

theorem O₀_eq (c : Dev nD) : O₀ c = owedOf c (sendSet 0) (barSet 0) := by rw [sendSet_zero, barSet_zero]; rfl

section Rules3

variable (K : Dev nD × Fin 39 → ℕ) (c : Dev nD)

/-- The handshake signal to the peer at offset `j`, the `j` before it sent. -/
theorem step_signal' {α : Type} {Q : α → sProp 𝕄} {kont : PUnit → Prog (TpuEff nD τ sig (Elt F) Λ₀ .tc) α}
    (j : Fin 15) (Sr : Finset (Fin 15)) (n : Dev nD) (hn : n = peer c j) (W : Waits sig Unit)
    (f : Buf (Elt F) ((rowM (peer c j)).view.loc (c : Thread nD τ))) :
    iprop(records m K ∗ owes (c : Thread nD τ) (owedOf c Sr (barSet j.val)) W ∗ dutyTok ER (barCell (peer c j)) 0 j.rev ∗ rowPts c (peer c j) fullShare f)
      ⊢ iprop((owes (c : Thread nD τ) (owedOf c Sr (barSet (j.val + 1))) W -∗ wp frame (wpE (defs₀ (F := F)) 𝒱₀ (c : Thread nD τ) none) Set.univ (kont ⟨⟩) Q)
          -∗ wp frame (wpE (defs₀ (F := F)) 𝒱₀ (c : Thread nD τ) none) Set.univ (.op (.semSignal (n : Thread nD τ) barS 1) kont) Q) := by
  rw [← barSet_erase]; exact step_signal m K c j Sr _ (mem_barSet j) n hn W f

/-- The transfer of the device's own row to the peer at offset `i`, those before it in the send order issued. -/
theorem step_send' {α : Type} {Q : α → sProp 𝕄} {kont : PUnit → Prog (TpuEff nD τ sig (Elt F) Λ₀ .tc) α}
    (i : Fin 15) (n : Dev nD) (hn : n = peer c i) (W : Waits sig Unit)
    (fd : Buf (Elt F) ((rowM c).view.loc (peer c i : Thread nD τ)))
    {hsc : (rowM c : Memref sig (Dev.tc n : Thread nD τ).2.kind .vmem S1x1024 .f32).view.ref.isScScratch = false}
    {hsrc : (rowM c).view.WordExact} {hdst : (rowM c).view.WordExact}
    {hsem : DmaTarget.Typed .vmem (.dma (recvSem i)) (.remote (Dev.tc n : Thread nD τ) (rowM c) (.dma (sendSem i)) hsc)} :
    iprop(records m K ∗ rowPts c c (shareOf i) (rowBuf c c (part m c)) ∗ rowPts (peer c i) c fullShare fd
        ∗ owes (c : Thread nD τ) (owedOf c (sendSet (posOf i)) ∅) W ∗ dutyTok ER (sendCell c i) 0 0 ∗ dutyTok ER (recvCell (peer c i) i) 0 0)
      ⊢ iprop(((cred (tallyAt (sendCell c i) () NR) ∗ owes (c : Thread nD τ) (owedOf c (sendSet (posOf i + 1)) ∅) W)
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (rowM c) (.remote (Dev.tc n : Thread nD τ) (rowM c) (.dma (sendSem i)) hsc) (.dma (recvSem i)) hsrc hdst hsem) kont) Q) := by
  rw [← sendSet_erase]; exact step_send m K c i _ (mem_sendSet i) n hn W fd

/-- The store of the partial sum into the device's own row. -/
theorem step_store_row {α : Type} {Q : α → sProp 𝕄} {kont : PUnit → Prog (TpuEff nD τ sig (Elt F) Λ₀ .tc) α}
    (f : Buf (Elt F) ((rowM c).view.loc (c : Thread nD τ))) (v : Vec F S1x1024 .f32) (o : Fin 2 → Nat) (ho : o = k0_off2 c) (inb : ∀ a, o a + S1x1024.size a ≤ S16x1024.size a)
    {hx : ((cM : Memref sig .tc .vmem S16x1024 .f32).access (Rect.unit (s := S16x1024) o S1x1024.size inb)).Stores Finset.univ}
    {hm : (Finset.univ : Finset (Rect.unit (s := S16x1024) o S1x1024.size inb).shape.Idx) = Finset.univ ∨ ∀ a, (Rect.unit (s := S16x1024) o S1x1024.size inb).stride a = 1} :
    (rowPts c c fullShare f : sProp 𝕄)
      ⊢ iprop((rowPts c c fullShare (rowBuf c c v) -∗ wp frame (wpE (defs₀ (F := F)) 𝒱₀ (c : Thread nD τ) none) Set.univ (kont ⟨⟩) Q)
          -∗ wp frame (wpE (defs₀ (F := F)) 𝒱₀ (c : Thread nD τ) none) Set.univ
              (.op (.store (cM : Memref sig .tc .vmem S16x1024 .f32) (Rect.unit (s := S16x1024) o S1x1024.size inb) v Finset.univ hx hm) kont) Q) := by
  subst ho
  have h := wp_store (defs := defs₀ (F := F)) (Γ := PendingWaitsCtx.empty) 𝒱₀ (c : Thread nD τ) none Set.univ (m := (cM : Memref sig .tc .vmem S16x1024 .f32))
    (r := Rect.unit (s := S16x1024) (k0_off2 c) S1x1024.size inb) (w := v) (Mk := Finset.univ) (hx := hx) (hm := hm) (k := kont) (Q := Q)
    (S := (rowM c).view.set) (f := f) (row_store_sub c (k0_off2 c) rfl inb)
  have h' : ((rowM c).view.loc (c : Thread nD τ) ↦[(rowM c).view.set]{fullShare} f : sProp 𝕄)
      ⊢ iprop((((rowM c).view.loc (c : Thread nD τ) ↦[(rowM c).view.set]{fullShare}
            ((cM : Memref sig .tc .vmem S16x1024 .f32).access (Rect.unit (s := S16x1024) (k0_off2 c) S1x1024.size inb)).write (Elt F) f v Finset.univ)
          -∗ wp frame (wpE (defs₀ (F := F)) 𝒱₀ (c : Thread nD τ) none) Set.univ (kont ⟨⟩) Q)
        -∗ wp frame (wpE (defs₀ (F := F)) 𝒱₀ (c : Thread nD τ) none) Set.univ
            (.op (.store (cM : Memref sig .tc .vmem S16x1024 .f32) (Rect.unit (s := S16x1024) (k0_off2 c) S1x1024.size inb) v Finset.univ hx hm) kont) Q) := h
  have e : ((rowM c).view.loc (c : Thread nD τ) ↦[(rowM c).view.set]{fullShare}
        ((cM : Memref sig .tc .vmem S16x1024 .f32).access (Rect.unit (s := S16x1024) (k0_off2 c) S1x1024.size inb)).write (Elt F) f v Finset.univ : sProp 𝕄)
      = rowPts c c fullShare (rowBuf c c v) := pts_congr _ _ _ _ _ (row_store_eq c c (k0_off2 c) rfl inb f v)
  unfold rowPts at e ⊢
  iintro H Hk
  iapply h' $$ H
  iintro H'
  iapply Hk
  iapply (Entails.of_eq e)
  iexact H'

end Rules3

/-! ## The staging buffer of the result: loaded whole, stored whole -/

abbrev r0 : Rect S1x1024 := Rect.unit (s := S1x1024) ![0, 0] S1x1024.size inb_S1x1024_S1x1024_0_0
theorem hz : (![0, 0] : Fin 2 → Nat) = fun _ => 0 := funext fun a => by fin_cases a <;> rfl
theorem write_out (f w : (cc0_stg0_0 : Ref sig .tc).ty.Contents (Elt F)) :
    ((oM : Memref sig .tc .vmem S1x1024 .f32).access r0 : View sig .tc _ _ _).write (Elt F) f w Finset.univ = w :=
  Memref.write_access_unit_zero_univ (Elt F) cc0_stg0_0 hz _ f w

section Rules4

variable (c : Dev nD)

/-- The cast the body applies to its partial sum before storing it changes nothing. -/
theorem pay5_eq (v : FVec F S1x1024 .f32) : k0_pay5 v = v := by
  unfold k0_pay5; exact shapeCast_self v _

/-- A load of row `j` at whatever it holds. -/
theorem step_load_row_any {α : Type} {Q : α → sProp 𝕄} (j : Dev nD) (q : PosShare TreeShare) (f : Buf (Elt F) ((rowM j).view.loc (c : Thread nD τ)))
    (o : Fin 2 → Nat) (ho : o = k0_off2 j) (inb : ∀ a, o a + S1x1024.size a ≤ S16x1024.size a)
    {hl : (cM : Memref sig .tc .vmem S16x1024 .f32).view.LoadsAt (Rect.unit (s := S16x1024) o S1x1024.size inb).toLoadRect}
    {kont : (Vec F S1x1024 .f32) → Prog (TpuEff nD τ sig (Elt F) Λ₀ .tc) α} :
    (rowPts c j q f : sProp 𝕄)
      ⊢ iprop((rowPts c j q f -∗ wp frame (wpE (defs₀ (F := F)) 𝒱₀ (c : Thread nD τ) none) Set.univ
              (kont ((cM : Memref sig .tc .vmem S16x1024 .f32).view.readAt (Elt F) (Rect.unit (s := S16x1024) o S1x1024.size inb).toLoadRect f)) Q)
          -∗ wp frame (wpE (defs₀ (F := F)) 𝒱₀ (c : Thread nD τ) none) Set.univ
              (.op (.load (cM : Memref sig .tc .vmem S16x1024 .f32) (Rect.unit (s := S16x1024) o S1x1024.size inb).toLoadRect hl) kont) Q) :=
  wp_load (defs := defs₀ (F := F)) (Γ := PendingWaitsCtx.empty) 𝒱₀ (c : Thread nD τ) none Set.univ (m := (cM : Memref sig .tc .vmem S16x1024 .f32)) (hl := hl) (k := kont) (Q := Q)
    (q := q) (f := f) (row_load_sub j o ho inb)

/-- The store of the partial sum, the stored value known to be `w`. -/
theorem step_store_row' {α : Type} {Q : α → sProp 𝕄} {kont : PUnit → Prog (TpuEff nD τ sig (Elt F) Λ₀ .tc) α}
    (f : Buf (Elt F) ((rowM c).view.loc (c : Thread nD τ))) (v w : Vec F S1x1024 .f32) (hvw : v = w) (o : Fin 2 → Nat) (ho : o = k0_off2 c) (inb : ∀ a, o a + S1x1024.size a ≤ S16x1024.size a)
    {hx : ((cM : Memref sig .tc .vmem S16x1024 .f32).access (Rect.unit (s := S16x1024) o S1x1024.size inb)).Stores Finset.univ}
    {hm : (Finset.univ : Finset (Rect.unit (s := S16x1024) o S1x1024.size inb).shape.Idx) = Finset.univ ∨ ∀ a, (Rect.unit (s := S16x1024) o S1x1024.size inb).stride a = 1} :
    (rowPts c c fullShare f : sProp 𝕄)
      ⊢ iprop((rowPts c c fullShare (rowBuf c c w) -∗ wp frame (wpE (defs₀ (F := F)) 𝒱₀ (c : Thread nD τ) none) Set.univ (kont ⟨⟩) Q)
          -∗ wp frame (wpE (defs₀ (F := F)) 𝒱₀ (c : Thread nD τ) none) Set.univ
              (.op (.store (cM : Memref sig .tc .vmem S16x1024 .f32) (Rect.unit (s := S16x1024) o S1x1024.size inb) v Finset.univ hx hm) kont) Q) := by
  subst hvw; exact step_store_row c f v o ho inb

end Rules4

/-! ## The waits on the device's own cells, at the program's spelling -/

theorem credit_chunk (k : Fin 8) : (chunkDst k).view.dmaCredit = NC := rfl
theorem credit_row (o : Fin 2 → Nat) (inb : ∀ a, o a + S1x1024.size a ≤ S16x1024.size a) (h : ∀ a, (Rect.unit (s := S16x1024) o S1x1024.size inb).stride a = 1) :
    ((cM : Memref sig .tc .vmem S16x1024 .f32).slice (Rect.unit (s := S16x1024) o S1x1024.size inb) h).view.dmaCredit = NR := rfl

theorem lv_bar_lt (c : Dev nD) : lv (barCell c) () < 2 := by dsimp only [lv]; decide
theorem lv_copy_lt (c : Dev nD) (k : Fin 8) : lv (copyCell c k) () < 2 := by dsimp only [lv]; rw [kind_copy]; exact Nat.zero_lt_two
theorem lv_send_lt (c : Dev nD) (i : Fin 15) : lv (sendCell c i) () < 2 := by dsimp only [lv]; rw [kind_send]; exact Nat.zero_lt_two

section Waits

variable (K : Dev nD × Fin 39 → ℕ) (c : Dev nD)

/-- The wait for chunk copy `k`, while row transfers are still owed. -/
theorem step_wait_copy {α : Type} {Q : α → sProp 𝕄} {kont : PUnit → Prog (TpuEff nD τ sig (Elt F) Λ₀ .tc) α}
    (k : Fin 8) (Sr : Finset (Fin 15)) (W : Waits sig Unit)
    {src : Memref sig .tc .hbm S512x1024 .f32} {hsrc : src.view.WordExact} {hdst : (chunkDst k).view.WordExact} :
    iprop(records m K ∗ levAts L lv ∗ cred (tallyAt (copyCell c k) () NC) ∗ owes (c : Thread nD τ) (owedOf c Sr ∅) W ∗ atPos ER (copyCell c k) 0 ∅ 0)
      ⊢ iprop(((owes (c : Thread nD τ) (owedOf c Sr ∅) (insert (.dma (copySem k), ()) W) ∗ atPos ER (copyCell c k) 1 ∅ 0 ∗ copyPay m c k)
            -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 (copySem k) src (chunkDst k) hsrc hdst) kont) Q) :=
  step_wait_gen m K c (.dma (copySem k)) _ (inv_copy m K c k) NC (expect_copy m c k) _ (rest_copy m c k) _
    (mayWait_owing_rows c _ (lv_copy_lt c k) Sr) W
    (fun Kk => by rw [wpE_waitDma2_eq, credit_chunk])

/-- The wait for the departure of the transfer at offset index `i`. -/
theorem step_wait_send {α : Type} {Q : α → sProp 𝕄} {kont : PUnit → Prog (TpuEff nD τ sig (Elt F) Λ₀ .tc) α}
    (i : Fin 15) (Sr : Finset (Fin 15)) (W : Waits sig Unit)
    (o : Fin 2 → Nat) (inb : ∀ a, o a + S1x1024.size a ≤ S16x1024.size a) (h : ∀ a, (Rect.unit (s := S16x1024) o S1x1024.size inb).stride a = 1)
    {src : Memref sig .tc .vmem S1x1024 .f32} {hsrc : src.view.WordExact}
    {hdst : ((cM : Memref sig .tc .vmem S16x1024 .f32).slice (Rect.unit (s := S16x1024) o S1x1024.size inb) h).view.WordExact} :
    iprop(records m K ∗ levAts L lv ∗ cred (tallyAt (sendCell c i) () NR) ∗ owes (c : Thread nD τ) (owedOf c Sr ∅) W ∗ atPos ER (sendCell c i) 0 ∅ 0)
      ⊢ iprop(((owes (c : Thread nD τ) (owedOf c Sr ∅) (insert (.dma (sendSem i), ()) W) ∗ atPos ER (sendCell c i) 1 ∅ 0 ∗ sendPay m c i)
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (sendSem i) src ((cM : Memref sig .tc .vmem S16x1024 .f32).slice (Rect.unit (s := S16x1024) o S1x1024.size inb) h) hsrc hdst) kont) Q) :=
  step_wait_gen m K c (.dma (sendSem i)) _ (inv_send m K c i) NR (expect_send m c i) _ (rest_send m c i) _
    (mayWait_owing_rows c _ (lv_send_lt c i) Sr) W
    (fun Kk => by rw [wpE_waitDma2_eq, credit_row])

/-- The wait for the row of the device `off i` places before, nothing owed any more. -/
theorem step_wait_recv {α : Type} {Q : α → sProp 𝕄} {kont : PUnit → Prog (TpuEff nD τ sig (Elt F) Λ₀ .tc) α}
    (i : Fin 15) (W : Waits sig Unit)
    (o : Fin 2 → Nat) (inb : ∀ a, o a + S1x1024.size a ≤ S16x1024.size a) (h : ∀ a, (Rect.unit (s := S16x1024) o S1x1024.size inb).stride a = 1)
    {src : Memref sig .tc .vmem S1x1024 .f32} {hsrc : src.view.WordExact}
    {hdst : ((cM : Memref sig .tc .vmem S16x1024 .f32).slice (Rect.unit (s := S16x1024) o S1x1024.size inb) h).view.WordExact} :
    iprop(records m K ∗ levAts L lv ∗ cred (tallyAt (recvCell c i) () NR) ∗ owes (c : Thread nD τ) (owedOf c ∅ ∅) W ∗ atPos ER (recvCell c i) 0 ∅ 0)
      ⊢ iprop(((owes (c : Thread nD τ) (owedOf c ∅ ∅) (insert (.dma (recvSem i), ()) W) ∗ atPos ER (recvCell c i) 1 ∅ 0 ∗ recvPay m c i)
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 (recvSem i) src ((cM : Memref sig .tc .vmem S16x1024 .f32).slice (Rect.unit (s := S16x1024) o S1x1024.size inb) h) hsrc hdst) kont) Q) :=
  step_wait_gen m K c (.dma (recvSem i)) _ (inv_recv m K c i) NR (expect_recv m c i) _ (rest_recv m c i) _
    (mayWait_nothing c _) W
    (fun Kk => by rw [wpE_waitDma2_eq, credit_row])

/-- The wait for the fifteen handshake units, while row transfers are still owed. -/
theorem step_wait_bar {α : Type} {Q : α → sProp 𝕄} {kont : PUnit → Prog (TpuEff nD τ sig (Elt F) Λ₀ .tc) α}
    (Sr : Finset (Fin 15)) (W : Waits sig Unit) :
    iprop(records m K ∗ levAts L lv ∗ cred (tallyAt (barCell c) () 15) ∗ owes (c : Thread nD τ) (owedOf c Sr ∅) W ∗ atPos ER (barCell c) 0 ∅ 0)
      ⊢ iprop(((owes (c : Thread nD τ) (owedOf c Sr ∅) (insert (.reg barS, ()) W) ∗ atPos ER (barCell c) 1 ∅ 0 ∗ bigSep Finset.univ (fun i => barPay (F := F) c i))
            -∗ wp frame (wpE (defs₀ (F := F)) 𝒱₀ (c : Thread nD τ) none) Set.univ (kont ⟨⟩) Q)
          -∗ wp frame (wpE (defs₀ (F := F)) 𝒱₀ (c : Thread nD τ) none) Set.univ (.op (.semWait barS 15) kont) Q) :=
  step_wait_gen m K c (.reg barS) _ (inv_bar m K c) 15 (expect_bar m c) _ (rest_bar m c) _
    (mayWait_owing_rows c _ (lv_bar_lt c) Sr) W
    (fun Kk => wpE_semWait_eq 𝒱₀ (c : Thread nD τ) none Set.univ Kk)

end Waits

end Cert.Kernel.P

end
-- ==== Proof.Bits.Finish.lean ====
/-
  The end of a device's body: its own cells, every duty landed and taken, close and give their counters back at zero;
  the lent shares of its own row, the fifteen received rows, the eight slabs and the eight source row ranges go
  back together into whole buffers.
-/
import proofs.«901088_g7700000000001089_dist_sum_ax0_shard0_i_m4096_n1024_v7x_i16_f32_1_alg».proof.Proof.Bits.Steps

noncomputable section

namespace Cert.Kernel.P

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Closing the own cells: each stands at round 1 with nothing more scheduled -/

theorem close_copy (K : Dev nD × Fin 39 → ℕ) (c : Dev nD) :
    iprop(records m K ∗ bigSep Finset.univ fun k : Fin 8 => atPos ER (copyCell c k) 1 ∅ 0)
      ⊢ (|={Set.univ}=> bigSep Finset.univ fun k : Fin 8 => semVal (copyCell c k) 0 : sProp 𝕄) :=
  (bigSep_with_persistent (R := records m K) (Φ := fun k : Fin 8 => atPos ER (copyCell c k) 1 ∅ 0)
      (Ψ := fun k : Fin 8 => iprop(|={Set.univ}=> semVal (copyCell c k) 0)) fun k _ =>
    (sep_mono_left (inv_copy m K c k)).trans
      (Rounds.cell_close ER (sched m) (Set.mem_univ _) (fun h => h) (R := 1) (duties_later m _))).trans
    (bigSep_fupd _ _)
theorem close_send (K : Dev nD × Fin 39 → ℕ) (c : Dev nD) :
    iprop(records m K ∗ bigSep Finset.univ fun i : Fin 15 => atPos ER (sendCell c i) 1 ∅ 0)
      ⊢ (|={Set.univ}=> bigSep Finset.univ fun i : Fin 15 => semVal (sendCell c i) 0 : sProp 𝕄) :=
  (bigSep_with_persistent (R := records m K) (Φ := fun i : Fin 15 => atPos ER (sendCell c i) 1 ∅ 0)
      (Ψ := fun i : Fin 15 => iprop(|={Set.univ}=> semVal (sendCell c i) 0)) fun i _ =>
    (sep_mono_left (inv_send m K c i)).trans
      (Rounds.cell_close ER (sched m) (Set.mem_univ _) (fun h => h) (R := 1) (duties_later m _))).trans
    (bigSep_fupd _ _)
theorem close_recv (K : Dev nD × Fin 39 → ℕ) (c : Dev nD) :
    iprop(records m K ∗ bigSep Finset.univ fun i : Fin 15 => atPos ER (recvCell c i) 1 ∅ 0)
      ⊢ (|={Set.univ}=> bigSep Finset.univ fun i : Fin 15 => semVal (recvCell c i) 0 : sProp 𝕄) :=
  (bigSep_with_persistent (R := records m K) (Φ := fun i : Fin 15 => atPos ER (recvCell c i) 1 ∅ 0)
      (Ψ := fun i : Fin 15 => iprop(|={Set.univ}=> semVal (recvCell c i) 0)) fun i _ =>
    (sep_mono_left (inv_recv m K c i)).trans
      (Rounds.cell_close ER (sched m) (Set.mem_univ _) (fun h => h) (R := 1) (duties_later m _))).trans
    (bigSep_fupd _ _)

/-! ## The buffers whole again -/

/-- The fifteen lent shares of the device's own row make the row at the full share. -/
theorem own_row_home (c : Dev nD) :
    (bigSep Finset.univ fun i : Fin 15 => sendPay m c i : sProp 𝕄) ⊢ rowPts c c fullShare (rowBuf c c (part m c)) :=
  (shares_split c c (rowBuf c c (part m c))).2
/-- A received row is that peer's row at some contents. -/
private theorem recv_row (c : Dev nD) (i : Fin 15) :
    (recvPay m c i : sProp 𝕄) ⊢ iprop(∃ g, rowPts c (peer c i.rev) fullShare g) := by
  unfold recvPay; iintro H; iexists _; iexact H

/-- A landed chunk copy's slab is that slab at some contents. -/
private theorem slab_some (c : Dev nD) (k : Fin 8) :
    ((chunkDst k).view.loc (c : Thread nD τ) ↦[(chunkDst k).view.set]{fullShare} chunkBuf m c k : sProp 𝕄)
      ⊢ iprop(∃ g, (chunkDst k).view.loc (c : Thread nD τ) ↦[(chunkDst k).view.set]{fullShare} g) := by
  iintro H; iexists _; iexact H

/-- Its own row and the fifteen received rows make the exchange buffer whole, at some contents. -/
theorem rows_home (c : Dev nD) (f : Buf (Elt F) ((rowM c).view.loc (c : Thread nD τ))) :
    iprop(rowPts c c fullShare f ∗ bigSep Finset.univ fun i : Fin 15 => recvPay m c i)
      ⊢ iprop(∃ f : Buf (Elt F) ((c : Thread nD τ).loc cc0_scratch1), ((c : Thread nD τ).loc cc0_scratch1) ↦{fullShare} f) := by
  have h1 : (rowPts c c fullShare f : sProp 𝕄) ⊢ iprop(∃ g, rowPts c c fullShare g) := by
    iintro H; iexists f; iexact H
  have h2 : (bigSep Finset.univ fun i : Fin 15 => recvPay m c i : sProp 𝕄)
      ⊢ bigSep Finset.univ fun i : Fin 15 => (iprop(∃ g, rowPts c (peer c i.rev) fullShare g) : sProp 𝕄) :=
    bigSep_mono fun i _ => recv_row m c i
  have h3 := (dev_split_rev c fun j : Dev nD => (iprop(∃ g, rowPts c j fullShare g) : sProp 𝕄)).2
  exact (BIClass.sep_mono h1 h2).trans (h3.trans (rows_join c))
/-- The eight landed chunk copies make the chunk scratch whole, at some contents, and the block in HBM whole, unchanged. -/
theorem slabs_home (c : Dev nD) :
    (bigSep Finset.univ fun k : Fin 8 => copyPay m c k : sProp 𝕄)
      ⊢ iprop((∃ f : Buf (Elt F) ((c : Thread nD τ).loc cc0_scratch0), ((c : Thread nD τ).loc cc0_scratch0) ↦{fullShare} f)
          ∗ (((c : Thread nD τ).loc main_arg0) ↦{fullShare} m ((c : Thread nD τ).loc main_arg0))) := by
  have h0 : (bigSep Finset.univ fun k : Fin 8 => copyPay m c k : sProp 𝕄)
      = iprop((bigSep Finset.univ fun k : Fin 8 => ((chunkDst k).view.loc (c : Thread nD τ) ↦[(chunkDst k).view.set]{fullShare} chunkBuf m c k))
          ∗ (bigSep Finset.univ fun k : Fin 8 => ((chunkSrc k).view.loc (c : Thread nD τ) ↦[(chunkSrc k).view.set]{fullShare} xBuf m c k))) :=
    bigSep_sep' Finset.univ _ _
  have h1 : (bigSep Finset.univ fun k : Fin 8 => ((chunkDst k).view.loc (c : Thread nD τ) ↦[(chunkDst k).view.set]{fullShare} chunkBuf m c k) : sProp 𝕄)
      ⊢ bigSep Finset.univ fun k : Fin 8 => (iprop(∃ g, (chunkDst k).view.loc (c : Thread nD τ) ↦[(chunkDst k).view.set]{fullShare} g) : sProp 𝕄) :=
    bigSep_mono fun k _ => slab_some m c k
  rw [h0]
  exact BIClass.sep_mono (h1.trans (slabs_join c)) (xrows_split m c).2

end Cert.Kernel.P

end
-- ==== Proof.Bits.Body.lean ====
/-
  One device's body, from its invariant before the point to its invariant after it. In program order: the eight chunk
  copies are started; the fifteen peers are signalled on the barrier semaphore, each signal handing that peer this
  device's exchange-buffer row for it; each chunk's copy is awaited and its slab loaded, the column sums added up:
  the device's partial sum; it is stored in the device's own row; the fifteen handshake units are awaited, which
  brings every peer's row for this device; the own row is sent to each peer, a fifteenth share of it lent to each
  transfer; the departures are awaited, the shares come back; each peer's row is awaited and loaded and added to the
  running sum; the sum is stored in the result block. Then the own cells close and the buffers are whole again.
-/
import proofs.«901088_g7700000000001089_dist_sum_ax0_shard0_i_m4096_n1024_v7x_i16_f32_1_alg».proof.Proof.Bits.Finish

noncomputable section

namespace Cert.Kernel.P

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.Tactic
local notation "𝕄" => MT nD τ sig Unit (Elt F) ℕ UU ℕ

variable (m : (ℓ : Loc nD τ sig) → Buf (Elt F) ℓ)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem owed_bar_done (c : Dev nD) (Sr : Finset (Fin 15)) : owedOf c Sr (barSet ((14 : Fin 15).val + 1)) = owedOf c Sr ∅ := by
  rw [show ((14 : Fin 15).val + 1) = 15 from rfl, barSet_done]
theorem owed_send_done (c : Dev nD) : owedOf c (sendSet (posOf 3 + 1)) ∅ = owedOf c (sendSet 15) ∅ := by
  rw [show posOf 3 + 1 = 15 from rfl]

set_option hygiene false in
/-- The copy of chunk `k`: the source rows, the slab and the copy's token go in, the copy's credit comes out. -/
macro "copy_step" k:term:max fd:ident hx:ident hs:ident ht:ident hc:ident : tactic => `(tactic| (
  iapply (step_copy m K c $k $fd) $$ [$hx:ident $hs:ident $ht:ident]
  · isplitr
    · iexact Hrec
    isplitl [$hx:ident]
    · iexact $hx
    isplitl [$hs:ident]
    · iexact $hs
    iexact $ht
  iintro $hc:ident))

set_option hygiene false in
/-- The handshake signal to the peer at offset index `j`: its token and the device's row for that peer go with it. -/
macro "sig_step" j:term:max hdev:ident fr:ident ht:ident hrow:ident : tactic => `(tactic| (
  iapply (step_signal' m K c $j _ _ ($hdev c) _ $fr) $$ [HO $ht:ident $hrow:ident]
  · isplitr
    · iexact Hrec
    isplitl [HO]
    · iexact HO
    isplitl [$ht:ident]
    · iexact $ht
    iexact $hrow
  iintro HO))

set_option hygiene false in
/-- The wait for chunk copy `k`: the slab holding the chunk and the source rows come back. -/
macro "cwait_step" k:term:max hc:ident ha:ident hsl:ident hxr:ident : tactic => `(tactic| (
  iapply (step_wait_copy m K c $k _ _) $$ [$hc:ident HO $ha:ident]
  · isplitr
    · iexact Hrec
    isplitr
    · iexact Hlev
    isplitl [$hc:ident]
    · iexact $hc
    isplitl [HO]
    · iexact HO
    iexact $ha
  iintro ⟨HO, $ha:ident, Hpay⟩
  unfold copyPay
  icases Hpay with ⟨$hsl:ident, $hxr:ident⟩
  iapply (step_load_chunk m c $k _) $$ $hsl:ident
  iintro $hsl:ident))

set_option hygiene false in
/-- The transfer of the device's own row to the peer at offset index `i`. -/
macro "send_step" i:term:max hdev:ident fd:ident hsh:ident hd:ident hts:ident htr:ident hcs:ident : tactic => `(tactic| (
  iapply (step_send' m K c $i _ ($hdev c) _ $fd) $$ [$hsh:ident $hd:ident HO $hts:ident $htr:ident]
  · isplitr
    · iexact Hrec
    isplitl [$hsh:ident]
    · iexact $hsh
    isplitl [$hd:ident]
    · iexact $hd
    isplitl [HO]
    · iexact HO
    isplitl [$hts:ident]
    · iexact $hts
    iexact $htr
  iintro ⟨$hcs:ident, HO⟩))

set_option hygiene false in
/-- The wait for the departure of the transfer at offset index `i`: the lent share of the own row comes back. -/
macro "swait_step" i:term:max hc:ident ha:ident hpay:ident : tactic => `(tactic| (
  iapply (step_wait_send m K c $i _ _ _ _ _) $$ [$hc:ident HO $ha:ident]
  · isplitr
    · iexact Hrec
    isplitr
    · iexact Hlev
    isplitl [$hc:ident]
    · iexact $hc
    isplitl [HO]
    · iexact HO
    iexact $ha
  iintro ⟨HO, $ha:ident, $hpay:ident⟩))

set_option hygiene false in
/-- The wait for the row of the device `off i` places before, and the load of that row: its partial sum. -/
macro "rwait_step" i:term:max hc:ident ha:ident hpay:ident : tactic => `(tactic| (
  iapply (step_wait_recv m K c $i _ _ _ _) $$ [$hc:ident HO $ha:ident]
  · isplitr
    · iexact Hrec
    isplitr
    · iexact Hlev
    isplitl [$hc:ident]
    · iexact $hc
    isplitl [HO]
    · iexact HO
    iexact $ha
  iintro ⟨HO, $ha:ident, $hpay:ident⟩
  unfold recvPay
  iapply (step_load_row c (peer c (Fin.rev $i)) fullShare (part m (peer c (Fin.rev $i))) _ (off4_eq c $i) _) $$ $hpay:ident
  iintro $hpay:ident))

set_option maxHeartbeats 16000000 in
theorem body_obligation (c : Dev nD) : BodyObligation (dats (F := F) m 0 c) (defs₀ (F := F)) 𝒱₀ () Set.univ := fun t => by
  rw [fin_N t]
  rw [bigSep_W0, bigSep_W0]
  simp only [owns_whole_eq]
  show iprop(Φ₀ m c ∗ (dats m 0 c).owesAt () t₀.castSucc ∗ ∃ d f, ⌜f = (dats m 0 c).before 0 t₀ d⌝ ∗ c.tc.loc cc0_stg0_0 ↦{fullShare} f) ⊢
    wp frame (wpE (defs₀ (F := F)) 𝒱₀ c.tc none) Set.univ
      (cc0_body (Memref.whole main_arg0) (Memref.isWhole_whole _) (Memref.whole cc0_stg0_0) (Memref.isWhole_whole _) (Memref.whole cc0_scratch0) (Memref.isWhole_whole _) (Memref.whole cc0_scratch1) (Memref.isWhole_whole _) cc0_scratch2 cc0_scratch3 cc0_scratch4) _
  unfold Φ₀ start
  iintro ⟨⟨⟨⟨%K, Hg⟩, HcB, HcR, #Hlev⟩, ⟨%fb, Hb⟩, ⟨%fc, Hc⟩, Hx⟩, Ho, ⟨%d, %g0, %hg0, Hout⟩⟩
  unfold Dat.owesAt Pipeline.owesWithin
  icases Ho with ⟨%W, %hW, HO⟩
  rw [show (dats m 0 c).owed t₀.castSucc = O₀ c from rfl]
  unfold ghost positions payToks
  icases Hg with ⟨#Hrec, ⟨HaB, HaC, HaS, HaR⟩, ⟨HtB, HtC, HtS, HtR⟩⟩
  -- the families, member by member
  ihave HaC' := (Entails.of_eq (bigSep_fin8 _)) $$ HaC
  icases HaC' with ⟨HaC0, HaC1, HaC2, HaC3, HaC4, HaC5, HaC6, HaC7⟩
  ihave HaS' := (Entails.of_eq (bigSep_fin15 _)) $$ HaS
  icases HaS' with ⟨HaS0, HaS1, HaS2, HaS3, HaS4, HaS5, HaS6, HaS7, HaS8, HaS9, HaS10, HaS11, HaS12, HaS13, HaS14⟩
  ihave HaR' := (Entails.of_eq (bigSep_fin15 _)) $$ HaR
  icases HaR' with ⟨HaR0, HaR1, HaR2, HaR3, HaR4, HaR5, HaR6, HaR7, HaR8, HaR9, HaR10, HaR11, HaR12, HaR13, HaR14⟩
  ihave HtB' := (Entails.of_eq (bigSep_fin15 _)) $$ HtB
  icases HtB' with ⟨HtB0, HtB1, HtB2, HtB3, HtB4, HtB5, HtB6, HtB7, HtB8, HtB9, HtB10, HtB11, HtB12, HtB13, HtB14⟩
  ihave HtC' := (Entails.of_eq (bigSep_fin8 _)) $$ HtC
  icases HtC' with ⟨HtC0, HtC1, HtC2, HtC3, HtC4, HtC5, HtC6, HtC7⟩
  ihave HtS' := (Entails.of_eq (bigSep_fin15 _)) $$ HtS
  icases HtS' with ⟨HtS0, HtS1, HtS2, HtS3, HtS4, HtS5, HtS6, HtS7, HtS8, HtS9, HtS10, HtS11, HtS12, HtS13, HtS14⟩
  ihave HtR' := (Entails.of_eq (bigSep_fin15 _)) $$ HtR
  icases HtR' with ⟨HtR0, HtR1, HtR2, HtR3, HtR4, HtR5, HtR6, HtR7, HtR8, HtR9, HtR10, HtR11, HtR12, HtR13, HtR14⟩
  ihave HcR' := (Entails.of_eq (bigSep_fin15 _)) $$ HcR
  icases HcR' with ⟨HcR0, HcR1, HcR2, HcR3, HcR4, HcR5, HcR6, HcR7, HcR8, HcR9, HcR10, HcR11, HcR12, HcR13, HcR14⟩
  -- the exchange buffer by rows: the device's own, and one for each peer
  ihave Hrows := (rows_split (F := F) c) $$ [Hc]
  · iexists fc; iexact Hc
  ihave Hrows' := (dev_split c (fun j => iprop(∃ f, rowPts (F := F) c j fullShare f))).1 $$ Hrows
  icases Hrows' with ⟨⟨%fown, Hown⟩, Hpeers⟩
  ihave Hpeers' := (Entails.of_eq (bigSep_fin15 _)) $$ Hpeers
  icases Hpeers' with ⟨⟨%fr0, Hrow0⟩, ⟨%fr1, Hrow1⟩, ⟨%fr2, Hrow2⟩, ⟨%fr3, Hrow3⟩, ⟨%fr4, Hrow4⟩, ⟨%fr5, Hrow5⟩, ⟨%fr6, Hrow6⟩, ⟨%fr7, Hrow7⟩, ⟨%fr8, Hrow8⟩, ⟨%fr9, Hrow9⟩, ⟨%fr10, Hrow10⟩, ⟨%fr11, Hrow11⟩, ⟨%fr12, Hrow12⟩, ⟨%fr13, Hrow13⟩, ⟨%fr14, Hrow14⟩⟩
  -- the chunk scratch by slabs, the block by row ranges
  ihave Hslabs := (slabs_split (F := F) c) $$ [Hb]
  · iexists fb; iexact Hb
  ihave Hslabs' := (Entails.of_eq (bigSep_fin8 _)) $$ Hslabs
  icases Hslabs' with ⟨⟨%fs0, Hsl0⟩, ⟨%fs1, Hsl1⟩, ⟨%fs2, Hsl2⟩, ⟨%fs3, Hsl3⟩, ⟨%fs4, Hsl4⟩, ⟨%fs5, Hsl5⟩, ⟨%fs6, Hsl6⟩, ⟨%fs7, Hsl7⟩⟩
  ihave Hxr := (xrows_split m c).1 $$ Hx
  ihave Hxr' := (Entails.of_eq (bigSep_fin8 _)) $$ Hxr
  icases Hxr' with ⟨Hxr0, Hxr1, Hxr2, Hxr3, Hxr4, Hxr5, Hxr6, Hxr7⟩
  rw [O₀_eq]
  rw [cc0_body_eq_skeleton]; unfold cc0_body_skel
  rw [k0_part1_eq_skeleton]; unfold k0_part1_skel
  simp only [semSignalWord, semWaitWord, Prog.lift, Prog.bind_op, Prog.bind_ret, Prog.pure_eq_ret, wp_deviceId]
  copy_step 0 fs0 Hxr0 Hsl0 HtC0 HcC0
  copy_step 1 fs1 Hxr1 Hsl1 HtC1 HcC1
  copy_step 2 fs2 Hxr2 Hsl2 HtC2 HcC2
  copy_step 3 fs3 Hxr3 Hsl3 HtC3 HcC3
  rw [k0_part2_eq_skeleton]; unfold k0_part2_skel
  simp only [semSignalWord, semWaitWord, Prog.lift, Prog.bind_op, Prog.bind_ret, Prog.pure_eq_ret, wp_deviceId]
  copy_step 4 fs4 Hxr4 Hsl4 HtC4 HcC4
  copy_step 5 fs5 Hxr5 Hsl5 HtC5 HcC5
  copy_step 6 fs6 Hxr6 Hsl6 HtC6 HcC6
  copy_step 7 fs7 Hxr7 Hsl7 HtC7 HcC7
  sig_step 0 dev1_eq fr0 HtB0 Hrow0
  rw [k0_part3_eq_skeleton]; unfold k0_part3_skel
  simp only [semSignalWord, semWaitWord, Prog.lift, Prog.bind_op, Prog.bind_ret, Prog.pure_eq_ret, wp_deviceId]
  sig_step 1 dev2_eq fr1 HtB1 Hrow1
  sig_step 2 dev3_eq fr2 HtB2 Hrow2
  sig_step 3 dev4_eq fr3 HtB3 Hrow3
  sig_step 4 dev5_eq fr4 HtB4 Hrow4
  sig_step 5 dev6_eq fr5 HtB5 Hrow5
  sig_step 6 dev7_eq fr6 HtB6 Hrow6
  rw [k0_part4_eq_skeleton]; unfold k0_part4_skel
  simp only [semSignalWord, semWaitWord, Prog.lift, Prog.bind_op, Prog.bind_ret, Prog.pure_eq_ret, wp_deviceId]
  sig_step 7 dev8_eq fr7 HtB7 Hrow7
  sig_step 8 dev9_eq fr8 HtB8 Hrow8
  sig_step 9 dev10_eq fr9 HtB9 Hrow9
  sig_step 10 dev11_eq fr10 HtB10 Hrow10
  sig_step 11 dev12_eq fr11 HtB11 Hrow11
  sig_step 12 dev13_eq fr12 HtB12 Hrow12
  rw [k0_part5_eq_skeleton]; unfold k0_part5_skel
  simp only [semSignalWord, semWaitWord, Prog.lift, Prog.bind_op, Prog.bind_ret, Prog.pure_eq_ret, wp_deviceId]
  sig_step 13 dev14_eq fr13 HtB13 Hrow13
  sig_step 14 dev15_eq fr14 HtB14 Hrow14
  rw [owed_bar_done]
  cwait_step 0 HcC0 HaC0 Hsl0 Hxr0
  cwait_step 1 HcC1 HaC1 Hsl1 Hxr1
  rw [k0_part6_eq_skeleton]; unfold k0_part6_skel
  simp only [semSignalWord, semWaitWord, Prog.lift, Prog.bind_op, Prog.bind_ret, Prog.pure_eq_ret, wp_deviceId]
  cwait_step 2 HcC2 HaC2 Hsl2 Hxr2
  cwait_step 3 HcC3 HaC3 Hsl3 Hxr3
  cwait_step 4 HcC4 HaC4 Hsl4 Hxr4
  rw [k0_part7_eq_skeleton]; unfold k0_part7_skel
  simp only [semSignalWord, semWaitWord, Prog.lift, Prog.bind_op, Prog.bind_ret, Prog.pure_eq_ret, wp_deviceId]
  cwait_step 5 HcC5 HaC5 Hsl5 Hxr5
  cwait_step 6 HcC6 HaC6 Hsl6 Hxr6
  cwait_step 7 HcC7 HaC7 Hsl7 Hxr7
  rw [k0_part8_eq_skeleton]; unfold k0_part8_skel
  simp only [semSignalWord, semWaitWord, Prog.lift, Prog.bind_op, Prog.bind_ret, Prog.pure_eq_ret, wp_deviceId]
  iapply (step_load_row_any c c fullShare fown _ (off1_eq c) _) $$ Hown
  iintro Hown
  iapply (step_store_row' c fown _ (part m c) (pay5_eq _) _ (off1_eq c) _) $$ Hown
  iintro Hown
  ihave Hsh := (shares_split c c _).1 $$ Hown
  ihave Hsh' := (Entails.of_eq (bigSep_fin15 _)) $$ Hsh
  icases Hsh' with ⟨Hsh0, Hsh1, Hsh2, Hsh3, Hsh4, Hsh5, Hsh6, Hsh7, Hsh8, Hsh9, Hsh10, Hsh11, Hsh12, Hsh13, Hsh14⟩
  iapply (step_wait_bar m K c _ _) $$ [HcB HO HaB]
  · isplitr
    · iexact Hrec
    isplitr
    · iexact Hlev
    isplitl [HcB]
    · iexact HcB
    isplitl [HO]
    · iexact HO
    iexact HaB
  iintro ⟨HO, HaB, Hbar⟩
  ihave Hbar' := (Entails.of_eq (bigSep_fin15 _)) $$ Hbar
  unfold barPay
  icases Hbar' with ⟨⟨⟨%fd0, Hd0⟩, -⟩, ⟨⟨%fd1, Hd1⟩, -⟩, ⟨⟨%fd2, Hd2⟩, -⟩, ⟨⟨%fd3, Hd3⟩, -⟩, ⟨⟨%fd4, Hd4⟩, -⟩, ⟨⟨%fd5, Hd5⟩, -⟩, ⟨⟨%fd6, Hd6⟩, -⟩, ⟨⟨%fd7, Hd7⟩, -⟩, ⟨⟨%fd8, Hd8⟩, -⟩, ⟨⟨%fd9, Hd9⟩, -⟩, ⟨⟨%fd10, Hd10⟩, -⟩, ⟨⟨%fd11, Hd11⟩, -⟩, ⟨⟨%fd12, Hd12⟩, -⟩, ⟨⟨%fd13, Hd13⟩, -⟩, ⟨⟨%fd14, Hd14⟩, -⟩⟩
  send_step 13 dev16_eq fd13 Hsh13 Hd13 HtS13 HtR13 HcS13
  send_step 12 dev17_eq fd12 Hsh12 Hd12 HtS12 HtR12 HcS12
  rw [k0_part9_eq_skeleton]; unfold k0_part9_skel
  simp only [semSignalWord, semWaitWord, Prog.lift, Prog.bind_op, Prog.bind_ret, Prog.pure_eq_ret, wp_deviceId]
  send_step 14 dev18_eq fd14 Hsh14 Hd14 HtS14 HtR14 HcS14
  send_step 9 dev19_eq fd9 Hsh9 Hd9 HtS9 HtR9 HcS9
  send_step 8 dev20_eq fd8 Hsh8 Hd8 HtS8 HtR8 HcS8
  rw [k0_part10_eq_skeleton]; unfold k0_part10_skel
  simp only [semSignalWord, semWaitWord, Prog.lift, Prog.bind_op, Prog.bind_ret, Prog.pure_eq_ret, wp_deviceId]
  send_step 10 dev21_eq fd10 Hsh10 Hd10 HtS10 HtR10 HcS10
  send_step 11 dev22_eq fd11 Hsh11 Hd11 HtS11 HtR11 HcS11
  send_step 5 dev23_eq fd5 Hsh5 Hd5 HtS5 HtR5 HcS5
  send_step 7 dev24_eq fd7 Hsh7 Hd7 HtS7 HtR7 HcS7
  rw [k0_part11_eq_skeleton]; unfold k0_part11_skel
  simp only [semSignalWord, semWaitWord, Prog.lift, Prog.bind_op, Prog.bind_ret, Prog.pure_eq_ret, wp_deviceId]
  send_step 1 dev25_eq fd1 Hsh1 Hd1 HtS1 HtR1 HcS1
  send_step 4 dev26_eq fd4 Hsh4 Hd4 HtS4 HtR4 HcS4
  send_step 6 dev27_eq fd6 Hsh6 Hd6 HtS6 HtR6 HcS6
  rw [k0_part12_eq_skeleton]; unfold k0_part12_skel
  simp only [semSignalWord, semWaitWord, Prog.lift, Prog.bind_op, Prog.bind_ret, Prog.pure_eq_ret, wp_deviceId]
  send_step 0 dev28_eq fd0 Hsh0 Hd0 HtS0 HtR0 HcS0
  send_step 2 dev29_eq fd2 Hsh2 Hd2 HtS2 HtR2 HcS2
  send_step 3 dev30_eq fd3 Hsh3 Hd3 HtS3 HtR3 HcS3
  rw [owed_send_done]
  rw [k0_part13_eq_skeleton]; unfold k0_part13_skel
  simp only [semSignalWord, semWaitWord, Prog.lift, Prog.bind_op, Prog.bind_ret, Prog.pure_eq_ret, wp_deviceId]
  swait_step 13 HcS13 HaS13 Hsp13
  swait_step 12 HcS12 HaS12 Hsp12
  swait_step 14 HcS14 HaS14 Hsp14
  swait_step 9 HcS9 HaS9 Hsp9
  swait_step 8 HcS8 HaS8 Hsp8
  swait_step 10 HcS10 HaS10 Hsp10
  rw [k0_part14_eq_skeleton]; unfold k0_part14_skel
  simp only [semSignalWord, semWaitWord, Prog.lift, Prog.bind_op, Prog.bind_ret, Prog.pure_eq_ret, wp_deviceId]
  swait_step 11 HcS11 HaS11 Hsp11
  swait_step 5 HcS5 HaS5 Hsp5
  swait_step 7 HcS7 HaS7 Hsp7
  swait_step 1 HcS1 HaS1 Hsp1
  swait_step 4 HcS4 HaS4 Hsp4
  swait_step 6 HcS6 HaS6 Hsp6
  rw [k0_part15_eq_skeleton]; unfold k0_part15_skel
  simp only [semSignalWord, semWaitWord, Prog.lift, Prog.bind_op, Prog.bind_ret, Prog.pure_eq_ret, wp_deviceId]
  swait_step 0 HcS0 HaS0 Hsp0
  swait_step 2 HcS2 HaS2 Hsp2
  swait_step 3 HcS3 HaS3 Hsp3
  rw [sendSet_done]
  rwait_step 3 HcR3 HaR3 Hrp3
  rw [k0_part16_eq_skeleton]; unfold k0_part16_skel
  simp only [semSignalWord, semWaitWord, Prog.lift, Prog.bind_op, Prog.bind_ret, Prog.pure_eq_ret, wp_deviceId]
  rwait_step 2 HcR2 HaR2 Hrp2
  rwait_step 0 HcR0 HaR0 Hrp0
  rwait_step 6 HcR6 HaR6 Hrp6
  rw [k0_part17_eq_skeleton]; unfold k0_part17_skel
  simp only [semSignalWord, semWaitWord, Prog.lift, Prog.bind_op, Prog.bind_ret, Prog.pure_eq_ret, wp_deviceId]
  rwait_step 4 HcR4 HaR4 Hrp4
  rwait_step 1 HcR1 HaR1 Hrp1
  rw [k0_part18_eq_skeleton]; unfold k0_part18_skel
  simp only [semSignalWord, semWaitWord, Prog.lift, Prog.bind_op, Prog.bind_ret, Prog.pure_eq_ret, wp_deviceId]
  rwait_step 7 HcR7 HaR7 Hrp7
  rwait_step 5 HcR5 HaR5 Hrp5
  rwait_step 11 HcR11 HaR11 Hrp11
  rw [k0_part19_eq_skeleton]; unfold k0_part19_skel
  simp only [semSignalWord, semWaitWord, Prog.lift, Prog.bind_op, Prog.bind_ret, Prog.pure_eq_ret, wp_deviceId]
  rwait_step 10 HcR10 HaR10 Hrp10
  rwait_step 8 HcR8 HaR8 Hrp8
  rwait_step 9 HcR9 HaR9 Hrp9
  rw [k0_part20_eq_skeleton]; unfold k0_part20_skel
  simp only [semSignalWord, semWaitWord, Prog.lift, Prog.bind_op, Prog.bind_ret, Prog.pure_eq_ret, wp_deviceId]
  rwait_step 14 HcR14 HaR14 Hrp14
  rwait_step 12 HcR12 HaR12 Hrp12
  rwait_step 13 HcR13 HaR13 Hrp13
  -- every own cell stands at round 1 with nothing more scheduled: they close, their counters back at zero
  imod (close_copy m K c) $$ [HaC0 HaC1 HaC2 HaC3 HaC4 HaC5 HaC6 HaC7] with HzC
  · isplitr
    · iexact Hrec
    rw [bigSep_fin8]
    isplitl [HaC0]
    · iexact HaC0
    isplitl [HaC1]
    · iexact HaC1
    isplitl [HaC2]
    · iexact HaC2
    isplitl [HaC3]
    · iexact HaC3
    isplitl [HaC4]
    · iexact HaC4
    isplitl [HaC5]
    · iexact HaC5
    isplitl [HaC6]
    · iexact HaC6
    iexact HaC7
  imod (close_send m K c) $$ [HaS0 HaS1 HaS2 HaS3 HaS4 HaS5 HaS6 HaS7 HaS8 HaS9 HaS10 HaS11 HaS12 HaS13 HaS14] with HzS
  · isplitr
    · iexact Hrec
    rw [bigSep_fin15]
    isplitl [HaS0]
    · iexact HaS0
    isplitl [HaS1]
    · iexact HaS1
    isplitl [HaS2]
    · iexact HaS2
    isplitl [HaS3]
    · iexact HaS3
    isplitl [HaS4]
    · iexact HaS4
    isplitl [HaS5]
    · iexact HaS5
    isplitl [HaS6]
    · iexact HaS6
    isplitl [HaS7]
    · iexact HaS7
    isplitl [HaS8]
    · iexact HaS8
    isplitl [HaS9]
    · iexact HaS9
    isplitl [HaS10]
    · iexact HaS10
    isplitl [HaS11]
    · iexact HaS11
    isplitl [HaS12]
    · iexact HaS12
    isplitl [HaS13]
    · iexact HaS13
    iexact HaS14
  imod (close_recv m K c) $$ [HaR0 HaR1 HaR2 HaR3 HaR4 HaR5 HaR6 HaR7 HaR8 HaR9 HaR10 HaR11 HaR12 HaR13 HaR14] with HzR
  · isplitr
    · iexact Hrec
    rw [bigSep_fin15]
    isplitl [HaR0]
    · iexact HaR0
    isplitl [HaR1]
    · iexact HaR1
    isplitl [HaR2]
    · iexact HaR2
    isplitl [HaR3]
    · iexact HaR3
    isplitl [HaR4]
    · iexact HaR4
    isplitl [HaR5]
    · iexact HaR5
    isplitl [HaR6]
    · iexact HaR6
    isplitl [HaR7]
    · iexact HaR7
    isplitl [HaR8]
    · iexact HaR8
    isplitl [HaR9]
    · iexact HaR9
    isplitl [HaR10]
    · iexact HaR10
    isplitl [HaR11]
    · iexact HaR11
    isplitl [HaR12]
    · iexact HaR12
    isplitl [HaR13]
    · iexact HaR13
    iexact HaR14
  -- the result block: loaded whole (the value is not used), stored whole
  iapply (wp_load (defs := defs₀ (F := F)) (Γ := PendingWaitsCtx.empty) 𝒱₀ (c : Thread nD τ) none Set.univ (m := (oM : Memref sig .tc .vmem S1x1024 .f32)) (Finset.subset_univ _)) $$ Hout
  iintro Hout
  iapply (wp_store (defs := defs₀ (F := F)) (Γ := PendingWaitsCtx.empty) 𝒱₀ (c : Thread nD τ) none Set.univ (m := (oM : Memref sig .tc .vmem S1x1024 .f32)) (r := r0) (Mk := Finset.univ) (Finset.subset_univ _)) $$ Hout
  iintro Hout
  rw [write_out, wp_ret]; imodintro
  rw [owed_empty]
  -- the buffers whole again
  ihave Hown := (own_row_home m c) $$ [Hsp0 Hsp1 Hsp2 Hsp3 Hsp4 Hsp5 Hsp6 Hsp7 Hsp8 Hsp9 Hsp10 Hsp11 Hsp12 Hsp13 Hsp14]
  · rw [bigSep_fin15]
    isplitl [Hsp0]
    · iexact Hsp0
    isplitl [Hsp1]
    · iexact Hsp1
    isplitl [Hsp2]
    · iexact Hsp2
    isplitl [Hsp3]
    · iexact Hsp3
    isplitl [Hsp4]
    · iexact Hsp4
    isplitl [Hsp5]
    · iexact Hsp5
    isplitl [Hsp6]
    · iexact Hsp6
    isplitl [Hsp7]
    · iexact Hsp7
    isplitl [Hsp8]
    · iexact Hsp8
    isplitl [Hsp9]
    · iexact Hsp9
    isplitl [Hsp10]
    · iexact Hsp10
    isplitl [Hsp11]
    · iexact Hsp11
    isplitl [Hsp12]
    · iexact Hsp12
    isplitl [Hsp13]
    · iexact Hsp13
    iexact Hsp14
  ihave Hcbuf := (rows_home m c _) $$ [Hown Hrp0 Hrp1 Hrp2 Hrp3 Hrp4 Hrp5 Hrp6 Hrp7 Hrp8 Hrp9 Hrp10 Hrp11 Hrp12 Hrp13 Hrp14]
  · isplitl [Hown]
    · iexact Hown
    rw [bigSep_fin15]; unfold recvPay
    isplitl [Hrp0]
    · iexact Hrp0
    isplitl [Hrp1]
    · iexact Hrp1
    isplitl [Hrp2]
    · iexact Hrp2
    isplitl [Hrp3]
    · iexact Hrp3
    isplitl [Hrp4]
    · iexact Hrp4
    isplitl [Hrp5]
    · iexact Hrp5
    isplitl [Hrp6]
    · iexact Hrp6
    isplitl [Hrp7]
    · iexact Hrp7
    isplitl [Hrp8]
    · iexact Hrp8
    isplitl [Hrp9]
    · iexact Hrp9
    isplitl [Hrp10]
    · iexact Hrp10
    isplitl [Hrp11]
    · iexact Hrp11
    isplitl [Hrp12]
    · iexact Hrp12
    isplitl [Hrp13]
    · iexact Hrp13
    iexact Hrp14
  ihave Hbx := (slabs_home m c) $$ [Hsl0 Hsl1 Hsl2 Hsl3 Hsl4 Hsl5 Hsl6 Hsl7 Hxr0 Hxr1 Hxr2 Hxr3 Hxr4 Hxr5 Hxr6 Hxr7]
  · rw [bigSep_fin8]; unfold copyPay
    isplitl [Hsl0 Hxr0]
    · isplitl [Hsl0]
      · iexact Hsl0
      iexact Hxr0
    isplitl [Hsl1 Hxr1]
    · isplitl [Hsl1]
      · iexact Hsl1
      iexact Hxr1
    isplitl [Hsl2 Hxr2]
    · isplitl [Hsl2]
      · iexact Hsl2
      iexact Hxr2
    isplitl [Hsl3 Hxr3]
    · isplitl [Hsl3]
      · iexact Hsl3
      iexact Hxr3
    isplitl [Hsl4 Hxr4]
    · isplitl [Hsl4]
      · iexact Hsl4
      iexact Hxr4
    isplitl [Hsl5 Hxr5]
    · isplitl [Hsl5]
      · iexact Hsl5
      iexact Hxr5
    isplitl [Hsl6 Hxr6]
    · isplitl [Hsl6]
      · iexact Hsl6
      iexact Hxr6
    isplitl [Hsl7]
    · iexact Hsl7
    iexact Hxr7
  icases Hbx with ⟨Hb, Hx⟩
  rw [show (dats m 0 c).Φ t₀.succ = Φ₁ m c from rfl, show (dats m 0 c).owed t₀.succ = 0 from rfl]
  unfold Φ₁
  isplitl [Hb Hcbuf Hx HzC HzS HzR]
  · isplitl [Hb]
    · iexact Hb
    isplitl [Hcbuf]
    · iexact Hcbuf
    isplitl [Hx]
    · iexact Hx
    isplitl [HzC]
    · iexact HzC
    isplitl [HzS]
    · iexact HzS
    iexact HzR
  isplitl [HO]
  · iexists _
    isplitr
    rotate_left
    · iexact HO
    · ipureintro; exact fun _ _ => Or.inl trivial
  iexists _
  isplitr
  · ipureintro; rfl
  iexact Hout

/-- info: 'Cert.Kernel.P.body_obligation' depends on axioms: [propext, Classical.choice, Quot.sound] -/
#guard_msgs in #print axioms body_obligation

end Cert.Kernel.P

end
-- ==== Proof.Bits.Launch.lean ====
/-
  The launch: from every device's body to the run of the whole program on the mesh.
-/
import proofs.«901088_g7700000000001089_dist_sum_ax0_shard0_i_m4096_n1024_v7x_i16_f32_1_alg».proof.Proof.Bits.Body

noncomputable section

namespace Cert.Kernel.P

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The layout: the kernel's own semaphores, and the cells of a device family by family -/

theorem ownSemFacts : Pipeline.OwnSemFacts cfg0.spec osem := by decide

theorem share_eq (c : Dev nD) (w : Fin cfg0.W) : (dats (F := F) m 0 c).share w = fullShare := by unfold Dat.share; split <;> rfl

theorem csem_injective : Function.Injective csem := by decide

theorem kcell_injective : Function.Injective (kcell : Dev nD × Fin 39 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-- Every device's 39 cells. -/
def ringCells : Finset (GSem nD τ sig) := Finset.univ.map ⟨kcell, kcell_injective⟩

/-- The 39 cell indices as the barrier's, the eight copies', the fifteen sends' and the fifteen receives'. -/
abbrev Fam : Type := Unit ⊕ (Fin 8 ⊕ (Fin 15 ⊕ Fin 15))
def famIx : Fam → Fin 39 := Sum.elim (fun _ => 0) (Sum.elim ixCopy (Sum.elim ixSend ixRecv))
theorem famIx_bijective : Function.Bijective famIx := by decide
def famEquiv : Fam ≃ Fin 39 := Equiv.ofBijective famIx famIx_bijective

/-- A product over the 39 cell indices, family by family. -/
theorem bigSep_fin39 (Φ : Fin 39 → sProp 𝕄) :
    bigSep Finset.univ Φ = iprop(Φ 0 ∗ (bigSep Finset.univ fun k : Fin 8 => Φ (ixCopy k)) ∗ (bigSep Finset.univ fun i : Fin 15 => Φ (ixSend i))
      ∗ (bigSep Finset.univ fun i : Fin 15 => Φ (ixRecv i))) := by
  rw [bigSep_univ_equiv famEquiv, bigSep_univ_sum, bigSep_univ_sum, bigSep_univ_sum, bigSep_univ_of_subsingleton ()]; rfl

/-- A product over a device's cells, family by family. -/
theorem bigSep_cells (c : Dev nD) (Φ : GSem nD τ sig → sProp 𝕄) :
    (bigSep Finset.univ fun k : Fin 39 => Φ (kcell (c, k)))
      = iprop(Φ (barCell c) ∗ (bigSep Finset.univ fun k : Fin 8 => Φ (copyCell c k)) ∗ (bigSep Finset.univ fun i : Fin 15 => Φ (sendCell c i))
        ∗ (bigSep Finset.univ fun i : Fin 15 => Φ (recvCell c i))) := by
  rw [bigSep_fin39]
  simp only [kcell, csem_copy, csem_send, csem_recv]
  rfl

/-- The 38 own semaphores as the eight copies', the fifteen sends' and the fifteen receives'. -/
abbrev Own : Type := Fin 8 ⊕ (Fin 15 ⊕ Fin 15)
def ownIx : Own → Fin 38 :=
  Sum.elim (fun k => ⟨k.val, by omega⟩) (Sum.elim (fun i => ⟨8 + i.val, by omega⟩) (fun i => ⟨23 + i.val, by omega⟩))
theorem ownIx_bijective : Function.Bijective ownIx := by decide
def ownEquiv : Own ≃ Fin 38 := Equiv.ofBijective ownIx ownIx_bijective
theorem osem_copy (k : Fin 8) : osem (ownIx (.inl k)) = .dma (copySem k) := by revert k; decide
theorem osem_send (i : Fin 15) : osem (ownIx (.inr (.inl i))) = .dma (sendSem i) := by revert i; decide
theorem osem_recv (i : Fin 15) : osem (ownIx (.inr (.inr i))) = .dma (recvSem i) := by revert i; decide

/-! ## The launch element -/

/-- The duty tokens minted: for every device the fifteen duties of its barrier cell, and the one duty of each of its
    copy, send and receive cells. -/
abbrev TokIx : Type := Fin 15 ⊕ (Fin 8 ⊕ (Fin 15 ⊕ Fin 15))
def tokOf (cj : Dev nD × TokIx) : GSem nD τ sig × ℕ × Fin 15 := match cj.2 with
  | .inl d => (barCell cj.1, 0, d)
  | .inr (.inl k) => (copyCell cj.1 k, 0, 0)
  | .inr (.inr (.inl i)) => (sendCell cj.1 i, 0, 0)
  | .inr (.inr (.inr i)) => (recvCell cj.1 i, 0, 0)

/-- A token index by the kind of its cell and its duty. -/
def kindTok : TokIx → Kind × Fin 15
  | .inl d => (.bar, d)
  | .inr (.inl k) => (.copy k, 0)
  | .inr (.inr (.inl i)) => (.send i, 0)
  | .inr (.inr (.inr i)) => (.recv i, 0)
theorem kindTok_injective : Function.Injective kindTok := by decide
theorem tokOf_kind (c : Dev nD) (j : TokIx) : (kindOf (tokOf (c, j)).1.2, (tokOf (c, j)).2.2) = kindTok j := by
  rcases j with d | k | i | i
  · rfl
  · exact Prod.ext (kind_copy k) rfl
  · exact Prod.ext (kind_send i) rfl
  · exact Prod.ext (kind_recv i) rfl
theorem tokOf_dev (c : Dev nD) (j : TokIx) : (tokOf (c, j)).1.1.1 = c := by rcases j with d | k | i | i <;> rfl

theorem tokOf_injective : Function.Injective (tokOf : Dev nD × TokIx → GSem nD τ sig × ℕ × Fin 15) := by
  rintro ⟨c, j⟩ ⟨c', j'⟩ h
  have h1 : c = c' :=
    calc c = (tokOf (c, j)).1.1.1 := (tokOf_dev c j).symm
      _ = (tokOf (c', j')).1.1.1 := by rw [h]
      _ = c' := tokOf_dev c' j'
  subst h1
  have h2 : kindTok j = kindTok j' :=
    calc kindTok j = (kindOf (tokOf (c, j)).1.2, (tokOf (c, j)).2.2) := (tokOf_kind c j).symm
      _ = (kindOf (tokOf (c, j')).1.2, (tokOf (c, j')).2.2) := by rw [h]
      _ = kindTok j' := tokOf_kind c j'
  rw [kindTok_injective h2]

def ringToks : Finset (GSem nD τ sig × ℕ × Fin 15) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep Finset.univ fun d : Fin 15 => dutyTok ER (barCell c) 0 d)
    ∗ (bigSep Finset.univ fun k : Fin 8 => dutyTok ER (copyCell c k) 0 0)
    ∗ (bigSep Finset.univ fun i : Fin 15 => dutyTok ER (sendCell c i) 0 0)
    ∗ (bigSep Finset.univ fun i : Fin 15 => dutyTok ER (recvCell c i) 0 0))

/-- What the launch element deals device `c`. -/
def G (c : Dev nD) : sProp 𝕄 :=
  iprop((bigSep Finset.univ fun k : Fin 39 => roundState ER (sched m) (kcell (c, k)) 0)
    ∗ (bigSep Finset.univ fun k : Fin 39 => iprop(atPos ER (kcell (c, k)) 0 ∅ 0 ∗ reached ER (kcell (c, k)) 0)) ∗ toks c)

/-- What the global step makes of it. -/
def G' (c : Dev nD) : sProp 𝕄 := iprop(∃ K, ghost m K c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 39 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_univ_sum, bigSep_univ_sum]; rfl
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: the cells' invariants allocated, the tokens dealt to their payers -/

/-- The kernel's own 38 semaphores at zero, family by family; -/
theorem ownSems0_eq (c : Dev nD) : (Pipeline.ownSems0 (Ix := Unit) (Name := ℕ) (U := UU) (Lvl := ℕ) (Val := Elt F) (τ := τ) osem c : sProp 𝕄)
    = iprop((bigSep Finset.univ fun k : Fin 8 => semVal (copyCell c k) 0) ∗ (bigSep Finset.univ fun i : Fin 15 => semVal (sendCell c i) 0)
      ∗ (bigSep Finset.univ fun i : Fin 15 => semVal (recvCell c i) 0)) := by
  unfold Pipeline.ownSems0
  rw [bigSep_univ_equiv ownEquiv, bigSep_univ_sum, bigSep_univ_sum]
  show iprop((bigSep Finset.univ fun k : Fin 8 => semVal ((c : Thread nD τ), osem (ownIx (.inl k))) 0)
      ∗ (bigSep Finset.univ fun i : Fin 15 => semVal ((c : Thread nD τ), osem (ownIx (.inr (.inl i)))) 0)
      ∗ (bigSep Finset.univ fun i : Fin 15 => semVal ((c : Thread nD τ), osem (ownIx (.inr (.inr i)))) 0)) = _
  simp only [osem_copy, osem_send, osem_recv]

/-- the barrier semaphore the one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 39 => semVal (kcell (c, k)) 0 : sProp 𝕄) := by
  rw [ownSems0_eq, unscopedSems0_eq, bigSep_cells c (fun g => semVal g 0)]
  iintro ⟨⟨HC, HS, HV⟩, HB⟩
  isplitl [HB]; · iexact HB
  isplitl [HC]; · iexact HC
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 39 => semVal (kcell (c, k)) 0) ∗ bigSep Finset.univ fun k : Fin 39 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × Fin 39 → ℕ) (c : Dev nD) : iprop(records m K ∗ positions c ∗ payToks c) ⊢ G' m c := by
  unfold G' ghost
  iintro H
  iexists K
  iexact H

/-- A barrier cell's token of duty `j` goes to the peer at offset `j`, which sees the cell's owner at offset `rev j`. -/
def barDeal : Dev nD × Fin 15 ≃ Dev nD × Fin 15 where
  toFun cj := (peer cj.1 cj.2, cj.2.rev)
  invFun cj := (peer cj.1 cj.2, cj.2.rev)
  left_inv := by rintro ⟨c, j⟩; show (peer (peer c j) j.rev, j.rev.rev) = (c, j); rw [peer_peer_rev, Fin.rev_rev]
  right_inv := by rintro ⟨c, j⟩; show (peer (peer c j) j.rev, j.rev.rev) = (c, j); rw [peer_peer_rev, Fin.rev_rev]

/-- A receive cell's token goes to the device `off i` places before its owner, which sees the owner at offset `i`. -/
def recvDeal : Dev nD × Fin 15 ≃ Dev nD × Fin 15 where
  toFun ci := (peer ci.1 ci.2, ci.2)
  invFun ci := (peer ci.1 ci.2.rev, ci.2)
  left_inv := by rintro ⟨c, i⟩; show (peer (peer c i) i.rev, i) = (c, i); rw [peer_peer_rev]
  right_inv := by rintro ⟨c, i⟩; show (peer (peer c i.rev) i, i) = (c, i); rw [peer_rev_peer]

/-- The tokens dealt to their payers: the barrier cells' and the receive cells' go round the ring, the copy and send
    cells' stay. -/
theorem toks_around : (bigSep Finset.univ fun c : Dev nD => (toks c : sProp 𝕄)) ⊢ bigSep Finset.univ fun c : Dev nD => payToks c := by
  have hA : (bigSep Finset.univ fun c : Dev nD => bigSep Finset.univ fun d : Fin 15 => (dutyTok ER (barCell c) 0 d : sProp 𝕄))
      = bigSep Finset.univ fun c : Dev nD => bigSep Finset.univ fun j : Fin 15 => dutyTok ER (barCell (peer c j)) 0 j.rev :=
    calc _ = bigSep Finset.univ (fun cd : Dev nD × Fin 15 => (dutyTok ER (barCell cd.1) 0 cd.2 : sProp 𝕄)) :=
            (bigSep_univ_prod (fun cd : Dev nD × Fin 15 => (dutyTok ER (barCell cd.1) 0 cd.2 : sProp 𝕄))).symm
      _ = bigSep Finset.univ (fun cd : Dev nD × Fin 15 => (dutyTok ER (barCell (barDeal cd).1) 0 (barDeal cd).2 : sProp 𝕄)) :=
            bigSep_univ_equiv barDeal _
      _ = _ := bigSep_univ_prod _
  have hD : (bigSep Finset.univ fun c : Dev nD => bigSep Finset.univ fun i : Fin 15 => (dutyTok ER (recvCell c i) 0 0 : sProp 𝕄))
      = bigSep Finset.univ fun c : Dev nD => bigSep Finset.univ fun i : Fin 15 => dutyTok ER (recvCell (peer c i) i) 0 0 :=
    calc _ = bigSep Finset.univ (fun ci : Dev nD × Fin 15 => (dutyTok ER (recvCell ci.1 ci.2) 0 0 : sProp 𝕄)) :=
            (bigSep_univ_prod (fun ci : Dev nD × Fin 15 => (dutyTok ER (recvCell ci.1 ci.2) 0 0 : sProp 𝕄))).symm
      _ = bigSep Finset.univ (fun ci : Dev nD × Fin 15 => (dutyTok ER (recvCell (recvDeal ci).1 (recvDeal ci).2) 0 0 : sProp 𝕄)) :=
            bigSep_univ_equiv recvDeal _
      _ = _ := bigSep_univ_prod _
  unfold toks payToks
  rw [bigSep_sep', bigSep_sep', bigSep_sep', bigSep_sep', bigSep_sep', bigSep_sep', hA, hD]

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 39 => iprop(∃ κ : ℕ, cellInv ER (sched m) κ (kcell ck))),
    bigSep_congr (s := Finset.univ) (fun (c : Dev nD) _ => bigSep_sep' Finset.univ (fun k : Fin 39 => (atPos ER (kcell (c, k)) 0 ∅ 0 : sProp 𝕄)) (fun k => reached ER (kcell (c, k)) 0)),
    bigSep_sep', ← bigSep_univ_prod (fun ck : Dev nD × Fin 39 => (reached ER (kcell ck) 0 : sProp 𝕄))]
  iintro ⟨HI, ⟨Hat, #HR⟩, Htok⟩
  ihave HK := (BI.bigSep_exists_pi Finset.univ (fun (ck : Dev nD × Fin 39) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 39 => (atPos ER (kcell (c, k)) 0 ∅ 0 : sProp 𝕄)) payToks).symm).trans
      (bigSep_mono fun c _ => show _ ⊢ iprop(positions c ∗ payToks c) from Entails.of_eq (by unfold positions; rw [bigSep_cells c (fun g => atPos ER g 0 ∅ 0)])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem nsmul_tallyAt (g : GSem nD τ sig) (n : ℕ) : n • (tallyAt g () 1 : CellTallies nD τ sig Unit) = tallyAt g () n := by
  induction n with
  | zero => rw [zero_nsmul, tallyAt_zero]
  | succ n ih => rw [succ_nsmul, ih, tallyAt_add]

/-- The unit every device owes the barrier cell of its peer at offset `j`, summed over the devices, is one unit for each device's barrier cell; -/
theorem cred_bar (c : Dev nD) (j : Fin 15) :
    (Pipeline.launchCred (fun d : Dev nD => (tallyAt (barCell (peer d j)) () 1 : CellTallies nD τ sig Unit)) c : sProp 𝕄) ⊢ cred (tallyAt (barCell c) () 1) :=
  Pipeline.launchCred_tallyAt (.reg barS) (fun d => peer d j) (fun d => peer d j.rev) (fun d => peer_rev_peer d j) (fun d => peer_peer_rev d j) () 1 c
/-- likewise the row transfer owed to receive cell `i` of the peer at offset `i`. -/
theorem cred_recv (c : Dev nD) (i : Fin 15) :
    (Pipeline.launchCred (fun d : Dev nD => (tallyAt (recvCell (peer d i) i) () NR : CellTallies nD τ sig Unit)) c : sProp 𝕄) ⊢ cred (tallyAt (recvCell c i) () NR) :=
  Pipeline.launchCred_tallyAt (.dma (recvSem i)) (fun d => peer d i) (fun d => peer d i.rev) (fun d => peer_rev_peer d i) (fun d => peer_peer_rev d i) () NR c

theorem creds_bar (c : Dev nD) :
    (bigSep Finset.univ fun j : Fin 15 => Pipeline.launchCred (fun d : Dev nD => (tallyAt (barCell (peer d j)) () 1 : CellTallies nD τ sig Unit)) c : sProp 𝕄)
      ⊢ cred (tallyAt (barCell c) () 15) := by
  have h15 : (tallyAt (barCell c) () 15 : CellTallies nD τ sig Unit) = ∑ _j : Fin 15, tallyAt (barCell c) () 1 := by
    rw [Finset.sum_const, Finset.card_univ, Fintype.card_fin, nsmul_tallyAt]
  rw [h15, Pipeline.cred_finsetSum]
  exact bigSep_mono fun j _ => cred_bar c j
theorem creds_recv (c : Dev nD) :
    (bigSep Finset.univ fun i : Fin 15 => Pipeline.launchCred (fun d : Dev nD => (tallyAt (recvCell (peer d i) i) () NR : CellTallies nD τ sig Unit)) c : sProp 𝕄)
      ⊢ bigSep Finset.univ fun i : Fin 15 => cred (tallyAt (recvCell c i) () NR) :=
  bigSep_mono fun i _ => cred_recv c i

/-- What all devices owe a device: fifteen handshake units on its barrier cell, one row transfer on each receive cell. -/
theorem creds (c : Dev nD) :
    (Pipeline.launchCred O₀ c : sProp 𝕄) ⊢ iprop(cred (tallyAt (barCell c) () 15) ∗ bigSep Finset.univ fun i : Fin 15 => cred (tallyAt (recvCell c i) () NR)) := by
  have e : (O₀ : Dev nD → CellTallies nD τ sig Unit)
      = fun d => (∑ i ∈ Finset.univ, (fun (i : Fin 15) (d : Dev nD) => (tallyAt (recvCell (peer d i) i) () NR : CellTallies nD τ sig Unit)) i d)
        + (∑ j ∈ Finset.univ, (fun (j : Fin 15) (d : Dev nD) => (tallyAt (barCell (peer d j)) () 1 : CellTallies nD τ sig Unit)) j d) := rfl
  rw [e, Pipeline.launchCred_add, Pipeline.launchCred_sum, Pipeline.launchCred_sum]
  iintro ⟨HR, HB⟩
  isplitl [HB]
  · iapply (creds_bar (F := F) c); iexact HB
  · iapply (creds_recv (F := F) c); iexact HR

/-! ## The theorem's side conditions -/

/-- A device owes only receive cells and barrier cells. -/
theorem O₀_pos {c : Dev nD} {g : GSem nD τ sig} {u : Unit} (h : 0 < O₀ c g u) :
    (∃ i, g = recvCell (peer c i) i) ∨ (∃ j, g = barCell (peer c j)) := by
  unfold O₀ owedOf at h
  rcases Pipeline.add_pos_cases h with h | h
  · obtain ⟨i, -, hi⟩ := Pipeline.sum_pos_exists h
    exact Or.inl ⟨i, (Pipeline.tallyAt_pos hi).1⟩
  · obtain ⟨j, -, hj⟩ := Pipeline.sum_pos_exists h
    exact Or.inr ⟨j, (Pipeline.tallyAt_pos hj).1⟩

/-- The staging cell sits at level 0, below everything a device owes. -/
theorem mayWait_stage (c : Dev nD) (O : CellTallies nD τ sig Unit) (hO : O = O₀ c ∨ O = 0) :
    (levAts L lv : sProp 𝕄) ⊢ MayWait (c : Thread nD τ) (.dma cc0_sem0_0) () O := by
  rcases hO with rfl | rfl
  · refine Pipeline.mayWait_of_levAts (by rw [L_tc]; exact Finset.mem_singleton_self _) fun g u hg => ?_
    rcases O₀_pos hg with ⟨i, rfl⟩ | ⟨j, rfl⟩
    · refine ⟨by rw [L_tc]; exact Finset.mem_singleton_self _, ?_⟩
      show lv _ _ < lv _ _
      dsimp only [lv]; rw [kind_recv]; exact Nat.zero_lt_two
    · refine ⟨by rw [L_tc]; exact Finset.mem_singleton_self _, ?_⟩
      show lv _ _ < lv _ _
      dsimp only [lv]; rw [kind_bar]; exact Nat.zero_lt_one
  · rw [MayWait_zero]; iintro -; iempintro

theorem waits (c : Dev nD) : (levAts L lv : sProp 𝕄) ⊢ Pipeline.cellsWaits cfgs (dats (F := F) m) () 0 c :=
  Pipeline.cellsWaits_intro cfgs (dats m) () 0 c fun w s t => by
    have hs : ((cfgs 0).win w).sem s = cc0_sem0_0 := by fin_cases w; fin_cases s; rfl
    rw [hs]
    exact mayWait_stage c _ (by
      rcases t with ⟨_ | _, ht⟩
      · exact Or.inl rfl
      · exact Or.inr rfl)

/-- What a device starts from besides its scoped buffers: `start`, and its block in HBM. -/
def X (c : Dev nD) : sProp 𝕄 :=
  iprop(start m c ∗ (((c : Thread nD τ).loc main_arg0) ↦{fullShare} m ((c : Thread nD τ).loc main_arg0)))
/-- What it ends with besides them: its block in HBM, unchanged. -/
def Y (c : Dev nD) : sProp 𝕄 := iprop(((c : Thread nD τ).loc main_arg0) ↦{fullShare} m ((c : Thread nD τ).loc main_arg0))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(X m c ∗ emp) := by
  rw [Pipeline.unscopedRestP_none, unscopedRest0_eq]
  iintro ⟨Hx, Hlev, Hcr, -, HG⟩
  ihave Hc := (creds (F := F) c) $$ Hcr
  icases Hc with ⟨HB, HR⟩
  imodintro
  unfold X start G'
  isplitl
  · isplitr [Hx]
    · isplitl [HG]; · iexact HG
      isplitl [HB]; · iexact HB
      isplitl [HR]; · iexact HR
      iexact Hlev
    · iexact Hx
  · iempintro

theorem phi0_intro (c : Dev nD) :
    iprop(X m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ X
  iintro ⟨⟨Hs, Hx⟩, -, ⟨H0, H1⟩⟩
  isplitl [Hs]; · iexact Hs
  isplitl [H0]; · iexact H0
  isplitl [H1]; · iexact H1
  iexact Hx

theorem phi1_exit (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = Φ₁ m c from rfl, scopedRest0_eq, ownSems0_eq]
  unfold Φ₁ Y
  iintro ⟨H0, H1, Hx, Hc, Hs, Hr⟩
  isplitl [Hx]; · iexact Hx
  isplitl [Hc Hs Hr]
  · isplitl [Hc]; · iexact Hc
    isplitl [Hs] <;> iassumption
  isplitl [H0] <;> iassumption

/-! ## The result array -/

/-- The result array after the one point's write-back holds what the body left in the staging buffer. -/
theorem final_out (c : Dev nD) : (dats (F := F) m 0 c).arrAt (0 : Fin 1) cfg0.N = outAt m c := by
  show (dats (F := F) m 0 c).arrAt (0 : Fin 1) ((t0_0 : Fin cfg0.N).val + 1) = _
  rw [(dats (F := F) m 0 c).arrAt_succ 0 t0_0, flush0_0 t0_0, if_pos rfl]
  have hz : (fun a => (win0_0.index t0_0) a * main_v1.ty.shape.size a) = fun _ => 0 := funext fun a => by fin_cases a <;> decide
  refine (Memref.write_access_unit_zero_univ (Elt F) main_v1 hz (fun a => by fin_cases a <;> decide) _ _).trans ?_
  show (cfg0.win 0).cut (cfg0.grid.coords t0_0) ((dats (F := F) m 0 c).after 0 t0_0) = _
  dsimp only [dats]
  rfl

/-! ## The run -/

/-- After the run every device's result array holds the sum in that device's order, and its block is unchanged. -/
def QC : PUnit × MemSt nD τ sig (Elt F) → Prop := fun r => ∀ c : Dev nD,
  r.2.mem ((c.tc : Thread nD τ).loc main_v1) = outAt m c
  ∧ r.2.mem ((c.tc : Thread nD τ).loc main_arg0) = m ((c.tc : Thread nD τ).loc main_arg0)

set_option maxRecDepth 8000 in
/-- At the compiled mesh of sixteen devices, from any memory with every semaphore at zero: every weakly fair execution
    of the program terminates, nothing faults, and every final state satisfies `QC`. -/
theorem run_main : θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := X m) (Y := Y m) (Z := fun _ => iprop(emp))
    (hX := start_intro m ρ) (hin := phi0_intro m) (hout := phi1_exit m)
    (QY := fun c s => s.mem ((c : Thread nD τ).loc main_arg0) = m ((c : Thread nD τ).loc main_arg0))
    (hY := fun c s' => by
      unfold Y
      iintro ⟨Hx, -, HSI⟩
      icombine HSI Hx gives %hx
      imodintro
      isplitr; · ipureintro; exact Buf.eq_of_forall_mem_univ hx
      iexact HSI)
    (hQ := fun s h c => ⟨((h c).1 0).trans (final_out m c), (h c).2.2⟩)

/-- info: 'Cert.Kernel.P.run_main' depends on axioms: [propext, Classical.choice, Quot.sound] -/
#guard_msgs in #print axioms run_main

end Cert.Kernel.P

end
-- ==== Proof.Claims.lean ====
/-
  The five conjuncts of the claim. Each kernel's frame is its run on the mesh of sixteen devices with the result's
  value dropped, and the reference's frame is its run likewise. For the algebraic conjunct the reference ends holding
  the column sums of the whole array, and every device ends holding the sixteen devices' partial sums added in its own
  order: device `j`'s partial sum is that of block `j` of the whole array, and the sixteen add up, in any order, to
  the column sums.
-/
import proofs.«901088_g7700000000001089_dist_sum_ax0_shard0_i_m4096_n1024_v7x_i16_f32_1_alg».proof.Defs
import proofs.«901088_g7700000000001089_dist_sum_ax0_shard0_i_m4096_n1024_v7x_i16_f32_1_alg».proof.Proof.Launch
import proofs.«901088_g7700000000001089_dist_sum_ax0_shard0_i_m4096_n1024_v7x_i16_f32_1_alg».proof.Proof.Bits.Launch
import proofs.«901088_g7700000000001089_dist_sum_ax0_shard0_i_m4096_n1024_v7x_i16_f32_1_alg».proof.Proof.Gen.Pre_finite_inputs_Kernel
import proofs.«901088_g7700000000001089_dist_sum_ax0_shard0_i_m4096_n1024_v7x_i16_f32_1_alg».proof.Proof.Gen.Pre_finite_inputs_ReferenceIdeal

noncomputable section

namespace Cert.Proof.Claims

open Idealize.ShloMosaic Idealize.SL.Sem

/-- The kernel as printed, at words: it runs, and every device's block ends as it began. -/
theorem frame_Kernel :
    Cert.frame_Kernel (hKernel := Cert.Kernel.Gen.facts) (hPre_finite_inputs_Kernel := Cert.Pre_finite_inputs_Kernel.Gen.facts) :=
  fun m ρ _ => (θ_run _ _ _).mono (fun _ h c => (h c).2) (Cert.Kernel.P.run_main (F := Bits) m ρ)

/-- The kernel over the extended reals: it runs, and every device's block ends as it began. -/
theorem frame_KernelIdeal :
    Cert.frame_KernelIdeal (hKernelIdeal := Cert.KernelIdeal.Gen.facts) (hPre_finite_inputs_Kernel := Cert.Pre_finite_inputs_Kernel.Gen.facts) :=
  fun m ρ _ => (θ_run _ _ _).mono (fun _ h c => (h c).2) (Cert.KernelIdeal.P.run_main (F := Ideal) m ρ)

/-- The reference, on its one device: it runs, and the whole array ends as it began. -/
theorem frame_ReferenceIdeal :
    Cert.frame_ReferenceIdeal (hReferenceIdeal := Cert.ReferenceIdeal.Gen.facts) (hPre_finite_inputs_ReferenceIdeal := Cert.Pre_finite_inputs_ReferenceIdeal.Gen.facts) :=
  fun m' g' _ => (θ_run _ _ _).mono (fun _ h c => by
    obtain rfl : c = 0 := Fin.ext (Nat.lt_one_iff.mp c.isLt)
    exact h.2) (Cert.KernelIdeal.SumValue.ref_run m' g')

/-- No operation was rewritten between the two printed kernels. -/
theorem preserves : Cert.preserves_Kernel_KernelIdeal := trivial

/-- A device's partial sum, as the schedule names it, is the partial sum of its block. -/
theorem part_eq (m : (ℓ : Loc Cert.KernelIdeal.nD Cert.KernelIdeal.τ Cert.KernelIdeal.sig) → Buf (Elt Ideal) ℓ) (j : Dev Cert.KernelIdeal.nD) :
    Cert.KernelIdeal.P.part m j
      = Cert.KernelIdeal.SumValue.localSum (m ((j.tc : Thread Cert.KernelIdeal.nD Cert.KernelIdeal.τ).loc Cert.KernelIdeal.main_arg0)) :=
  rfl

/-- Over the extended reals the sixteen devices, each holding its block of the whole array, all end with the
    reference's result. -/
theorem algebraic :
    Cert.algebraic_KernelIdeal_ReferenceIdeal (hKernelIdeal := Cert.KernelIdeal.Gen.facts) (hReferenceIdeal := Cert.ReferenceIdeal.Gen.facts)
      (hPre_finite_inputs_Kernel := Cert.Pre_finite_inputs_Kernel.Gen.facts) := by
  intro m g m' g' _ hblk
  refine ⟨Cert.KernelIdeal.SumValue.refVal (m' (((0 : Dev Cert.ReferenceIdeal.nD).tc : Thread Cert.ReferenceIdeal.nD Cert.ReferenceIdeal.τ).loc Cert.ReferenceIdeal.main_arg0)),
    ?_, Cert.KernelIdeal.SumValue.ref_run m' g'⟩
  refine (θ_run _ _ _).mono (fun _ h c => ⟨(h c).1.trans ?_, (h c).2⟩) (Cert.KernelIdeal.P.run_main (F := Ideal) m g)
  show Cert.KernelIdeal.SumValue.total (fun j => Cert.KernelIdeal.P.part m j) c = _
  rw [show (fun j => Cert.KernelIdeal.P.part m j)
      = fun j => Cert.KernelIdeal.SumValue.localSum (Layout.block ⟨2, ![4096, 1024]⟩ ⟨2, ![65536, 1024]⟩ 0 16 j
          (m' (((0 : Dev Cert.ReferenceIdeal.nD).tc : Thread Cert.ReferenceIdeal.nD Cert.ReferenceIdeal.τ).loc Cert.ReferenceIdeal.main_arg0)))
    from funext fun j => by rw [part_eq, hblk j]]
  exact Cert.KernelIdeal.SumValue.total_eq_ref _ c

end Cert.Proof.Claims

end
-- ==== Proof.lean ====
/-
  The claim: the witnesses of the facts the three programs and the two preconditions state, and the five conjuncts —
  the two kernels' frames, the reference's frame, that no operation was rewritten between the two kernels, and the
  algebraic agreement of the sixteen devices' results with the reference's column sum — each proved in Proof/Claims.lean.
-/
import proofs.«901088_g7700000000001089_dist_sum_ax0_shard0_i_m4096_n1024_v7x_i16_f32_1_alg».proof.Defs
import proofs.«901088_g7700000000001089_dist_sum_ax0_shard0_i_m4096_n1024_v7x_i16_f32_1_alg».proof.Proof.Gen.Kernel
import proofs.«901088_g7700000000001089_dist_sum_ax0_shard0_i_m4096_n1024_v7x_i16_f32_1_alg».proof.Proof.Gen.Kernel.Skeleton
import proofs.«901088_g7700000000001089_dist_sum_ax0_shard0_i_m4096_n1024_v7x_i16_f32_1_alg».proof.Proof.Gen.Kernel.Launch
import proofs.«901088_g7700000000001089_dist_sum_ax0_shard0_i_m4096_n1024_v7x_i16_f32_1_alg».proof.Proof.Gen.Kernel.Points
import proofs.«901088_g7700000000001089_dist_sum_ax0_shard0_i_m4096_n1024_v7x_i16_f32_1_alg».proof.Proof.Gen.Kernel.Frame
import proofs.«901088_g7700000000001089_dist_sum_ax0_shard0_i_m4096_n1024_v7x_i16_f32_1_alg».proof.Proof.Gen.KernelIdeal
import proofs.«901088_g7700000000001089_dist_sum_ax0_shard0_i_m4096_n1024_v7x_i16_f32_1_alg».proof.Proof.Gen.KernelIdeal.Skeleton
import proofs.«901088_g7700000000001089_dist_sum_ax0_shard0_i_m4096_n1024_v7x_i16_f32_1_alg».proof.Proof.Gen.KernelIdeal.Launch
import proofs.«901088_g7700000000001089_dist_sum_ax0_shard0_i_m4096_n1024_v7x_i16_f32_1_alg».proof.Proof.Gen.KernelIdeal.Points
import proofs.«901088_g7700000000001089_dist_sum_ax0_shard0_i_m4096_n1024_v7x_i16_f32_1_alg».proof.Proof.Gen.KernelIdeal.Frame
import proofs.«901088_g7700000000001089_dist_sum_ax0_shard0_i_m4096_n1024_v7x_i16_f32_1_alg».proof.Proof.Gen.ReferenceIdeal
import proofs.«901088_g7700000000001089_dist_sum_ax0_shard0_i_m4096_n1024_v7x_i16_f32_1_alg».proof.Proof.Gen.Pre_finite_inputs_Kernel
import proofs.«901088_g7700000000001089_dist_sum_ax0_shard0_i_m4096_n1024_v7x_i16_f32_1_alg».proof.Proof.Gen.Pre_finite_inputs_ReferenceIdeal
import Idealize.ShloMosaic.Adequacy
import Idealize.ShloMosaic.Init
import proofs.«901088_g7700000000001089_dist_sum_ax0_shard0_i_m4096_n1024_v7x_i16_f32_1_alg».proof.Proof.Claims

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  Claims.frame_Kernel, Claims.frame_KernelIdeal, Claims.frame_ReferenceIdeal, Claims.preserves, Claims.algebraic⟩

end Cert.Proof

end
